-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v291) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x2 : Shape := ⟨3, ![1024, 1024, 2]⟩
abbrev S32x1024 : Shape := ⟨2, ![32, 1024]⟩
abbrev S32x256x256 : Shape := ⟨3, ![32, 256, 256]⟩
abbrev S64x32 : Shape := ⟨2, ![64, 32]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1024x1024x2 : S_.BroadcastsInDim S1024x1024x2 (![] : Fin 0 → Fin S1024x1024x2.rank)
  reducesTo_S1024x1024x2_S_d0_1_2 : S1024x1024x2.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S32x256x256 : S_.BroadcastsInDim S32x256x256 (![] : Fin 0 → Fin S32x256x256.rank)
  reducesTo_S32x256x256_S_d0_1_2 : S32x256x256.ReducesTo [0, 1, 2] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x32 .f32) (main_arg5 : FVec F S64 .f32) (main_arg6 : FVec F S1x64 .f32) (main_arg7 : FVec F S1 .f32) (main_v13 : IVec S_ 1) (main_v16 : IVec S32x256x256 1) : IVec S_ 1 :=
  let main_c_5 : IVec S_ 1 := constantI S_ 1 1#1
  let main_v17 : IVec S_ 1 := (fun x v => Host.reduce IntOp.andi x v reducesTo_S32x256x256_S_d0_1_2 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S1024x1024x2 .f32) (main_arg1 : FVec F S32x1024 .f32) (main_arg2 : FVec F S32x1024 .f32) (main_arg3 : FVec F S32x256x256 .f32) (main_arg4 : FVec F S64x32 .f32) (main_arg5 : FVec F S64 .f32) (main_arg6 : FVec F S1x64 .f32) (main_arg7 : FVec F S1 .f32) : IVec S_ 1 :=
  let main_v0 : FVec F S1024x1024x2 .f32 := Host.absf main_arg0
  let main_cst : FVec F S_ .f32 := constant S_ .f32 0x7F800000#32
  let main_v1 : FVec F S1024x1024x2 .f32 := broadcastInDim S1024x1024x2 ![] bcast_S_S1024x1024x2 main_cst
  let main_v2 : IVec S1024x1024x2 1 := cmpf .olt main_v0 main_v1
  let main_c : IVec S_ 1 := constantI S_ 1 1#1
  let main_v3 : IVec S_ 1 := (fun x v => Host.reduce IntOp.andi x v reducesTo_S1024x1024x2_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S32x1024 .f32 := Host.absf main_arg2
  let main_cst_2 : FVec F S_ .f32 := constant S_ .f32 0x7F800000#32
  let main_v10 : FVec F S32x1024 .f32 := broadcastInDim S32x1024 ![] bcast_S_S32x1024 main_cst_2
  let main_v11 : IVec S32x1024 1 := cmpf .olt main_v9 main_v10
  let main_c_3 : IVec S_ 1 := constantI S_ 1 1#1
  let main_v12 : IVec S_ 1 := (fun x v => Host.reduce IntOp.andi x v reducesTo_S32x1024_S_d0_1 h_S_) main_v11 main_c_3
  let main_v13 : IVec S_ 1 := andi main_v8 main_v12
  let main_v14 : FVec F S32x256x256 .f32 := Host.absf main_arg3
  let main_cst_4 : FVec F S_ .f32 := constant S_ .f32 0x7F800000#32
  let main_v15 : FVec F S32x256x256 .f32 := broadcastInDim S32x256x256 ![] bcast_S_S32x256x256 main_cst_4
  let main_v16 : IVec S32x256x256 1 := cmpf .olt main_v14 main_v15
  fn_part1 (F := F) main_arg4 main_arg5 main_arg6 main_arg7 main_v13 main_v16
-- ==== Kernel.lean ====
abbrev S1024x1024x2 : Shape := ⟨3, ![1024, 1024, 2]⟩
abbrev S32x1024 : Shape := ⟨2, ![32, 1024]⟩
abbrev S32x256x256 : Shape := ⟨3, ![32, 256, 256]⟩
abbrev S64x32 : Shape := ⟨2, ![64, 32]⟩
abbrev S64 : Shape := ⟨1, ![64]⟩
abbrev S1x64 : Shape := ⟨2, ![1, 64]⟩
abbrev S1 : Shape := ⟨1, ![1]⟩
abbrev S1024x1024x1 : Shape := ⟨3, ![1024, 1024, 1]⟩
abbrev S1024x1024 : Shape := ⟨2, ![1024, 1024]⟩
abbrev S_ : Shape := ⟨0, ![]⟩
abbrev S1024x32 : Shape := ⟨2, ![1024, 32]⟩
abbrev S256x256x32 : Shape := ⟨3, ![256, 256, 32]⟩
abbrev S1024x1024x32 : Shape := ⟨3, ![1024, 1024, 32]⟩
abbrev S32x1024x1024 : Shape := ⟨3, ![32, 1024, 1024]⟩
abbrev S32x1048576 : Shape := ⟨2, ![32, 1048576]⟩
abbrev S64x1 : Shape := ⟨2, ![64, 1]⟩
abbrev S1x1 : Shape := ⟨2, ![1, 1]⟩
abbrev S1x1048576 : Shape := ⟨2, ![1, 1048576]⟩
abbrev S32x65536 : Shape := ⟨2, ![32, 65536]⟩
abbrev S1x65536 : Shape := ⟨2, ![1, 65536]⟩
abbrev S32x16384 : Shape := ⟨2, ![32, 16384]⟩
abbrev S64x16384 : Shape := ⟨2, ![64, 16384]⟩
abbrev S1x16384 : Shape := ⟨2, ![1, 16384]⟩

abbrev nBuf : Space → Nat
  | .hbm => 433
  | .vmem => 8
  | .smem => 0
  | _ => 0

abbrev hbmTy0_0 (i : Nat) : BufTy := match i % 128 with
  | 0 => ⟨S1024x1024x2, .f32⟩
  | 1 => ⟨S32x1024, .f32⟩
  | 2 => ⟨S32x1024, .f32⟩
  | 3 => ⟨S32x256x256, .f32⟩
  | 4 => ⟨S64x32, .f32⟩
  | 5 => ⟨S64, .f32⟩
  | 6 => ⟨S1x64, .f32⟩
  | 7 => ⟨S1, .f32⟩
  | 8 => ⟨S1024x1024x1, .f32⟩
  | 9 => ⟨S1024x1024, .f32⟩
  | 10 => ⟨S_, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S_, .f32⟩
  | 17 => ⟨S1024x1024, .f32⟩
  | 18 => ⟨S1024x1024, .f32⟩
  | 19 => ⟨S1024x1024x1, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S1024x32, .f32⟩
  | 31 => ⟨S1024x32, .f32⟩
  | 32 => ⟨S256x256x32, .f32⟩
  | 33 => ⟨S_, .f32⟩
  | 34 => ⟨S1024x1024, .f32⟩
  | 35 => ⟨S1024x1024, .f32⟩
  | 36 => ⟨S_, .f32⟩
  | 37 => ⟨S1024x1024, .f32⟩
  | 38 => ⟨S1024x1024, .f32⟩
  | 39 => ⟨S_, .f32⟩
  | 40 => ⟨S1024x1024, .f32⟩
  | 41 => ⟨S1024x1024, .f32⟩
  | 42 => ⟨S_, .f32⟩
  | 43 => ⟨S_, .f32⟩
  | 44 => ⟨S_, .f32⟩
  | 45 => ⟨S1024x1024, .f32⟩
  | 46 => ⟨S1024x1024, .f32⟩
  | 47 => ⟨S_, .f32⟩
  | 48 => ⟨S1024x1024, .f32⟩
  | 49 => ⟨S1024x1024, .f32⟩
  | 50 => ⟨S1024x1024, .f32⟩
  | 51 => ⟨S1024x1024, .i32⟩
  | 52 => ⟨S_, .i32⟩
  | 53 => ⟨S1024x1024, .i32⟩
  | 54 => ⟨S1024x1024, .i32⟩
  | 55 => ⟨S1024x1024, .f32⟩
  | 56 => ⟨S1024x1024, .f32⟩
  | 57 => ⟨S_, .i32⟩
  | 58 => ⟨S1024x1024, .i32⟩
  | 59 => ⟨S1024x1024, .i1⟩
  | 60 => ⟨S_, .i32⟩
  | 61 => ⟨S1024x1024, .i32⟩
  | 62 => ⟨S1024x1024, .i32⟩
  | 63 => ⟨S1024x1024, .i32⟩
  | 64 => ⟨S1024x1024x1, .i32⟩
  | 65 => ⟨S1024x1024x32, .f32⟩
  | 66 => ⟨S_, .i32⟩
  | 67 => ⟨S1024x1024, .i32⟩
  | 68 => ⟨S1024x1024, .i32⟩
  | 69 => ⟨S_, .i32⟩
  | 70 => ⟨S1024x1024, .i32⟩
  | 71 => ⟨S1024x1024, .i1⟩
  | 72 => ⟨S_, .i32⟩
  | 73 => ⟨S1024x1024, .i32⟩
  | 74 => ⟨S1024x1024, .i32⟩
  | 75 => ⟨S1024x1024, .i32⟩
  | 76 => ⟨S1024x1024x1, .i32⟩
  | 77 => ⟨S1024x1024x32, .f32⟩
  | 78 => ⟨S_, .f32⟩
  | 79 => ⟨S1024x1024, .f32⟩
  | 80 => ⟨S1024x1024, .f32⟩
  | 81 => ⟨S1024x1024x1, .f32⟩
  | 82 => ⟨S1024x1024x32, .f32⟩
  | 83 => ⟨S1024x1024x32, .f32⟩
  | 84 => ⟨S1024x1024x1, .f32⟩
  | 85 => ⟨S1024x1024x32, .f32⟩
  | 86 => ⟨S1024x1024x32, .f32⟩
  | 87 => ⟨S1024x1024x32, .f32⟩
  | 88 => ⟨S_, .f32⟩
  | 89 => ⟨S1024x1024, .f32⟩
  | 90 => ⟨S1024x1024, .f32⟩
  | 91 => ⟨S_, .f32⟩
  | 92 => ⟨S1024x1024, .f32⟩
  | 93 => ⟨S1024x1024, .f32⟩
  | 94 => ⟨S_, .f32⟩
  | 95 => ⟨S1024x1024, .f32⟩
  | 96 => ⟨S1024x1024, .f32⟩
  | 97 => ⟨S_, .f32⟩
  | 98 => ⟨S_, .f32⟩
  | 99 => ⟨S_, .f32⟩
  | 100 => ⟨S1024x1024, .f32⟩
  | 101 => ⟨S1024x1024, .f32⟩
  | 102 => ⟨S_, .f32⟩
  | 103 => ⟨S1024x1024, .f32⟩
  | 104 => ⟨S1024x1024, .f32⟩
  | 105 => ⟨S1024x1024, .f32⟩
  | 106 => ⟨S1024x1024, .i32⟩
  | 107 => ⟨S_, .i32⟩
  | 108 => ⟨S1024x1024, .i32⟩
  | 109 => ⟨S1024x1024, .i32⟩
  | 110 => ⟨S1024x1024, .f32⟩
  | 111 => ⟨S1024x1024, .f32⟩
  | 112 => ⟨S_, .i32⟩
  | 113 => ⟨S1024x1024, .i32⟩
  | 114 => ⟨S1024x1024, .i1⟩
  | 115 => ⟨S_, .i32⟩
  | 116 => ⟨S1024x1024, .i32⟩
  | 117 => ⟨S1024x1024, .i32⟩
  | 118 => ⟨S1024x1024, .i32⟩
  | 119 => ⟨S1024x1024x1, .i32⟩
  | 120 => ⟨S1024x1024x32, .f32⟩
  | 121 => ⟨S_, .i32⟩
  | 122 => ⟨S1024x1024, .i32⟩
  | 123 => ⟨S1024x1024, .i32⟩
  | 124 => ⟨S_, .i32⟩
  | 125 => ⟨S1024x1024, .i32⟩
  | 126 => ⟨S1024x1024, .i1⟩
  | 127 => ⟨S_, .i32⟩
  | _ => ⟨S1024x1024x2, .f32⟩

abbrev hbmTy0_1 (i : Nat) : BufTy := match i % 128 with
  | 0 => ⟨S1024x1024, .i32⟩
  | 1 => ⟨S1024x1024, .i32⟩
  | 2 => ⟨S1024x1024, .i32⟩
  | 3 => ⟨S1024x1024x1, .i32⟩
  | 4 => ⟨S1024x1024x32, .f32⟩
  | 5 => ⟨S_, .f32⟩
  | 6 => ⟨S1024x1024, .f32⟩
  | 7 => ⟨S1024x1024, .f32⟩
  | 8 => ⟨S1024x1024x1, .f32⟩
  | 9 => ⟨S1024x1024x32, .f32⟩
  | 10 => ⟨S1024x1024x32, .f32⟩
  | 11 => ⟨S1024x1024x1, .f32⟩
  | 12 => ⟨S1024x1024x32, .f32⟩
  | 13 => ⟨S1024x1024x32, .f32⟩
  | 14 => ⟨S1024x1024x32, .f32⟩
  | 15 => ⟨S_, .f32⟩
  | 16 => ⟨S1024x1024, .f32⟩
  | 17 => ⟨S1024x1024, .f32⟩
  | 18 => ⟨S_, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S_, .f32⟩
  | 31 => ⟨S1024x1024, .f32⟩
  | 32 => ⟨S1024x1024, .f32⟩
  | 33 => ⟨S1024x1024, .f32⟩
  | 34 => ⟨S1024x1024, .i32⟩
  | 35 => ⟨S1024x1024, .f32⟩
  | 36 => ⟨S1024x1024, .i32⟩
  | 37 => ⟨S1024x1024, .f32⟩
  | 38 => ⟨S1024x1024, .f32⟩
  | 39 => ⟨S1024x1024, .f32⟩
  | 40 => ⟨S1024x1024, .f32⟩
  | 41 => ⟨S_, .i32⟩
  | 42 => ⟨S1024x1024, .i32⟩
  | 43 => ⟨S1024x1024, .i1⟩
  | 44 => ⟨S_, .i32⟩
  | 45 => ⟨S1024x1024, .i32⟩
  | 46 => ⟨S1024x1024, .i1⟩
  | 47 => ⟨S1024x1024, .i1⟩
  | 48 => ⟨S_, .i32⟩
  | 49 => ⟨S1024x1024, .i32⟩
  | 50 => ⟨S1024x1024, .i1⟩
  | 51 => ⟨S1024x1024, .i1⟩
  | 52 => ⟨S_, .i32⟩
  | 53 => ⟨S1024x1024, .i32⟩
  | 54 => ⟨S1024x1024, .i1⟩
  | 55 => ⟨S1024x1024, .i1⟩
  | 56 => ⟨S_, .i32⟩
  | 57 => ⟨S_, .i32⟩
  | 58 => ⟨S_, .i32⟩
  | 59 => ⟨S1024x1024, .i32⟩
  | 60 => ⟨S1024x1024, .i32⟩
  | 61 => ⟨S_, .i32⟩
  | 62 => ⟨S1024x1024, .i32⟩
  | 63 => ⟨S1024x1024, .i32⟩
  | 64 => ⟨S_, .i32⟩
  | 65 => ⟨S_, .i32⟩
  | 66 => ⟨S_, .i32⟩
  | 67 => ⟨S1024x1024, .i32⟩
  | 68 => ⟨S1024x1024, .i32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i1⟩
  | 75 => ⟨S_, .i32⟩
  | 76 => ⟨S1024x1024, .i32⟩
  | 77 => ⟨S1024x1024, .i32⟩
  | 78 => ⟨S1024x1024, .i32⟩
  | 79 => ⟨S_, .i32⟩
  | 80 => ⟨S1024x1024, .i32⟩
  | 81 => ⟨S1024x1024, .i1⟩
  | 82 => ⟨S_, .i32⟩
  | 83 => ⟨S1024x1024, .i32⟩
  | 84 => ⟨S1024x1024, .i32⟩
  | 85 => ⟨S1024x1024, .i32⟩
  | 86 => ⟨S1024x1024x1, .i32⟩
  | 87 => ⟨S1024x1024x1, .i32⟩
  | 88 => ⟨S1024x1024x2, .i32⟩
  | 89 => ⟨S1024x1024x32, .f32⟩
  | 90 => ⟨S1024x1024x1, .i1⟩
  | 91 => ⟨S1024x1024x1, .f32⟩
  | 92 => ⟨S1024x1024x32, .f32⟩
  | 93 => ⟨S1024x1024x32, .f32⟩
  | 94 => ⟨S_, .f32⟩
  | 95 => ⟨S1024x1024, .f32⟩
  | 96 => ⟨S1024x1024, .f32⟩
  | 97 => ⟨S_, .f32⟩
  | 98 => ⟨S1024x1024, .f32⟩
  | 99 => ⟨S1024x1024, .f32⟩
  | 100 => ⟨S1024x1024, .f32⟩
  | 101 => ⟨S1024x1024x1, .f32⟩
  | 102 => ⟨S1024x1024x32, .f32⟩
  | 103 => ⟨S1024x1024x32, .f32⟩
  | 104 => ⟨S_, .i32⟩
  | 105 => ⟨S1024x1024, .i32⟩
  | 106 => ⟨S1024x1024, .i32⟩
  | 107 => ⟨S_, .i32⟩
  | 108 => ⟨S1024x1024, .i32⟩
  | 109 => ⟨S1024x1024, .i1⟩
  | 110 => ⟨S_, .i32⟩
  | 111 => ⟨S1024x1024, .i32⟩
  | 112 => ⟨S1024x1024, .i1⟩
  | 113 => ⟨S1024x1024, .i1⟩
  | 114 => ⟨S_, .i32⟩
  | 115 => ⟨S1024x1024, .i32⟩
  | 116 => ⟨S1024x1024, .i1⟩
  | 117 => ⟨S1024x1024, .i1⟩
  | 118 => ⟨S_, .i32⟩
  | 119 => ⟨S1024x1024, .i32⟩
  | 120 => ⟨S1024x1024, .i1⟩
  | 121 => ⟨S1024x1024, .i1⟩
  | 122 => ⟨S_, .i32⟩
  | 123 => ⟨S_, .i32⟩
  | 124 => ⟨S_, .i32⟩
  | 125 => ⟨S1024x1024, .i32⟩
  | 126 => ⟨S1024x1024, .i32⟩
  | 127 => ⟨S_, .i32⟩
  | _ => ⟨S1024x1024x2, .f32⟩

abbrev hbmTy0_2 (i : Nat) : BufTy := match i % 128 with
  | 0 => ⟨S1024x1024, .i32⟩
  | 1 => ⟨S1024x1024, .i32⟩
  | 2 => ⟨S_, .i32⟩
  | 3 => ⟨S_, .i32⟩
  | 4 => ⟨S_, .i32⟩
  | 5 => ⟨S1024x1024, .i32⟩
  | 6 => ⟨S1024x1024, .i32⟩
  | 7 => ⟨S_, .i32⟩
  | 8 => ⟨S1024x1024, .i32⟩
  | 9 => ⟨S1024x1024, .i32⟩
  | 10 => ⟨S_, .i32⟩
  | 11 => ⟨S1024x1024, .i32⟩
  | 12 => ⟨S1024x1024, .i1⟩
  | 13 => ⟨S_, .i32⟩
  | 14 => ⟨S1024x1024, .i32⟩
  | 15 => ⟨S1024x1024, .i32⟩
  | 16 => ⟨S1024x1024, .i32⟩
  | 17 => ⟨S_, .i32⟩
  | 18 => ⟨S1024x1024, .i32⟩
  | 19 => ⟨S1024x1024, .i1⟩
  | 20 => ⟨S_, .i32⟩
  | 21 => ⟨S1024x1024, .i32⟩
  | 22 => ⟨S1024x1024, .i32⟩
  | 23 => ⟨S1024x1024, .i32⟩
  | 24 => ⟨S1024x1024x1, .i32⟩
  | 25 => ⟨S1024x1024x1, .i32⟩
  | 26 => ⟨S1024x1024x2, .i32⟩
  | 27 => ⟨S1024x1024x32, .f32⟩
  | 28 => ⟨S1024x1024x1, .i1⟩
  | 29 => ⟨S1024x1024x1, .f32⟩
  | 30 => ⟨S1024x1024x32, .f32⟩
  | 31 => ⟨S1024x1024x32, .f32⟩
  | 32 => ⟨S_, .f32⟩
  | 33 => ⟨S1024x1024, .f32⟩
  | 34 => ⟨S1024x1024, .f32⟩
  | 35 => ⟨S1024x1024, .f32⟩
  | 36 => ⟨S1024x1024x1, .f32⟩
  | 37 => ⟨S1024x1024x32, .f32⟩
  | 38 => ⟨S1024x1024x32, .f32⟩
  | 39 => ⟨S1024x1024x32, .f32⟩
  | 40 => ⟨S_, .i32⟩
  | 41 => ⟨S1024x1024, .i32⟩
  | 42 => ⟨S1024x1024, .i32⟩
  | 43 => ⟨S_, .i32⟩
  | 44 => ⟨S1024x1024, .i32⟩
  | 45 => ⟨S1024x1024, .i1⟩
  | 46 => ⟨S_, .i32⟩
  | 47 => ⟨S1024x1024, .i32⟩
  | 48 => ⟨S1024x1024, .i1⟩
  | 49 => ⟨S1024x1024, .i1⟩
  | 50 => ⟨S_, .i32⟩
  | 51 => ⟨S1024x1024, .i32⟩
  | 52 => ⟨S1024x1024, .i1⟩
  | 53 => ⟨S1024x1024, .i1⟩
  | 54 => ⟨S_, .i32⟩
  | 55 => ⟨S1024x1024, .i32⟩
  | 56 => ⟨S1024x1024, .i1⟩
  | 57 => ⟨S1024x1024, .i1⟩
  | 58 => ⟨S_, .i32⟩
  | 59 => ⟨S_, .i32⟩
  | 60 => ⟨S_, .i32⟩
  | 61 => ⟨S1024x1024, .i32⟩
  | 62 => ⟨S1024x1024, .i32⟩
  | 63 => ⟨S_, .i32⟩
  | 64 => ⟨S1024x1024, .i32⟩
  | 65 => ⟨S1024x1024, .i32⟩
  | 66 => ⟨S_, .i32⟩
  | 67 => ⟨S_, .i32⟩
  | 68 => ⟨S_, .i32⟩
  | 69 => ⟨S1024x1024, .i32⟩
  | 70 => ⟨S1024x1024, .i32⟩
  | 71 => ⟨S_, .i32⟩
  | 72 => ⟨S1024x1024, .i32⟩
  | 73 => ⟨S1024x1024, .i32⟩
  | 74 => ⟨S_, .i32⟩
  | 75 => ⟨S1024x1024, .i32⟩
  | 76 => ⟨S1024x1024, .i1⟩
  | 77 => ⟨S_, .i32⟩
  | 78 => ⟨S1024x1024, .i32⟩
  | 79 => ⟨S1024x1024, .i32⟩
  | 80 => ⟨S1024x1024, .i32⟩
  | 81 => ⟨S_, .i32⟩
  | 82 => ⟨S1024x1024, .i32⟩
  | 83 => ⟨S1024x1024, .i1⟩
  | 84 => ⟨S_, .i32⟩
  | 85 => ⟨S1024x1024, .i32⟩
  | 86 => ⟨S1024x1024, .i32⟩
  | 87 => ⟨S1024x1024, .i32⟩
  | 88 => ⟨S1024x1024x1, .i32⟩
  | 89 => ⟨S1024x1024x1, .i32⟩
  | 90 => ⟨S1024x1024x2, .i32⟩
  | 91 => ⟨S1024x1024x32, .f32⟩
  | 92 => ⟨S1024x1024x1, .i1⟩
  | 93 => ⟨S1024x1024x1, .f32⟩
  | 94 => ⟨S1024x1024x32, .f32⟩
  | 95 => ⟨S1024x1024x32, .f32⟩
  | 96 => ⟨S_, .f32⟩
  | 97 => ⟨S1024x1024, .f32⟩
  | 98 => ⟨S1024x1024, .f32⟩
  | 99 => ⟨S1024x1024, .f32⟩
  | 100 => ⟨S1024x1024x1, .f32⟩
  | 101 => ⟨S1024x1024x32, .f32⟩
  | 102 => ⟨S1024x1024x32, .f32⟩
  | 103 => ⟨S1024x1024x32, .f32⟩
  | 104 => ⟨S_, .i32⟩
  | 105 => ⟨S1024x1024, .i32⟩
  | 106 => ⟨S1024x1024, .i32⟩
  | 107 => ⟨S_, .i32⟩
  | 108 => ⟨S1024x1024, .i32⟩
  | 109 => ⟨S1024x1024, .i32⟩
  | 110 => ⟨S_, .i32⟩
  | 111 => ⟨S1024x1024, .i32⟩
  | 112 => ⟨S1024x1024, .i1⟩
  | 113 => ⟨S_, .i32⟩
  | 114 => ⟨S1024x1024, .i32⟩
  | 115 => ⟨S1024x1024, .i1⟩
  | 116 => ⟨S1024x1024, .i1⟩
  | 117 => ⟨S_, .i32⟩
  | 118 => ⟨S1024x1024, .i32⟩
  | 119 => ⟨S1024x1024, .i1⟩
  | 120 => ⟨S1024x1024, .i1⟩
  | 121 => ⟨S_, .i32⟩
  | 122 => ⟨S1024x1024, .i32⟩
  | 123 => ⟨S1024x1024, .i1⟩
  | 124 => ⟨S1024x1024, .i1⟩
  | 125 => ⟨S_, .i32⟩
  | 126 => ⟨S_, .i32⟩
  | 127 => ⟨S_, .i32⟩
  | _ => ⟨S1024x1024x2, .f32⟩

abbrev hbmTy0_3 (i : Nat) : BufTy := match i % 128 with
  | 0 => ⟨S1024x1024, .i32⟩
  | 1 => ⟨S1024x1024, .i32⟩
  | 2 => ⟨S_, .i32⟩
  | 3 => ⟨S1024x1024, .i32⟩
  | 4 => ⟨S1024x1024, .i32⟩
  | 5 => ⟨S_, .i32⟩
  | 6 => ⟨S_, .i32⟩
  | 7 => ⟨S_, .i32⟩
  | 8 => ⟨S1024x1024, .i32⟩
  | 9 => ⟨S1024x1024, .i32⟩
  | 10 => ⟨S_, .i32⟩
  | 11 => ⟨S1024x1024, .i32⟩
  | 12 => ⟨S1024x1024, .i32⟩
  | 13 => ⟨S_, .i32⟩
  | 14 => ⟨S1024x1024, .i32⟩
  | 15 => ⟨S1024x1024, .i1⟩
  | 16 => ⟨S_, .i32⟩
  | 17 => ⟨S1024x1024, .i32⟩
  | 18 => ⟨S1024x1024, .i32⟩
  | 19 => ⟨S1024x1024, .i32⟩
  | 20 => ⟨S_, .i32⟩
  | 21 => ⟨S1024x1024, .i32⟩
  | 22 => ⟨S1024x1024, .i1⟩
  | 23 => ⟨S_, .i32⟩
  | 24 => ⟨S1024x1024, .i32⟩
  | 25 => ⟨S1024x1024, .i32⟩
  | 26 => ⟨S1024x1024, .i32⟩
  | 27 => ⟨S1024x1024x1, .i32⟩
  | 28 => ⟨S1024x1024x1, .i32⟩
  | 29 => ⟨S1024x1024x2, .i32⟩
  | 30 => ⟨S1024x1024x32, .f32⟩
  | 31 => ⟨S1024x1024x1, .i1⟩
  | 32 => ⟨S1024x1024x1, .f32⟩
  | 33 => ⟨S1024x1024x32, .f32⟩
  | 34 => ⟨S1024x1024x32, .f32⟩
  | 35 => ⟨S1024x1024, .f32⟩
  | 36 => ⟨S1024x1024x1, .f32⟩
  | 37 => ⟨S1024x1024x32, .f32⟩
  | 38 => ⟨S1024x1024x32, .f32⟩
  | 39 => ⟨S1024x1024x32, .f32⟩
  | 40 => ⟨S1024x1024x32, .f32⟩
  | 41 => ⟨S1024x1024x32, .f32⟩
  | 42 => ⟨S32x1024x1024, .f32⟩
  | 43 => ⟨S32x1048576, .f32⟩
  | 44 => ⟨S32x1048576, .bf16⟩
  | 45 => ⟨S64x1, .f32⟩
  | 46 => ⟨S1x1, .f32⟩
  | 47 => ⟨S1x1048576, .f32⟩
  | 48 => ⟨S1024x1024, .f32⟩
  | _ => ⟨S1024x1024x2, .f32⟩

abbrev hbmTy (i : Nat) : BufTy := match i / 128 with
  | 0 => hbmTy0_0 i
  | 1 => hbmTy0_1 i
  | 2 => hbmTy0_2 i
  | 3 => hbmTy0_3 i
  | _ => ⟨S1024x1024x2, .f32⟩

abbrev bufTy : (tb : Table) → Fin (tcTables nBuf tb) → BufTy
  | .hbm, ⟨i, _⟩ => hbmTy i
  | .local _ .vmem, ⟨0, _⟩ => ⟨S32x65536, .bf16⟩
  | .local _ .vmem, ⟨1, _⟩ => ⟨S32x65536, .bf16⟩
  | .local _ .vmem, ⟨2, _⟩ => ⟨S64x32, .f32⟩
  | .local _ .vmem, ⟨3, _⟩ => ⟨S64x1, .f32⟩
  | .local _ .vmem, ⟨4, _⟩ => ⟨S1x64, .f32⟩
  | .local _ .vmem, ⟨5, _⟩ => ⟨S1x1, .f32⟩
  | .local _ .vmem, ⟨6, _⟩ => ⟨S1x65536, .f32⟩
  | .local _ .vmem, ⟨7, _⟩ => ⟨S1x65536, .f32⟩
  | _, _ => ⟨S1024x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_cst_2 : Ref sig .tc := ⟨.hbm, 21, rfl⟩
abbrev main_call0_v10 : Ref sig .tc := ⟨.hbm, 22, rfl⟩
abbrev main_call0_v11 : Ref sig .tc := ⟨.hbm, 23, rfl⟩
abbrev main_call0_cst_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst_4 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_cst_5 : Ref sig .tc := ⟨.hbm, 33, rfl⟩
abbrev main_call0_v19 : Ref sig .tc := ⟨.hbm, 34, rfl⟩
abbrev main_call0_v20 : Ref sig .tc := ⟨.hbm, 35, rfl⟩
abbrev main_call0_cst_6 : Ref sig .tc := ⟨.hbm, 36, rfl⟩
abbrev main_call0_v21 : Ref sig .tc := ⟨.hbm, 37, rfl⟩
abbrev main_call0_v22 : Ref sig .tc := ⟨.hbm, 38, rfl⟩
abbrev main_call0_cst_7 : Ref sig .tc := ⟨.hbm, 39, rfl⟩
abbrev main_call0_v23 : Ref sig .tc := ⟨.hbm, 40, rfl⟩
abbrev main_call0_v24 : Ref sig .tc := ⟨.hbm, 41, rfl⟩
abbrev main_call0_cst_8 : Ref sig .tc := ⟨.hbm, 42, rfl⟩
abbrev main_call0_cst_9 : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_v25 : Ref sig .tc := ⟨.hbm, 49, rfl⟩
abbrev main_call0_v26 : Ref sig .tc := ⟨.hbm, 50, rfl⟩
abbrev main_call0_v27 : Ref sig .tc := ⟨.hbm, 51, rfl⟩
abbrev main_call0_c : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_c_10 : Ref sig .tc := ⟨.hbm, 57, rfl⟩
abbrev main_call0_v32 : Ref sig .tc := ⟨.hbm, 58, rfl⟩
abbrev main_call0_v33 : Ref sig .tc := ⟨.hbm, 59, rfl⟩
abbrev main_call0_c_11 : Ref sig .tc := ⟨.hbm, 60, rfl⟩
abbrev main_call0_v34 : Ref sig .tc := ⟨.hbm, 61, rfl⟩
abbrev main_call0_v35 : Ref sig .tc := ⟨.hbm, 62, rfl⟩
abbrev main_call0_v36 : Ref sig .tc := ⟨.hbm, 63, rfl⟩
abbrev main_call0_v37 : Ref sig .tc := ⟨.hbm, 64, rfl⟩
abbrev main_call0_v38 : Ref sig .tc := ⟨.hbm, 65, rfl⟩
abbrev main_call0_c_12 : Ref sig .tc := ⟨.hbm, 66, rfl⟩
abbrev main_call0_v39 : Ref sig .tc := ⟨.hbm, 67, rfl⟩
abbrev main_call0_v40 : Ref sig .tc := ⟨.hbm, 68, rfl⟩
abbrev main_call0_c_13 : Ref sig .tc := ⟨.hbm, 69, rfl⟩
abbrev main_call0_v41 : Ref sig .tc := ⟨.hbm, 70, rfl⟩
abbrev main_call0_v42 : Ref sig .tc := ⟨.hbm, 71, rfl⟩
abbrev main_call0_c_14 : Ref sig .tc := ⟨.hbm, 72, rfl⟩
abbrev main_call0_v43 : Ref sig .tc := ⟨.hbm, 73, rfl⟩
abbrev main_call0_v44 : Ref sig .tc := ⟨.hbm, 74, rfl⟩
abbrev main_call0_v45 : Ref sig .tc := ⟨.hbm, 75, rfl⟩
abbrev main_call0_v46 : Ref sig .tc := ⟨.hbm, 76, rfl⟩
abbrev main_call0_v47 : Ref sig .tc := ⟨.hbm, 77, rfl⟩
abbrev main_call0_cst_15 : Ref sig .tc := ⟨.hbm, 78, rfl⟩
abbrev main_call0_v48 : Ref sig .tc := ⟨.hbm, 79, rfl⟩
abbrev main_call0_v49 : Ref sig .tc := ⟨.hbm, 80, rfl⟩
abbrev main_call0_v50 : Ref sig .tc := ⟨.hbm, 81, rfl⟩
abbrev main_call0_v51 : Ref sig .tc := ⟨.hbm, 82, rfl⟩
abbrev main_call0_v52 : Ref sig .tc := ⟨.hbm, 83, rfl⟩
abbrev main_call0_v53 : Ref sig .tc := ⟨.hbm, 84, rfl⟩
abbrev main_call0_v54 : Ref sig .tc := ⟨.hbm, 85, rfl⟩
abbrev main_call0_v55 : Ref sig .tc := ⟨.hbm, 86, rfl⟩
abbrev main_call0_v56 : Ref sig .tc := ⟨.hbm, 87, rfl⟩
abbrev main_call0_cst_16 : Ref sig .tc := ⟨.hbm, 88, rfl⟩
abbrev main_call0_v57 : Ref sig .tc := ⟨.hbm, 89, rfl⟩
abbrev main_call0_v58 : Ref sig .tc := ⟨.hbm, 90, rfl⟩
abbrev main_call0_cst_17 : Ref sig .tc := ⟨.hbm, 91, rfl⟩
abbrev main_call0_v59 : Ref sig .tc := ⟨.hbm, 92, rfl⟩
abbrev main_call0_v60 : Ref sig .tc := ⟨.hbm, 93, rfl⟩
abbrev main_call0_cst_18 : Ref sig .tc := ⟨.hbm, 94, rfl⟩
abbrev main_call0_v61 : Ref sig .tc := ⟨.hbm, 95, rfl⟩
abbrev main_call0_v62 : Ref sig .tc := ⟨.hbm, 96, rfl⟩
abbrev main_call0_cst_19 : Ref sig .tc := ⟨.hbm, 97, rfl⟩
abbrev main_call0_cst_20 : Ref sig .tc := ⟨.hbm, 98, rfl⟩
abbrev main_call0_call1_v0 : Ref sig .tc := ⟨.hbm, 99, rfl⟩
abbrev main_call0_call1_v1 : Ref sig .tc := ⟨.hbm, 100, rfl⟩
abbrev main_call0_call1_v2 : Ref sig .tc := ⟨.hbm, 101, rfl⟩
abbrev main_call0_call1_v3 : Ref sig .tc := ⟨.hbm, 102, rfl⟩
abbrev main_call0_call1_v4 : Ref sig .tc := ⟨.hbm, 103, rfl⟩
abbrev main_call0_v63 : Ref sig .tc := ⟨.hbm, 104, rfl⟩
abbrev main_call0_v64 : Ref sig .tc := ⟨.hbm, 105, rfl⟩
abbrev main_call0_v65 : Ref sig .tc := ⟨.hbm, 106, rfl⟩
abbrev main_call0_c_21 : Ref sig .tc := ⟨.hbm, 107, rfl⟩
abbrev main_call0_v66 : Ref sig .tc := ⟨.hbm, 108, rfl⟩
abbrev main_call0_v67 : Ref sig .tc := ⟨.hbm, 109, rfl⟩
abbrev main_call0_v68 : Ref sig .tc := ⟨.hbm, 110, rfl⟩
abbrev main_call0_v69 : Ref sig .tc := ⟨.hbm, 111, rfl⟩
abbrev main_call0_c_22 : Ref sig .tc := ⟨.hbm, 112, rfl⟩
abbrev main_call0_v70 : Ref sig .tc := ⟨.hbm, 113, rfl⟩
abbrev main_call0_v71 : Ref sig .tc := ⟨.hbm, 114, rfl⟩
abbrev main_call0_c_23 : Ref sig .tc := ⟨.hbm, 115, rfl⟩
abbrev main_call0_v72 : Ref sig .tc := ⟨.hbm, 116, rfl⟩
abbrev main_call0_v73 : Ref sig .tc := ⟨.hbm, 117, rfl⟩
abbrev main_call0_v74 : Ref sig .tc := ⟨.hbm, 118, rfl⟩
abbrev main_call0_v75 : Ref sig .tc := ⟨.hbm, 119, rfl⟩
abbrev main_call0_v76 : Ref sig .tc := ⟨.hbm, 120, rfl⟩
abbrev main_call0_c_24 : Ref sig .tc := ⟨.hbm, 121, rfl⟩
abbrev main_call0_v77 : Ref sig .tc := ⟨.hbm, 122, rfl⟩
abbrev main_call0_v78 : Ref sig .tc := ⟨.hbm, 123, rfl⟩
abbrev main_call0_c_25 : Ref sig .tc := ⟨.hbm, 124, rfl⟩
abbrev main_call0_v79 : Ref sig .tc := ⟨.hbm, 125, rfl⟩
abbrev main_call0_v80 : Ref sig .tc := ⟨.hbm, 126, rfl⟩
abbrev main_call0_c_26 : Ref sig .tc := ⟨.hbm, 127, rfl⟩
abbrev main_call0_v81 : Ref sig .tc := ⟨.hbm, 128, rfl⟩
abbrev main_call0_v82 : Ref sig .tc := ⟨.hbm, 129, rfl⟩
abbrev main_call0_v83 : Ref sig .tc := ⟨.hbm, 130, rfl⟩
abbrev main_call0_v84 : Ref sig .tc := ⟨.hbm, 131, rfl⟩
abbrev main_call0_v85 : Ref sig .tc := ⟨.hbm, 132, rfl⟩
abbrev main_call0_cst_27 : Ref sig .tc := ⟨.hbm, 133, rfl⟩
abbrev main_call0_v86 : Ref sig .tc := ⟨.hbm, 134, rfl⟩
abbrev main_call0_v87 : Ref sig .tc := ⟨.hbm, 135, rfl⟩
abbrev main_call0_v88 : Ref sig .tc := ⟨.hbm, 136, rfl⟩
abbrev main_call0_v89 : Ref sig .tc := ⟨.hbm, 137, rfl⟩
abbrev main_call0_v90 : Ref sig .tc := ⟨.hbm, 138, rfl⟩
abbrev main_call0_v91 : Ref sig .tc := ⟨.hbm, 139, rfl⟩
abbrev main_call0_v92 : Ref sig .tc := ⟨.hbm, 140, rfl⟩
abbrev main_call0_v93 : Ref sig .tc := ⟨.hbm, 141, rfl⟩
abbrev main_call0_v94 : Ref sig .tc := ⟨.hbm, 142, rfl⟩
abbrev main_call0_cst_28 : Ref sig .tc := ⟨.hbm, 143, rfl⟩
abbrev main_call0_v95 : Ref sig .tc := ⟨.hbm, 144, rfl⟩
abbrev main_call0_v96 : Ref sig .tc := ⟨.hbm, 145, rfl⟩
abbrev main_call0_cst_29 : Ref sig .tc := ⟨.hbm, 146, rfl⟩
abbrev main_call0_v97 : Ref sig .tc := ⟨.hbm, 147, rfl⟩
abbrev main_call0_v98 : Ref sig .tc := ⟨.hbm, 148, rfl⟩
abbrev main_call0_cst_30 : Ref sig .tc := ⟨.hbm, 149, rfl⟩
abbrev main_call0_v99 : Ref sig .tc := ⟨.hbm, 150, rfl⟩
abbrev main_call0_v100 : Ref sig .tc := ⟨.hbm, 151, rfl⟩
abbrev main_call0_cst_31 : Ref sig .tc := ⟨.hbm, 152, rfl⟩
abbrev main_call0_v101 : Ref sig .tc := ⟨.hbm, 153, rfl⟩
abbrev main_call0_v102 : Ref sig .tc := ⟨.hbm, 154, rfl⟩
abbrev main_call0_cst_32 : Ref sig .tc := ⟨.hbm, 155, rfl⟩
abbrev main_call0_v103 : Ref sig .tc := ⟨.hbm, 156, rfl⟩
abbrev main_call0_v104 : Ref sig .tc := ⟨.hbm, 157, rfl⟩
abbrev main_call0_cst_33 : Ref sig .tc := ⟨.hbm, 158, rfl⟩
abbrev main_call0_v105 : Ref sig .tc := ⟨.hbm, 159, rfl⟩
abbrev main_call0_v106 : Ref sig .tc := ⟨.hbm, 160, rfl⟩
abbrev main_call0_v107 : Ref sig .tc := ⟨.hbm, 161, rfl⟩
abbrev main_call0_v108 : Ref sig .tc := ⟨.hbm, 162, rfl⟩
abbrev main_call0_v109 : Ref sig .tc := ⟨.hbm, 163, rfl⟩
abbrev main_call0_v110 : Ref sig .tc := ⟨.hbm, 164, rfl⟩
abbrev main_call0_v111 : Ref sig .tc := ⟨.hbm, 165, rfl⟩
abbrev main_call0_v112 : Ref sig .tc := ⟨.hbm, 166, rfl⟩
abbrev main_call0_v113 : Ref sig .tc := ⟨.hbm, 167, rfl⟩
abbrev main_call0_v114 : Ref sig .tc := ⟨.hbm, 168, rfl⟩
abbrev main_call0_c_34 : Ref sig .tc := ⟨.hbm, 169, rfl⟩
abbrev main_call0_v115 : Ref sig .tc := ⟨.hbm, 170, rfl⟩
abbrev main_call0_v116 : Ref sig .tc := ⟨.hbm, 171, rfl⟩
abbrev main_call0_c_35 : Ref sig .tc := ⟨.hbm, 172, rfl⟩
abbrev main_call0_v117 : Ref sig .tc := ⟨.hbm, 173, rfl⟩
abbrev main_call0_v118 : Ref sig .tc := ⟨.hbm, 174, rfl⟩
abbrev main_call0_v119 : Ref sig .tc := ⟨.hbm, 175, rfl⟩
abbrev main_call0_c_36 : Ref sig .tc := ⟨.hbm, 176, rfl⟩
abbrev main_call0_v120 : Ref sig .tc := ⟨.hbm, 177, rfl⟩
abbrev main_call0_v121 : Ref sig .tc := ⟨.hbm, 178, rfl⟩
abbrev main_call0_v122 : Ref sig .tc := ⟨.hbm, 179, rfl⟩
abbrev main_call0_c_37 : Ref sig .tc := ⟨.hbm, 180, rfl⟩
abbrev main_call0_v123 : Ref sig .tc := ⟨.hbm, 181, rfl⟩
abbrev main_call0_v124 : Ref sig .tc := ⟨.hbm, 182, rfl⟩
abbrev main_call0_v125 : Ref sig .tc := ⟨.hbm, 183, rfl⟩
abbrev main_call0_c_38 : Ref sig .tc := ⟨.hbm, 184, rfl⟩
abbrev main_call0_c_39 : Ref sig .tc := ⟨.hbm, 185, rfl⟩
abbrev main_call0_call2_v0 : Ref sig .tc := ⟨.hbm, 186, rfl⟩
abbrev main_call0_call2_v1 : Ref sig .tc := ⟨.hbm, 187, rfl⟩
abbrev main_call0_call2_v2 : Ref sig .tc := ⟨.hbm, 188, rfl⟩
abbrev main_call0_call2_v3 : Ref sig .tc := ⟨.hbm, 189, rfl⟩
abbrev main_call0_call2_v4 : Ref sig .tc := ⟨.hbm, 190, rfl⟩
abbrev main_call0_v126 : Ref sig .tc := ⟨.hbm, 191, rfl⟩
abbrev main_call0_c_40 : Ref sig .tc := ⟨.hbm, 192, rfl⟩
abbrev main_call0_c_41 : Ref sig .tc := ⟨.hbm, 193, rfl⟩
abbrev main_call0_call3_v0 : Ref sig .tc := ⟨.hbm, 194, rfl⟩
abbrev main_call0_call3_v1 : Ref sig .tc := ⟨.hbm, 195, rfl⟩
abbrev main_call0_call3_v2 : Ref sig .tc := ⟨.hbm, 196, rfl⟩
abbrev main_call0_call3_v3 : Ref sig .tc := ⟨.hbm, 197, rfl⟩
abbrev main_call0_call3_v4 : Ref sig .tc := ⟨.hbm, 198, rfl⟩
abbrev main_call0_v127 : Ref sig .tc := ⟨.hbm, 199, rfl⟩
abbrev main_call0_c_42 : Ref sig .tc := ⟨.hbm, 200, rfl⟩
abbrev main_call0_v128 : Ref sig .tc := ⟨.hbm, 201, rfl⟩
abbrev main_call0_v129 : Ref sig .tc := ⟨.hbm, 202, rfl⟩
abbrev main_call0_c_43 : Ref sig .tc := ⟨.hbm, 203, rfl⟩
abbrev main_call0_v130 : Ref sig .tc := ⟨.hbm, 204, rfl⟩
abbrev main_call0_v131 : Ref sig .tc := ⟨.hbm, 205, rfl⟩
abbrev main_call0_v132 : Ref sig .tc := ⟨.hbm, 206, rfl⟩
abbrev main_call0_c_44 : Ref sig .tc := ⟨.hbm, 207, rfl⟩
abbrev main_call0_v133 : Ref sig .tc := ⟨.hbm, 208, rfl⟩
abbrev main_call0_v134 : Ref sig .tc := ⟨.hbm, 209, rfl⟩
abbrev main_call0_c_45 : Ref sig .tc := ⟨.hbm, 210, rfl⟩
abbrev main_call0_v135 : Ref sig .tc := ⟨.hbm, 211, rfl⟩
abbrev main_call0_v136 : Ref sig .tc := ⟨.hbm, 212, rfl⟩
abbrev main_call0_v137 : Ref sig .tc := ⟨.hbm, 213, rfl⟩
abbrev main_call0_v138 : Ref sig .tc := ⟨.hbm, 214, rfl⟩
abbrev main_call0_v139 : Ref sig .tc := ⟨.hbm, 215, rfl⟩
abbrev main_call0_v140 : Ref sig .tc := ⟨.hbm, 216, rfl⟩
abbrev main_call0_v141 : Ref sig .tc := ⟨.hbm, 217, rfl⟩
abbrev main_call0_v142 : Ref sig .tc := ⟨.hbm, 218, rfl⟩
abbrev main_call0_v143 : Ref sig .tc := ⟨.hbm, 219, rfl⟩
abbrev main_call0_v144 : Ref sig .tc := ⟨.hbm, 220, rfl⟩
abbrev main_call0_v145 : Ref sig .tc := ⟨.hbm, 221, rfl⟩
abbrev main_call0_cst_46 : Ref sig .tc := ⟨.hbm, 222, rfl⟩
abbrev main_call0_v146 : Ref sig .tc := ⟨.hbm, 223, rfl⟩
abbrev main_call0_v147 : Ref sig .tc := ⟨.hbm, 224, rfl⟩
abbrev main_call0_cst_47 : Ref sig .tc := ⟨.hbm, 225, rfl⟩
abbrev main_call0_v148 : Ref sig .tc := ⟨.hbm, 226, rfl⟩
abbrev main_call0_v149 : Ref sig .tc := ⟨.hbm, 227, rfl⟩
abbrev main_call0_v150 : Ref sig .tc := ⟨.hbm, 228, rfl⟩
abbrev main_call0_v151 : Ref sig .tc := ⟨.hbm, 229, rfl⟩
abbrev main_call0_v152 : Ref sig .tc := ⟨.hbm, 230, rfl⟩
abbrev main_call0_v153 : Ref sig .tc := ⟨.hbm, 231, rfl⟩
abbrev main_call0_c_48 : Ref sig .tc := ⟨.hbm, 232, rfl⟩
abbrev main_call0_v154 : Ref sig .tc := ⟨.hbm, 233, rfl⟩
abbrev main_call0_v155 : Ref sig .tc := ⟨.hbm, 234, rfl⟩
abbrev main_call0_c_49 : Ref sig .tc := ⟨.hbm, 235, rfl⟩
abbrev main_call0_v156 : Ref sig .tc := ⟨.hbm, 236, rfl⟩
abbrev main_call0_v157 : Ref sig .tc := ⟨.hbm, 237, rfl⟩
abbrev main_call0_c_50 : Ref sig .tc := ⟨.hbm, 238, rfl⟩
abbrev main_call0_v158 : Ref sig .tc := ⟨.hbm, 239, rfl⟩
abbrev main_call0_v159 : Ref sig .tc := ⟨.hbm, 240, rfl⟩
abbrev main_call0_v160 : Ref sig .tc := ⟨.hbm, 241, rfl⟩
abbrev main_call0_c_51 : Ref sig .tc := ⟨.hbm, 242, rfl⟩
abbrev main_call0_v161 : Ref sig .tc := ⟨.hbm, 243, rfl⟩
abbrev main_call0_v162 : Ref sig .tc := ⟨.hbm, 244, rfl⟩
abbrev main_call0_v163 : Ref sig .tc := ⟨.hbm, 245, rfl⟩
abbrev main_call0_c_52 : Ref sig .tc := ⟨.hbm, 246, rfl⟩
abbrev main_call0_v164 : Ref sig .tc := ⟨.hbm, 247, rfl⟩
abbrev main_call0_v165 : Ref sig .tc := ⟨.hbm, 248, rfl⟩
abbrev main_call0_v166 : Ref sig .tc := ⟨.hbm, 249, rfl⟩
abbrev main_call0_c_53 : Ref sig .tc := ⟨.hbm, 250, rfl⟩
abbrev main_call0_c_54 : Ref sig .tc := ⟨.hbm, 251, rfl⟩
abbrev main_call0_call4_v0 : Ref sig .tc := ⟨.hbm, 252, rfl⟩
abbrev main_call0_call4_v1 : Ref sig .tc := ⟨.hbm, 253, rfl⟩
abbrev main_call0_call4_v2 : Ref sig .tc := ⟨.hbm, 254, rfl⟩
abbrev main_call0_call4_v3 : Ref sig .tc := ⟨.hbm, 255, rfl⟩
abbrev main_call0_call4_v4 : Ref sig .tc := ⟨.hbm, 256, rfl⟩
abbrev main_call0_v167 : Ref sig .tc := ⟨.hbm, 257, rfl⟩
abbrev main_call0_c_55 : Ref sig .tc := ⟨.hbm, 258, rfl⟩
abbrev main_call0_c_56 : Ref sig .tc := ⟨.hbm, 259, rfl⟩
abbrev main_call0_call5_v0 : Ref sig .tc := ⟨.hbm, 260, rfl⟩
abbrev main_call0_call5_v1 : Ref sig .tc := ⟨.hbm, 261, rfl⟩
abbrev main_call0_call5_v2 : Ref sig .tc := ⟨.hbm, 262, rfl⟩
abbrev main_call0_call5_v3 : Ref sig .tc := ⟨.hbm, 263, rfl⟩
abbrev main_call0_call5_v4 : Ref sig .tc := ⟨.hbm, 264, rfl⟩
abbrev main_call0_v168 : Ref sig .tc := ⟨.hbm, 265, rfl⟩
abbrev main_call0_c_57 : Ref sig .tc := ⟨.hbm, 266, rfl⟩
abbrev main_call0_v169 : Ref sig .tc := ⟨.hbm, 267, rfl⟩
abbrev main_call0_v170 : Ref sig .tc := ⟨.hbm, 268, rfl⟩
abbrev main_call0_c_58 : Ref sig .tc := ⟨.hbm, 269, rfl⟩
abbrev main_call0_v171 : Ref sig .tc := ⟨.hbm, 270, rfl⟩
abbrev main_call0_v172 : Ref sig .tc := ⟨.hbm, 271, rfl⟩
abbrev main_call0_v173 : Ref sig .tc := ⟨.hbm, 272, rfl⟩
abbrev main_call0_c_59 : Ref sig .tc := ⟨.hbm, 273, rfl⟩
abbrev main_call0_v174 : Ref sig .tc := ⟨.hbm, 274, rfl⟩
abbrev main_call0_v175 : Ref sig .tc := ⟨.hbm, 275, rfl⟩
abbrev main_call0_c_60 : Ref sig .tc := ⟨.hbm, 276, rfl⟩
abbrev main_call0_v176 : Ref sig .tc := ⟨.hbm, 277, rfl⟩
abbrev main_call0_v177 : Ref sig .tc := ⟨.hbm, 278, rfl⟩
abbrev main_call0_v178 : Ref sig .tc := ⟨.hbm, 279, rfl⟩
abbrev main_call0_v179 : Ref sig .tc := ⟨.hbm, 280, rfl⟩
abbrev main_call0_v180 : Ref sig .tc := ⟨.hbm, 281, rfl⟩
abbrev main_call0_v181 : Ref sig .tc := ⟨.hbm, 282, rfl⟩
abbrev main_call0_v182 : Ref sig .tc := ⟨.hbm, 283, rfl⟩
abbrev main_call0_v183 : Ref sig .tc := ⟨.hbm, 284, rfl⟩
abbrev main_call0_v184 : Ref sig .tc := ⟨.hbm, 285, rfl⟩
abbrev main_call0_v185 : Ref sig .tc := ⟨.hbm, 286, rfl⟩
abbrev main_call0_v186 : Ref sig .tc := ⟨.hbm, 287, rfl⟩
abbrev main_call0_cst_61 : Ref sig .tc := ⟨.hbm, 288, rfl⟩
abbrev main_call0_v187 : Ref sig .tc := ⟨.hbm, 289, rfl⟩
abbrev main_call0_v188 : Ref sig .tc := ⟨.hbm, 290, rfl⟩
abbrev main_call0_v189 : Ref sig .tc := ⟨.hbm, 291, rfl⟩
abbrev main_call0_v190 : Ref sig .tc := ⟨.hbm, 292, rfl⟩
abbrev main_call0_v191 : Ref sig .tc := ⟨.hbm, 293, rfl⟩
abbrev main_call0_v192 : Ref sig .tc := ⟨.hbm, 294, rfl⟩
abbrev main_call0_v193 : Ref sig .tc := ⟨.hbm, 295, rfl⟩
abbrev main_call0_c_62 : Ref sig .tc := ⟨.hbm, 296, rfl⟩
abbrev main_call0_v194 : Ref sig .tc := ⟨.hbm, 297, rfl⟩
abbrev main_call0_v195 : Ref sig .tc := ⟨.hbm, 298, rfl⟩
abbrev main_call0_c_63 : Ref sig .tc := ⟨.hbm, 299, rfl⟩
abbrev main_call0_v196 : Ref sig .tc := ⟨.hbm, 300, rfl⟩
abbrev main_call0_v197 : Ref sig .tc := ⟨.hbm, 301, rfl⟩
abbrev main_call0_c_64 : Ref sig .tc := ⟨.hbm, 302, rfl⟩
abbrev main_call0_v198 : Ref sig .tc := ⟨.hbm, 303, rfl⟩
abbrev main_call0_v199 : Ref sig .tc := ⟨.hbm, 304, rfl⟩
abbrev main_call0_v200 : Ref sig .tc := ⟨.hbm, 305, rfl⟩
abbrev main_call0_c_65 : Ref sig .tc := ⟨.hbm, 306, rfl⟩
abbrev main_call0_v201 : Ref sig .tc := ⟨.hbm, 307, rfl⟩
abbrev main_call0_v202 : Ref sig .tc := ⟨.hbm, 308, rfl⟩
abbrev main_call0_v203 : Ref sig .tc := ⟨.hbm, 309, rfl⟩
abbrev main_call0_c_66 : Ref sig .tc := ⟨.hbm, 310, rfl⟩
abbrev main_call0_v204 : Ref sig .tc := ⟨.hbm, 311, rfl⟩
abbrev main_call0_v205 : Ref sig .tc := ⟨.hbm, 312, rfl⟩
abbrev main_call0_v206 : Ref sig .tc := ⟨.hbm, 313, rfl⟩
abbrev main_call0_c_67 : Ref sig .tc := ⟨.hbm, 314, rfl⟩
abbrev main_call0_c_68 : Ref sig .tc := ⟨.hbm, 315, rfl⟩
abbrev main_call0_call6_v0 : Ref sig .tc := ⟨.hbm, 316, rfl⟩
abbrev main_call0_call6_v1 : Ref sig .tc := ⟨.hbm, 317, rfl⟩
abbrev main_call0_call6_v2 : Ref sig .tc := ⟨.hbm, 318, rfl⟩
abbrev main_call0_call6_v3 : Ref sig .tc := ⟨.hbm, 319, rfl⟩
abbrev main_call0_call6_v4 : Ref sig .tc := ⟨.hbm, 320, rfl⟩
abbrev main_call0_v207 : Ref sig .tc := ⟨.hbm, 321, rfl⟩
abbrev main_call0_c_69 : Ref sig .tc := ⟨.hbm, 322, rfl⟩
abbrev main_call0_c_70 : Ref sig .tc := ⟨.hbm, 323, rfl⟩
abbrev main_call0_call7_v0 : Ref sig .tc := ⟨.hbm, 324, rfl⟩
abbrev main_call0_call7_v1 : Ref sig .tc := ⟨.hbm, 325, rfl⟩
abbrev main_call0_call7_v2 : Ref sig .tc := ⟨.hbm, 326, rfl⟩
abbrev main_call0_call7_v3 : Ref sig .tc := ⟨.hbm, 327, rfl⟩
abbrev main_call0_call7_v4 : Ref sig .tc := ⟨.hbm, 328, rfl⟩
abbrev main_call0_v208 : Ref sig .tc := ⟨.hbm, 329, rfl⟩
abbrev main_call0_c_71 : Ref sig .tc := ⟨.hbm, 330, rfl⟩
abbrev main_call0_v209 : Ref sig .tc := ⟨.hbm, 331, rfl⟩
abbrev main_call0_v210 : Ref sig .tc := ⟨.hbm, 332, rfl⟩
abbrev main_call0_c_72 : Ref sig .tc := ⟨.hbm, 333, rfl⟩
abbrev main_call0_v211 : Ref sig .tc := ⟨.hbm, 334, rfl⟩
abbrev main_call0_v212 : Ref sig .tc := ⟨.hbm, 335, rfl⟩
abbrev main_call0_v213 : Ref sig .tc := ⟨.hbm, 336, rfl⟩
abbrev main_call0_c_73 : Ref sig .tc := ⟨.hbm, 337, rfl⟩
abbrev main_call0_v214 : Ref sig .tc := ⟨.hbm, 338, rfl⟩
abbrev main_call0_v215 : Ref sig .tc := ⟨.hbm, 339, rfl⟩
abbrev main_call0_c_74 : Ref sig .tc := ⟨.hbm, 340, rfl⟩
abbrev main_call0_v216 : Ref sig .tc := ⟨.hbm, 341, rfl⟩
abbrev main_call0_v217 : Ref sig .tc := ⟨.hbm, 342, rfl⟩
abbrev main_call0_v218 : Ref sig .tc := ⟨.hbm, 343, rfl⟩
abbrev main_call0_v219 : Ref sig .tc := ⟨.hbm, 344, rfl⟩
abbrev main_call0_v220 : Ref sig .tc := ⟨.hbm, 345, rfl⟩
abbrev main_call0_v221 : Ref sig .tc := ⟨.hbm, 346, rfl⟩
abbrev main_call0_v222 : Ref sig .tc := ⟨.hbm, 347, rfl⟩
abbrev main_call0_v223 : Ref sig .tc := ⟨.hbm, 348, rfl⟩
abbrev main_call0_v224 : Ref sig .tc := ⟨.hbm, 349, rfl⟩
abbrev main_call0_v225 : Ref sig .tc := ⟨.hbm, 350, rfl⟩
abbrev main_call0_v226 : Ref sig .tc := ⟨.hbm, 351, rfl⟩
abbrev main_call0_cst_75 : Ref sig .tc := ⟨.hbm, 352, rfl⟩
abbrev main_call0_v227 : Ref sig .tc := ⟨.hbm, 353, rfl⟩
abbrev main_call0_v228 : Ref sig .tc := ⟨.hbm, 354, rfl⟩
abbrev main_call0_v229 : Ref sig .tc := ⟨.hbm, 355, rfl⟩
abbrev main_call0_v230 : Ref sig .tc := ⟨.hbm, 356, rfl⟩
abbrev main_call0_v231 : Ref sig .tc := ⟨.hbm, 357, rfl⟩
abbrev main_call0_v232 : Ref sig .tc := ⟨.hbm, 358, rfl⟩
abbrev main_call0_v233 : Ref sig .tc := ⟨.hbm, 359, rfl⟩
abbrev main_call0_c_76 : Ref sig .tc := ⟨.hbm, 360, rfl⟩
abbrev main_call0_v234 : Ref sig .tc := ⟨.hbm, 361, rfl⟩
abbrev main_call0_v235 : Ref sig .tc := ⟨.hbm, 362, rfl⟩
abbrev main_call0_c_77 : Ref sig .tc := ⟨.hbm, 363, rfl⟩
abbrev main_call0_v236 : Ref sig .tc := ⟨.hbm, 364, rfl⟩
abbrev main_call0_v237 : Ref sig .tc := ⟨.hbm, 365, rfl⟩
abbrev main_call0_c_78 : Ref sig .tc := ⟨.hbm, 366, rfl⟩
abbrev main_call0_v238 : Ref sig .tc := ⟨.hbm, 367, rfl⟩
abbrev main_call0_v239 : Ref sig .tc := ⟨.hbm, 368, rfl⟩
abbrev main_call0_c_79 : Ref sig .tc := ⟨.hbm, 369, rfl⟩
abbrev main_call0_v240 : Ref sig .tc := ⟨.hbm, 370, rfl⟩
abbrev main_call0_v241 : Ref sig .tc := ⟨.hbm, 371, rfl⟩
abbrev main_call0_v242 : Ref sig .tc := ⟨.hbm, 372, rfl⟩
abbrev main_call0_c_80 : Ref sig .tc := ⟨.hbm, 373, rfl⟩
abbrev main_call0_v243 : Ref sig .tc := ⟨.hbm, 374, rfl⟩
abbrev main_call0_v244 : Ref sig .tc := ⟨.hbm, 375, rfl⟩
abbrev main_call0_v245 : Ref sig .tc := ⟨.hbm, 376, rfl⟩
abbrev main_call0_c_81 : Ref sig .tc := ⟨.hbm, 377, rfl⟩
abbrev main_call0_v246 : Ref sig .tc := ⟨.hbm, 378, rfl⟩
abbrev main_call0_v247 : Ref sig .tc := ⟨.hbm, 379, rfl⟩
abbrev main_call0_v248 : Ref sig .tc := ⟨.hbm, 380, rfl⟩
abbrev main_call0_c_82 : Ref sig .tc := ⟨.hbm, 381, rfl⟩
abbrev main_call0_c_83 : Ref sig .tc := ⟨.hbm, 382, rfl⟩
abbrev main_call0_call8_v0 : Ref sig .tc := ⟨.hbm, 383, rfl⟩
abbrev main_call0_call8_v1 : Ref sig .tc := ⟨.hbm, 384, rfl⟩
abbrev main_call0_call8_v2 : Ref sig .tc := ⟨.hbm, 385, rfl⟩
abbrev main_call0_call8_v3 : Ref sig .tc := ⟨.hbm, 386, rfl⟩
abbrev main_call0_call8_v4 : Ref sig .tc := ⟨.hbm, 387, rfl⟩
abbrev main_call0_v249 : Ref sig .tc := ⟨.hbm, 388, rfl⟩
abbrev main_call0_c_84 : Ref sig .tc := ⟨.hbm, 389, rfl⟩
abbrev main_call0_c_85 : Ref sig .tc := ⟨.hbm, 390, rfl⟩
abbrev main_call0_call9_v0 : Ref sig .tc := ⟨.hbm, 391, rfl⟩
abbrev main_call0_call9_v1 : Ref sig .tc := ⟨.hbm, 392, rfl⟩
abbrev main_call0_call9_v2 : Ref sig .tc := ⟨.hbm, 393, rfl⟩
abbrev main_call0_call9_v3 : Ref sig .tc := ⟨.hbm, 394, rfl⟩
abbrev main_call0_call9_v4 : Ref sig .tc := ⟨.hbm, 395, rfl⟩
abbrev main_call0_v250 : Ref sig .tc := ⟨.hbm, 396, rfl⟩
abbrev main_call0_c_86 : Ref sig .tc := ⟨.hbm, 397, rfl⟩
abbrev main_call0_v251 : Ref sig .tc := ⟨.hbm, 398, rfl⟩
abbrev main_call0_v252 : Ref sig .tc := ⟨.hbm, 399, rfl⟩
abbrev main_call0_c_87 : Ref sig .tc := ⟨.hbm, 400, rfl⟩
abbrev main_call0_v253 : Ref sig .tc := ⟨.hbm, 401, rfl⟩
abbrev main_call0_v254 : Ref sig .tc := ⟨.hbm, 402, rfl⟩
abbrev main_call0_v255 : Ref sig .tc := ⟨.hbm, 403, rfl⟩
abbrev main_call0_c_88 : Ref sig .tc := ⟨.hbm, 404, rfl⟩
abbrev main_call0_v256 : Ref sig .tc := ⟨.hbm, 405, rfl⟩
abbrev main_call0_v257 : Ref sig .tc := ⟨.hbm, 406, rfl⟩
abbrev main_call0_c_89 : Ref sig .tc := ⟨.hbm, 407, rfl⟩
abbrev main_call0_v258 : Ref sig .tc := ⟨.hbm, 408, rfl⟩
abbrev main_call0_v259 : Ref sig .tc := ⟨.hbm, 409, rfl⟩
abbrev main_call0_v260 : Ref sig .tc := ⟨.hbm, 410, rfl⟩
abbrev main_call0_v261 : Ref sig .tc := ⟨.hbm, 411, rfl⟩
abbrev main_call0_v262 : Ref sig .tc := ⟨.hbm, 412, rfl⟩
abbrev main_call0_v263 : Ref sig .tc := ⟨.hbm, 413, rfl⟩
abbrev main_call0_v264 : Ref sig .tc := ⟨.hbm, 414, rfl⟩
abbrev main_call0_v265 : Ref sig .tc := ⟨.hbm, 415, rfl⟩
abbrev main_call0_v266 : Ref sig .tc := ⟨.hbm, 416, rfl⟩
abbrev main_call0_v267 : Ref sig .tc := ⟨.hbm, 417, rfl⟩
abbrev main_call0_v268 : Ref sig .tc := ⟨.hbm, 418, rfl⟩
abbrev main_call0_v269 : Ref sig .tc := ⟨.hbm, 419, rfl⟩
abbrev main_call0_v270 : Ref sig .tc := ⟨.hbm, 420, rfl⟩
abbrev main_call0_v271 : Ref sig .tc := ⟨.hbm, 421, rfl⟩
abbrev main_call0_v272 : Ref sig .tc := ⟨.hbm, 422, rfl⟩
abbrev main_call0_v273 : Ref sig .tc := ⟨.hbm, 423, rfl⟩
abbrev main_call0_v274 : Ref sig .tc := ⟨.hbm, 424, rfl⟩
abbrev main_call0_v275 : Ref sig .tc := ⟨.hbm, 425, rfl⟩
abbrev main_call0_v276 : Ref sig .tc := ⟨.hbm, 426, rfl⟩
abbrev main_call0_v277 : Ref sig .tc := ⟨.hbm, 427, rfl⟩
abbrev main_call0_v278 : Ref sig .tc := ⟨.hbm, 428, rfl⟩
abbrev main_call0_v279 : Ref sig .tc := ⟨.hbm, 429, rfl⟩
abbrev main_call0_v280 : Ref sig .tc := ⟨.hbm, 430, rfl⟩
abbrev main_call0_v281 : Ref sig .tc := ⟨.hbm, 431, rfl⟩
abbrev main_v0 : Ref sig .tc := ⟨.hbm, 432, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x65536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S1024x1024x2_S1024x1024x1_0_0_0 : S1024x1024x2.Slices ![0, 0, 0] S1024x1024x1
  shapeCasts_S1024x1024x1_S1024x1024 : S1024x1024x1.ShapeCasts S1024x1024
  bcast_S_S1024x1024 : S_.BroadcastsInDim S1024x1024 (![] : Fin 0 → Fin S1024x1024.rank)
  slices_S1024x1024x2_S1024x1024x1_0_0_1 : S1024x1024x2.Slices ![0, 0, 1] S1024x1024x1
  transposes_S32x1024_S1024x32_1_0 : S32x1024.Transposes [1, 0] S1024x32
  transposes_S32x256x256_S256x256x32_1_2_0 : S32x256x256.Transposes [1, 2, 0] S256x256x32
  bcast_S1024x1024_S1024x1024x1_0_1 : S1024x1024.BroadcastsInDim S1024x1024x1 (![0, 1] : Fin 2 → Fin S1024x1024x1.rank)
  bcast_S1024x1024x1_S1024x1024x32_0_1_2 : S1024x1024x1.BroadcastsInDim S1024x1024x32 (![0, 1, 2] : Fin 3 → Fin S1024x1024x32.rank)
  concatenates_S1024x1024x1_S1024x1024x1_S1024x1024x2_d2 : Shape.Concatenates [S1024x1024x1, S1024x1024x1] S1024x1024x2 2
  transposes_S1024x1024x32_S32x1024x1024_2_0_1 : S1024x1024x32.Transposes [2, 0, 1] S32x1024x1024
  shapeCasts_S32x1024x1024_S32x1048576 : S32x1024x1024.ShapeCasts S32x1048576
  bitsLt_bf16_f32 : FTy.bits .bf16 < FTy.bits .f32
  shapeCasts_S64_S64x1 : S64.ShapeCasts S64x1
  shapeCasts_S1_S1x1 : S1.ShapeCasts S1x1
  shapeCasts_S1x1048576_S1024x1024 : S1x1048576.ShapeCasts S1024x1024
  inb_S64x32_S64x32_0_0 : ∀ a, (![0, 0] : Fin 2 → Nat) a + S64x32.size a ≤ S64x32.size a
  h_S64x32 : 0 < S64x32.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x64_S1x64_0_0 : ∀ a, (![0, 0] : Fin 2 → Nat) a + S1x64.size a ≤ S1x64.size a
  h_S1x64 : 0 < S1x64.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x65536_S32x16384_0_0 : ∀ a, (![0, 0] : Fin 2 → Nat) a + S32x16384.size a ≤ S32x65536.size a
  h_S32x16384 : 0 < S32x16384.numel
  shapeCasts_S32x16384_S32x16384 : S32x16384.ShapeCasts S32x16384
  broadcasts_S64x1_S64x16384 : S64x1.Broadcasts S64x16384
  broadcasts_S1x1_S1x16384 : S1x1.Broadcasts S1x16384
  inb_S1x65536_S1x16384_0_0 : ∀ a, (![0, 0] : Fin 2 → Nat) a + S1x16384.size a ≤ S1x65536.size a
  h_S1x16384 : 0 < S1x16384.numel
  inb_S32x65536_S32x16384_0_16384 : ∀ a, (![0, 16384] : Fin 2 → Nat) a + S32x16384.size a ≤ S32x65536.size a
  inb_S1x65536_S1x16384_0_16384 : ∀ a, (![0, 16384] : Fin 2 → Nat) a + S1x16384.size a ≤ S1x65536.size a
  inb_S32x65536_S32x16384_0_32768 : ∀ a, (![0, 32768] : Fin 2 → Nat) a + S32x16384.size a ≤ S32x65536.size a
  inb_S1x65536_S1x16384_0_32768 : ∀ a, (![0, 32768] : Fin 2 → Nat) a + S1x16384.size a ≤ S1x65536.size a
  inb_S32x65536_S32x16384_0_49152 : ∀ a, (![0, 49152] : Fin 2 → Nat) a + S32x16384.size a ≤ S32x65536.size a
  inb_S1x65536_S1x16384_0_49152 : ∀ a, (![0, 49152] : Fin 2 → Nat) a + S1x16384.size a ≤ S1x65536.size a
  gather_S1024x32_S1024x1024x1_S1024x1024x32_2_0_n_n_0_2_132_wf : GatherDims.WF S1024x32 S1024x1024x1 S1024x1024x32 [2] [0] [] [0] [] 2 ![1, 32]
  gather_S256x256x32_S1024x1024x2_S1024x1024x32_2_01_n_n_01_2_1132_wf : GatherDims.WF S256x256x32 S1024x1024x2 S1024x1024x32 [2] [0, 1] [] [0, 1] [] 2 ![1, 1, 32]
  dot_S64x32_S32x16384_S64x16384_1_0_0_1_n_n_wf : DotDims.WF S64x32 S32x16384 S64x16384 [1] [0] [0] [1] [] []
  dot_S1x64_S64x16384_S1x16384_1_0_0_1_n_n_wf : DotDims.WF S1x64 S64x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x65536.size a ≤ S32x1048576.size a
  hwx0_0 : ∀ i : grid0.Coords, EltTy.bits .bf16 = 32 ∨ (Rect.block (s := S32x1048576) S32x65536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x65536.size a ≤ S1x1048576.size a
  hwx0_5 : ∀ i : grid0.Coords, EltTy.bits .f32 = 32 ∨ (Rect.block (s := S1x1048576) S1x65536.size (cc0_transform_5 i) (hinb0_5 i)).WholeWords (EltTy.packing .f32)

variable [Facts₀]

def gather_S1024x32_S1024x1024x1_S1024x1024x32_2_0_n_n_0_2_132 : GatherDims S1024x32 S1024x1024x1 S1024x1024x32 where
  offsetDims := [2]
  collapsedSliceDims := [0]
  operandBatchingDims := []
  startIndicesBatchingDims := []
  startIndexMap := [0]
  indexVectorDim := 2
  sliceSizes := ![1, 32]
  wf := gather_S1024x32_S1024x1024x1_S1024x1024x32_2_0_n_n_0_2_132_wf
def gather_S256x256x32_S1024x1024x2_S1024x1024x32_2_01_n_n_01_2_1132 : GatherDims S256x256x32 S1024x1024x2 S1024x1024x32 where
  offsetDims := [2]
  collapsedSliceDims := [0, 1]
  operandBatchingDims := []
  startIndicesBatchingDims := []
  startIndexMap := [0, 1]
  indexVectorDim := 2
  sliceSizes := ![1, 1, 32]
  wf := gather_S256x256x32_S1024x1024x2_S1024x1024x32_2_01_n_n_01_2_1132_wf
def dot_S64x32_S32x16384_S64x16384_1_0_0_1_n_n : DotDims S64x32 S32x16384 S64x16384 where
  lhsContracting := [1]
  rhsContracting := [0]
  lhsNonContracting := [0]
  rhsNonContracting := [1]
  lhsBatch := []
  rhsBatch := []
  wf := dot_S64x32_S32x16384_S64x16384_1_0_0_1_n_n_wf
def dot_S1x64_S64x16384_S1x16384_1_0_0_1_n_n : DotDims S1x64 S64x16384 S1x16384 where
  lhsContracting := [1]
  rhsContracting := [0]
  lhsNonContracting := [0]
  rhsNonContracting := [1]
  lhsBatch := []
  rhsBatch := []
  wf := dot_S1x64_S64x16384_S1x16384_1_0_0_1_n_n_wf

abbrev win0_0 : Pipeline.Window sig grid0 :=
  Pipeline.Window.ofSpec (Memref.whole main_call0_v278) S32x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v279) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v280) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v281) S1x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x1024x2 : Shape := ⟨3, ![1024, 1024, 2]⟩
abbrev S32x1024 : Shape := ⟨2, ![32, 1024]⟩
abbrev S32x256x256 : Shape := ⟨3, ![32, 256, 256]⟩
abbrev S64x32 : Shape := ⟨2, ![64, 32]⟩
abbrev S64 : Shape := ⟨1, ![64]⟩
abbrev S1x64 : Shape := ⟨2, ![1, 64]⟩
abbrev S1 : Shape := ⟨1, ![1]⟩
abbrev S1024x1024x1 : Shape := ⟨3, ![1024, 1024, 1]⟩
abbrev S1024x1024 : Shape := ⟨2, ![1024, 1024]⟩
abbrev S_ : Shape := ⟨0, ![]⟩
abbrev S32x1024x1024 : Shape := ⟨3, ![32, 1024, 1024]⟩
abbrev S1x1024x1024 : Shape := ⟨3, ![1, 1024, 1024]⟩
abbrev S1024x1024x32 : Shape := ⟨3, ![1024, 1024, 32]⟩
abbrev S1024x1024x64 : Shape := ⟨3, ![1024, 1024, 64]⟩
abbrev S1x1x64 : Shape := ⟨3, ![1, 1, 64]⟩
abbrev S1x1x1 : Shape := ⟨3, ![1, 1, 1]⟩

abbrev nBuf : Space → Nat
  | .hbm => 444
  | .vmem => 0
  | .smem => 0
  | _ => 0

abbrev hbmTy0_0 (i : Nat) : BufTy := match i % 128 with
  | 0 => ⟨S1024x1024x2, .f32⟩
  | 1 => ⟨S32x1024, .f32⟩
  | 2 => ⟨S32x1024, .f32⟩
  | 3 => ⟨S32x256x256, .f32⟩
  | 4 => ⟨S64x32, .f32⟩
  | 5 => ⟨S64, .f32⟩
  | 6 => ⟨S1x64, .f32⟩
  | 7 => ⟨S1, .f32⟩
  | 8 => ⟨S1024x1024x1, .f32⟩
  | 9 => ⟨S1024x1024, .f32⟩
  | 10 => ⟨S_, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S_, .f32⟩
  | 17 => ⟨S1024x1024, .f32⟩
  | 18 => ⟨S1024x1024, .f32⟩
  | 19 => ⟨S1024x1024x1, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S_, .f32⟩
  | 31 => ⟨S1024x1024, .f32⟩
  | 32 => ⟨S1024x1024, .f32⟩
  | 33 => ⟨S_, .f32⟩
  | 34 => ⟨S1024x1024, .f32⟩
  | 35 => ⟨S1024x1024, .f32⟩
  | 36 => ⟨S_, .f32⟩
  | 37 => ⟨S1024x1024, .f32⟩
  | 38 => ⟨S1024x1024, .f32⟩
  | 39 => ⟨S_, .f32⟩
  | 40 => ⟨S_, .f32⟩
  | 41 => ⟨S_, .f32⟩
  | 42 => ⟨S1024x1024, .f32⟩
  | 43 => ⟨S1024x1024, .f32⟩
  | 44 => ⟨S_, .f32⟩
  | 45 => ⟨S1024x1024, .f32⟩
  | 46 => ⟨S1024x1024, .f32⟩
  | 47 => ⟨S1024x1024, .f32⟩
  | 48 => ⟨S1024x1024, .i32⟩
  | 49 => ⟨S_, .i32⟩
  | 50 => ⟨S1024x1024, .i32⟩
  | 51 => ⟨S1024x1024, .i32⟩
  | 52 => ⟨S1024x1024, .f32⟩
  | 53 => ⟨S1024x1024, .f32⟩
  | 54 => ⟨S_, .i32⟩
  | 55 => ⟨S1024x1024, .i32⟩
  | 56 => ⟨S1024x1024, .i1⟩
  | 57 => ⟨S_, .i32⟩
  | 58 => ⟨S1024x1024, .i32⟩
  | 59 => ⟨S1024x1024, .i32⟩
  | 60 => ⟨S1024x1024, .i32⟩
  | 61 => ⟨S1024x1024x1, .i32⟩
  | 62 => ⟨S32x1024x1024, .f32⟩
  | 63 => ⟨S_, .f32⟩
  | 64 => ⟨S1024x1024, .f32⟩
  | 65 => ⟨S1024x1024, .f32⟩
  | 66 => ⟨S1x1024x1024, .f32⟩
  | 67 => ⟨S32x1024x1024, .f32⟩
  | 68 => ⟨S32x1024x1024, .f32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i1⟩
  | 75 => ⟨S_, .i32⟩
  | 76 => ⟨S1024x1024, .i32⟩
  | 77 => ⟨S1024x1024, .i32⟩
  | 78 => ⟨S1024x1024, .i32⟩
  | 79 => ⟨S1024x1024x1, .i32⟩
  | 80 => ⟨S32x1024x1024, .f32⟩
  | 81 => ⟨S1x1024x1024, .f32⟩
  | 82 => ⟨S32x1024x1024, .f32⟩
  | 83 => ⟨S32x1024x1024, .f32⟩
  | 84 => ⟨S32x1024x1024, .f32⟩
  | 85 => ⟨S_, .f32⟩
  | 86 => ⟨S1024x1024, .f32⟩
  | 87 => ⟨S1024x1024, .f32⟩
  | 88 => ⟨S_, .f32⟩
  | 89 => ⟨S1024x1024, .f32⟩
  | 90 => ⟨S1024x1024, .f32⟩
  | 91 => ⟨S_, .f32⟩
  | 92 => ⟨S1024x1024, .f32⟩
  | 93 => ⟨S1024x1024, .f32⟩
  | 94 => ⟨S_, .f32⟩
  | 95 => ⟨S_, .f32⟩
  | 96 => ⟨S_, .f32⟩
  | 97 => ⟨S1024x1024, .f32⟩
  | 98 => ⟨S1024x1024, .f32⟩
  | 99 => ⟨S_, .f32⟩
  | 100 => ⟨S1024x1024, .f32⟩
  | 101 => ⟨S1024x1024, .f32⟩
  | 102 => ⟨S1024x1024, .f32⟩
  | 103 => ⟨S1024x1024, .i32⟩
  | 104 => ⟨S_, .i32⟩
  | 105 => ⟨S1024x1024, .i32⟩
  | 106 => ⟨S1024x1024, .i32⟩
  | 107 => ⟨S1024x1024, .f32⟩
  | 108 => ⟨S1024x1024, .f32⟩
  | 109 => ⟨S_, .i32⟩
  | 110 => ⟨S1024x1024, .i32⟩
  | 111 => ⟨S1024x1024, .i1⟩
  | 112 => ⟨S_, .i32⟩
  | 113 => ⟨S1024x1024, .i32⟩
  | 114 => ⟨S1024x1024, .i32⟩
  | 115 => ⟨S1024x1024, .i32⟩
  | 116 => ⟨S1024x1024x1, .i32⟩
  | 117 => ⟨S32x1024x1024, .f32⟩
  | 118 => ⟨S_, .f32⟩
  | 119 => ⟨S1024x1024, .f32⟩
  | 120 => ⟨S1024x1024, .f32⟩
  | 121 => ⟨S1x1024x1024, .f32⟩
  | 122 => ⟨S32x1024x1024, .f32⟩
  | 123 => ⟨S32x1024x1024, .f32⟩
  | 124 => ⟨S_, .i32⟩
  | 125 => ⟨S1024x1024, .i32⟩
  | 126 => ⟨S1024x1024, .i32⟩
  | 127 => ⟨S_, .i32⟩
  | _ => ⟨S1024x1024x2, .f32⟩

abbrev hbmTy0_1 (i : Nat) : BufTy := match i % 128 with
  | 0 => ⟨S1024x1024, .i32⟩
  | 1 => ⟨S1024x1024, .i1⟩
  | 2 => ⟨S_, .i32⟩
  | 3 => ⟨S1024x1024, .i32⟩
  | 4 => ⟨S1024x1024, .i32⟩
  | 5 => ⟨S1024x1024, .i32⟩
  | 6 => ⟨S1024x1024x1, .i32⟩
  | 7 => ⟨S32x1024x1024, .f32⟩
  | 8 => ⟨S1x1024x1024, .f32⟩
  | 9 => ⟨S32x1024x1024, .f32⟩
  | 10 => ⟨S32x1024x1024, .f32⟩
  | 11 => ⟨S32x1024x1024, .f32⟩
  | 12 => ⟨S_, .f32⟩
  | 13 => ⟨S1024x1024, .f32⟩
  | 14 => ⟨S1024x1024, .f32⟩
  | 15 => ⟨S_, .f32⟩
  | 16 => ⟨S1024x1024, .f32⟩
  | 17 => ⟨S1024x1024, .f32⟩
  | 18 => ⟨S_, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S1024x1024, .f32⟩
  | 31 => ⟨S1024x1024, .i32⟩
  | 32 => ⟨S1024x1024, .f32⟩
  | 33 => ⟨S1024x1024, .i32⟩
  | 34 => ⟨S1024x1024, .f32⟩
  | 35 => ⟨S1024x1024, .f32⟩
  | 36 => ⟨S1024x1024, .f32⟩
  | 37 => ⟨S1024x1024, .f32⟩
  | 38 => ⟨S_, .i32⟩
  | 39 => ⟨S1024x1024, .i32⟩
  | 40 => ⟨S1024x1024, .i1⟩
  | 41 => ⟨S_, .i32⟩
  | 42 => ⟨S1024x1024, .i32⟩
  | 43 => ⟨S1024x1024, .i1⟩
  | 44 => ⟨S1024x1024, .i1⟩
  | 45 => ⟨S_, .i32⟩
  | 46 => ⟨S1024x1024, .i32⟩
  | 47 => ⟨S1024x1024, .i1⟩
  | 48 => ⟨S1024x1024, .i1⟩
  | 49 => ⟨S_, .i32⟩
  | 50 => ⟨S1024x1024, .i32⟩
  | 51 => ⟨S1024x1024, .i1⟩
  | 52 => ⟨S1024x1024, .i1⟩
  | 53 => ⟨S_, .i32⟩
  | 54 => ⟨S_, .i32⟩
  | 55 => ⟨S_, .i32⟩
  | 56 => ⟨S1024x1024, .i32⟩
  | 57 => ⟨S1024x1024, .i32⟩
  | 58 => ⟨S_, .i32⟩
  | 59 => ⟨S1024x1024, .i32⟩
  | 60 => ⟨S1024x1024, .i32⟩
  | 61 => ⟨S_, .i32⟩
  | 62 => ⟨S_, .i32⟩
  | 63 => ⟨S_, .i32⟩
  | 64 => ⟨S1024x1024, .i32⟩
  | 65 => ⟨S1024x1024, .i32⟩
  | 66 => ⟨S_, .i32⟩
  | 67 => ⟨S1024x1024, .i32⟩
  | 68 => ⟨S1024x1024, .i32⟩
  | 69 => ⟨S_, .i32⟩
  | 70 => ⟨S1024x1024, .i32⟩
  | 71 => ⟨S1024x1024, .i1⟩
  | 72 => ⟨S_, .i32⟩
  | 73 => ⟨S1024x1024, .i32⟩
  | 74 => ⟨S1024x1024, .i32⟩
  | 75 => ⟨S1024x1024, .i32⟩
  | 76 => ⟨S_, .i32⟩
  | 77 => ⟨S1024x1024, .i32⟩
  | 78 => ⟨S1024x1024, .i1⟩
  | 79 => ⟨S_, .i32⟩
  | 80 => ⟨S1024x1024, .i32⟩
  | 81 => ⟨S1024x1024, .i32⟩
  | 82 => ⟨S1024x1024, .i32⟩
  | 83 => ⟨S1024x1024x1, .i32⟩
  | 84 => ⟨S1024x1024x1, .i32⟩
  | 85 => ⟨S1024x1024x2, .i32⟩
  | 86 => ⟨S32x1024x1024, .f32⟩
  | 87 => ⟨S1024x1024, .f32⟩
  | 88 => ⟨S1x1024x1024, .f32⟩
  | 89 => ⟨S32x1024x1024, .f32⟩
  | 90 => ⟨S32x1024x1024, .f32⟩
  | 91 => ⟨S_, .f32⟩
  | 92 => ⟨S1024x1024, .f32⟩
  | 93 => ⟨S1024x1024, .f32⟩
  | 94 => ⟨S1x1024x1024, .f32⟩
  | 95 => ⟨S32x1024x1024, .f32⟩
  | 96 => ⟨S32x1024x1024, .f32⟩
  | 97 => ⟨S_, .f32⟩
  | 98 => ⟨S1024x1024, .f32⟩
  | 99 => ⟨S1024x1024, .f32⟩
  | 100 => ⟨S1x1024x1024, .f32⟩
  | 101 => ⟨S32x1024x1024, .f32⟩
  | 102 => ⟨S32x1024x1024, .f32⟩
  | 103 => ⟨S_, .i32⟩
  | 104 => ⟨S1024x1024, .i32⟩
  | 105 => ⟨S1024x1024, .i32⟩
  | 106 => ⟨S_, .i32⟩
  | 107 => ⟨S1024x1024, .i32⟩
  | 108 => ⟨S1024x1024, .i1⟩
  | 109 => ⟨S_, .i32⟩
  | 110 => ⟨S1024x1024, .i32⟩
  | 111 => ⟨S1024x1024, .i1⟩
  | 112 => ⟨S1024x1024, .i1⟩
  | 113 => ⟨S_, .i32⟩
  | 114 => ⟨S1024x1024, .i32⟩
  | 115 => ⟨S1024x1024, .i1⟩
  | 116 => ⟨S1024x1024, .i1⟩
  | 117 => ⟨S_, .i32⟩
  | 118 => ⟨S1024x1024, .i32⟩
  | 119 => ⟨S1024x1024, .i1⟩
  | 120 => ⟨S1024x1024, .i1⟩
  | 121 => ⟨S_, .i32⟩
  | 122 => ⟨S_, .i32⟩
  | 123 => ⟨S_, .i32⟩
  | 124 => ⟨S1024x1024, .i32⟩
  | 125 => ⟨S1024x1024, .i32⟩
  | 126 => ⟨S_, .i32⟩
  | 127 => ⟨S1024x1024, .i32⟩
  | _ => ⟨S1024x1024x2, .f32⟩

abbrev hbmTy0_2 (i : Nat) : BufTy := match i % 128 with
  | 0 => ⟨S1024x1024, .i32⟩
  | 1 => ⟨S_, .i32⟩
  | 2 => ⟨S_, .i32⟩
  | 3 => ⟨S_, .i32⟩
  | 4 => ⟨S1024x1024, .i32⟩
  | 5 => ⟨S1024x1024, .i32⟩
  | 6 => ⟨S_, .i32⟩
  | 7 => ⟨S1024x1024, .i32⟩
  | 8 => ⟨S1024x1024, .i32⟩
  | 9 => ⟨S_, .i32⟩
  | 10 => ⟨S1024x1024, .i32⟩
  | 11 => ⟨S1024x1024, .i1⟩
  | 12 => ⟨S_, .i32⟩
  | 13 => ⟨S1024x1024, .i32⟩
  | 14 => ⟨S1024x1024, .i32⟩
  | 15 => ⟨S1024x1024, .i32⟩
  | 16 => ⟨S_, .i32⟩
  | 17 => ⟨S1024x1024, .i32⟩
  | 18 => ⟨S1024x1024, .i1⟩
  | 19 => ⟨S_, .i32⟩
  | 20 => ⟨S1024x1024, .i32⟩
  | 21 => ⟨S1024x1024, .i32⟩
  | 22 => ⟨S1024x1024, .i32⟩
  | 23 => ⟨S1024x1024x1, .i32⟩
  | 24 => ⟨S1024x1024x1, .i32⟩
  | 25 => ⟨S1024x1024x2, .i32⟩
  | 26 => ⟨S32x1024x1024, .f32⟩
  | 27 => ⟨S1024x1024, .f32⟩
  | 28 => ⟨S1x1024x1024, .f32⟩
  | 29 => ⟨S32x1024x1024, .f32⟩
  | 30 => ⟨S32x1024x1024, .f32⟩
  | 31 => ⟨S_, .f32⟩
  | 32 => ⟨S1024x1024, .f32⟩
  | 33 => ⟨S1024x1024, .f32⟩
  | 34 => ⟨S1x1024x1024, .f32⟩
  | 35 => ⟨S32x1024x1024, .f32⟩
  | 36 => ⟨S32x1024x1024, .f32⟩
  | 37 => ⟨S1x1024x1024, .f32⟩
  | 38 => ⟨S32x1024x1024, .f32⟩
  | 39 => ⟨S32x1024x1024, .f32⟩
  | 40 => ⟨S32x1024x1024, .f32⟩
  | 41 => ⟨S_, .i32⟩
  | 42 => ⟨S1024x1024, .i32⟩
  | 43 => ⟨S1024x1024, .i32⟩
  | 44 => ⟨S_, .i32⟩
  | 45 => ⟨S1024x1024, .i32⟩
  | 46 => ⟨S1024x1024, .i1⟩
  | 47 => ⟨S_, .i32⟩
  | 48 => ⟨S1024x1024, .i32⟩
  | 49 => ⟨S1024x1024, .i1⟩
  | 50 => ⟨S1024x1024, .i1⟩
  | 51 => ⟨S_, .i32⟩
  | 52 => ⟨S1024x1024, .i32⟩
  | 53 => ⟨S1024x1024, .i1⟩
  | 54 => ⟨S1024x1024, .i1⟩
  | 55 => ⟨S_, .i32⟩
  | 56 => ⟨S1024x1024, .i32⟩
  | 57 => ⟨S1024x1024, .i1⟩
  | 58 => ⟨S1024x1024, .i1⟩
  | 59 => ⟨S_, .i32⟩
  | 60 => ⟨S_, .i32⟩
  | 61 => ⟨S_, .i32⟩
  | 62 => ⟨S1024x1024, .i32⟩
  | 63 => ⟨S1024x1024, .i32⟩
  | 64 => ⟨S_, .i32⟩
  | 65 => ⟨S1024x1024, .i32⟩
  | 66 => ⟨S1024x1024, .i32⟩
  | 67 => ⟨S_, .i32⟩
  | 68 => ⟨S_, .i32⟩
  | 69 => ⟨S_, .i32⟩
  | 70 => ⟨S1024x1024, .i32⟩
  | 71 => ⟨S1024x1024, .i32⟩
  | 72 => ⟨S_, .i32⟩
  | 73 => ⟨S1024x1024, .i32⟩
  | 74 => ⟨S1024x1024, .i32⟩
  | 75 => ⟨S_, .i32⟩
  | 76 => ⟨S1024x1024, .i32⟩
  | 77 => ⟨S1024x1024, .i1⟩
  | 78 => ⟨S_, .i32⟩
  | 79 => ⟨S1024x1024, .i32⟩
  | 80 => ⟨S1024x1024, .i32⟩
  | 81 => ⟨S1024x1024, .i32⟩
  | 82 => ⟨S_, .i32⟩
  | 83 => ⟨S1024x1024, .i32⟩
  | 84 => ⟨S1024x1024, .i1⟩
  | 85 => ⟨S_, .i32⟩
  | 86 => ⟨S1024x1024, .i32⟩
  | 87 => ⟨S1024x1024, .i32⟩
  | 88 => ⟨S1024x1024, .i32⟩
  | 89 => ⟨S1024x1024x1, .i32⟩
  | 90 => ⟨S1024x1024x1, .i32⟩
  | 91 => ⟨S1024x1024x2, .i32⟩
  | 92 => ⟨S32x1024x1024, .f32⟩
  | 93 => ⟨S1024x1024, .f32⟩
  | 94 => ⟨S1x1024x1024, .f32⟩
  | 95 => ⟨S32x1024x1024, .f32⟩
  | 96 => ⟨S32x1024x1024, .f32⟩
  | 97 => ⟨S1x1024x1024, .f32⟩
  | 98 => ⟨S32x1024x1024, .f32⟩
  | 99 => ⟨S32x1024x1024, .f32⟩
  | 100 => ⟨S_, .f32⟩
  | 101 => ⟨S1024x1024, .f32⟩
  | 102 => ⟨S1024x1024, .f32⟩
  | 103 => ⟨S1x1024x1024, .f32⟩
  | 104 => ⟨S32x1024x1024, .f32⟩
  | 105 => ⟨S32x1024x1024, .f32⟩
  | 106 => ⟨S32x1024x1024, .f32⟩
  | 107 => ⟨S_, .i32⟩
  | 108 => ⟨S1024x1024, .i32⟩
  | 109 => ⟨S1024x1024, .i32⟩
  | 110 => ⟨S_, .i32⟩
  | 111 => ⟨S1024x1024, .i32⟩
  | 112 => ⟨S1024x1024, .i32⟩
  | 113 => ⟨S_, .i32⟩
  | 114 => ⟨S1024x1024, .i32⟩
  | 115 => ⟨S1024x1024, .i1⟩
  | 116 => ⟨S_, .i32⟩
  | 117 => ⟨S1024x1024, .i32⟩
  | 118 => ⟨S1024x1024, .i1⟩
  | 119 => ⟨S1024x1024, .i1⟩
  | 120 => ⟨S_, .i32⟩
  | 121 => ⟨S1024x1024, .i32⟩
  | 122 => ⟨S1024x1024, .i1⟩
  | 123 => ⟨S1024x1024, .i1⟩
  | 124 => ⟨S_, .i32⟩
  | 125 => ⟨S1024x1024, .i32⟩
  | 126 => ⟨S1024x1024, .i1⟩
  | 127 => ⟨S1024x1024, .i1⟩
  | _ => ⟨S1024x1024x2, .f32⟩

abbrev hbmTy0_3 (i : Nat) : BufTy := match i % 128 with
  | 0 => ⟨S_, .i32⟩
  | 1 => ⟨S_, .i32⟩
  | 2 => ⟨S_, .i32⟩
  | 3 => ⟨S1024x1024, .i32⟩
  | 4 => ⟨S1024x1024, .i32⟩
  | 5 => ⟨S_, .i32⟩
  | 6 => ⟨S1024x1024, .i32⟩
  | 7 => ⟨S1024x1024, .i32⟩
  | 8 => ⟨S_, .i32⟩
  | 9 => ⟨S_, .i32⟩
  | 10 => ⟨S_, .i32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S_, .i32⟩
  | 17 => ⟨S1024x1024, .i32⟩
  | 18 => ⟨S1024x1024, .i1⟩
  | 19 => ⟨S_, .i32⟩
  | 20 => ⟨S1024x1024, .i32⟩
  | 21 => ⟨S1024x1024, .i32⟩
  | 22 => ⟨S1024x1024, .i32⟩
  | 23 => ⟨S_, .i32⟩
  | 24 => ⟨S1024x1024, .i32⟩
  | 25 => ⟨S1024x1024, .i1⟩
  | 26 => ⟨S_, .i32⟩
  | 27 => ⟨S1024x1024, .i32⟩
  | 28 => ⟨S1024x1024, .i32⟩
  | 29 => ⟨S1024x1024, .i32⟩
  | 30 => ⟨S1024x1024x1, .i32⟩
  | 31 => ⟨S1024x1024x1, .i32⟩
  | 32 => ⟨S1024x1024x2, .i32⟩
  | 33 => ⟨S32x1024x1024, .f32⟩
  | 34 => ⟨S1024x1024, .f32⟩
  | 35 => ⟨S1x1024x1024, .f32⟩
  | 36 => ⟨S32x1024x1024, .f32⟩
  | 37 => ⟨S32x1024x1024, .f32⟩
  | 38 => ⟨S1x1024x1024, .f32⟩
  | 39 => ⟨S32x1024x1024, .f32⟩
  | 40 => ⟨S32x1024x1024, .f32⟩
  | 41 => ⟨S1x1024x1024, .f32⟩
  | 42 => ⟨S32x1024x1024, .f32⟩
  | 43 => ⟨S32x1024x1024, .f32⟩
  | 44 => ⟨S32x1024x1024, .f32⟩
  | 45 => ⟨S32x1024x1024, .f32⟩
  | 46 => ⟨S32x1024x1024, .f32⟩
  | 47 => ⟨S1024x1024x32, .f32⟩
  | 48 => ⟨S1024x1024x64, .f32⟩
  | 49 => ⟨S1x1x64, .f32⟩
  | 50 => ⟨S1024x1024x64, .f32⟩
  | 51 => ⟨S1024x1024x64, .f32⟩
  | 52 => ⟨S_, .f32⟩
  | 53 => ⟨S1024x1024x64, .f32⟩
  | 54 => ⟨S1024x1024x64, .f32⟩
  | 55 => ⟨S1024x1024x1, .f32⟩
  | 56 => ⟨S1x1x1, .f32⟩
  | 57 => ⟨S1024x1024x1, .f32⟩
  | 58 => ⟨S1024x1024x1, .f32⟩
  | 59 => ⟨S1024x1024, .f32⟩
  | _ => ⟨S1024x1024x2, .f32⟩

abbrev hbmTy (i : Nat) : BufTy := match i / 128 with
  | 0 => hbmTy0_0 i
  | 1 => hbmTy0_1 i
  | 2 => hbmTy0_2 i
  | 3 => hbmTy0_3 i
  | _ => ⟨S1024x1024x2, .f32⟩

abbrev bufTy : (tb : Table) → Fin (tcTables nBuf tb) → BufTy
  | .hbm, ⟨i, _⟩ => hbmTy i
  | _, _ => ⟨S1024x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_cst_9 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_10 : Ref sig .tc := ⟨.hbm, 54, rfl⟩
abbrev main_v29 : Ref sig .tc := ⟨.hbm, 55, rfl⟩
abbrev main_v30 : Ref sig .tc := ⟨.hbm, 56, rfl⟩
abbrev main_c_11 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_12 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_13 : Ref sig .tc := ⟨.hbm, 69, rfl⟩
abbrev main_v41 : Ref sig .tc := ⟨.hbm, 70, rfl⟩
abbrev main_v42 : Ref sig .tc := ⟨.hbm, 71, rfl⟩
abbrev main_c_14 : Ref sig .tc := ⟨.hbm, 72, rfl⟩
abbrev main_v43 : Ref sig .tc := ⟨.hbm, 73, rfl⟩
abbrev main_v44 : Ref sig .tc := ⟨.hbm, 74, rfl⟩
abbrev main_c_15 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_16 : Ref sig .tc := ⟨.hbm, 85, rfl⟩
abbrev main_v54 : Ref sig .tc := ⟨.hbm, 86, rfl⟩
abbrev main_v55 : Ref sig .tc := ⟨.hbm, 87, rfl⟩
abbrev main_cst_17 : Ref sig .tc := ⟨.hbm, 88, rfl⟩
abbrev main_v56 : Ref sig .tc := ⟨.hbm, 89, rfl⟩
abbrev main_v57 : Ref sig .tc := ⟨.hbm, 90, rfl⟩
abbrev main_cst_18 : Ref sig .tc := ⟨.hbm, 91, rfl⟩
abbrev main_v58 : Ref sig .tc := ⟨.hbm, 92, rfl⟩
abbrev main_v59 : Ref sig .tc := ⟨.hbm, 93, rfl⟩
abbrev main_cst_19 : Ref sig .tc := ⟨.hbm, 94, rfl⟩
abbrev main_cst_20 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_21 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_22 : Ref sig .tc := ⟨.hbm, 109, rfl⟩
abbrev main_v67 : Ref sig .tc := ⟨.hbm, 110, rfl⟩
abbrev main_v68 : Ref sig .tc := ⟨.hbm, 111, rfl⟩
abbrev main_c_23 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_24 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_c_25 : Ref sig .tc := ⟨.hbm, 124, rfl⟩
abbrev main_v79 : Ref sig .tc := ⟨.hbm, 125, rfl⟩
abbrev main_v80 : Ref sig .tc := ⟨.hbm, 126, rfl⟩
abbrev main_c_26 : Ref sig .tc := ⟨.hbm, 127, rfl⟩
abbrev main_v81 : Ref sig .tc := ⟨.hbm, 128, rfl⟩
abbrev main_v82 : Ref sig .tc := ⟨.hbm, 129, rfl⟩
abbrev main_c_27 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_28 : Ref sig .tc := ⟨.hbm, 140, rfl⟩
abbrev main_v92 : Ref sig .tc := ⟨.hbm, 141, rfl⟩
abbrev main_v93 : Ref sig .tc := ⟨.hbm, 142, rfl⟩
abbrev main_cst_29 : Ref sig .tc := ⟨.hbm, 143, rfl⟩
abbrev main_v94 : Ref sig .tc := ⟨.hbm, 144, rfl⟩
abbrev main_v95 : Ref sig .tc := ⟨.hbm, 145, rfl⟩
abbrev main_cst_30 : Ref sig .tc := ⟨.hbm, 146, rfl⟩
abbrev main_v96 : Ref sig .tc := ⟨.hbm, 147, rfl⟩
abbrev main_v97 : Ref sig .tc := ⟨.hbm, 148, rfl⟩
abbrev main_cst_31 : Ref sig .tc := ⟨.hbm, 149, rfl⟩
abbrev main_v98 : Ref sig .tc := ⟨.hbm, 150, rfl⟩
abbrev main_v99 : Ref sig .tc := ⟨.hbm, 151, rfl⟩
abbrev main_cst_32 : Ref sig .tc := ⟨.hbm, 152, rfl⟩
abbrev main_v100 : Ref sig .tc := ⟨.hbm, 153, rfl⟩
abbrev main_v101 : Ref sig .tc := ⟨.hbm, 154, rfl⟩
abbrev main_cst_33 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_c_34 : Ref sig .tc := ⟨.hbm, 166, rfl⟩
abbrev main_v112 : Ref sig .tc := ⟨.hbm, 167, rfl⟩
abbrev main_v113 : Ref sig .tc := ⟨.hbm, 168, rfl⟩
abbrev main_c_35 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_c_36 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_c_37 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_c_38 : Ref sig .tc := ⟨.hbm, 181, rfl⟩
abbrev main_c_39 : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_v123 : Ref sig .tc := ⟨.hbm, 188, rfl⟩
abbrev main_c_40 : Ref sig .tc := ⟨.hbm, 189, rfl⟩
abbrev main_c_41 : Ref sig .tc := ⟨.hbm, 190, rfl⟩
abbrev main_call3_v0 : Ref sig .tc := ⟨.hbm, 191, rfl⟩
abbrev main_call3_v1 : Ref sig .tc := ⟨.hbm, 192, rfl⟩
abbrev main_call3_v2 : Ref sig .tc := ⟨.hbm, 193, rfl⟩
abbrev main_call3_v3 : Ref sig .tc := ⟨.hbm, 194, rfl⟩
abbrev main_call3_v4 : Ref sig .tc := ⟨.hbm, 195, rfl⟩
abbrev main_v124 : Ref sig .tc := ⟨.hbm, 196, rfl⟩
abbrev main_c_42 : Ref sig .tc := ⟨.hbm, 197, rfl⟩
abbrev main_v125 : Ref sig .tc := ⟨.hbm, 198, rfl⟩
abbrev main_v126 : Ref sig .tc := ⟨.hbm, 199, rfl⟩
abbrev main_c_43 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_c_44 : Ref sig .tc := ⟨.hbm, 204, rfl⟩
abbrev main_v130 : Ref sig .tc := ⟨.hbm, 205, rfl⟩
abbrev main_v131 : Ref sig .tc := ⟨.hbm, 206, rfl⟩
abbrev main_c_45 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_cst_46 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_cst_47 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_c_48 : Ref sig .tc := ⟨.hbm, 231, rfl⟩
abbrev main_v153 : Ref sig .tc := ⟨.hbm, 232, rfl⟩
abbrev main_v154 : Ref sig .tc := ⟨.hbm, 233, rfl⟩
abbrev main_c_49 : Ref sig .tc := ⟨.hbm, 234, rfl⟩
abbrev main_v155 : Ref sig .tc := ⟨.hbm, 235, rfl⟩
abbrev main_v156 : Ref sig .tc := ⟨.hbm, 236, rfl⟩
abbrev main_c_50 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_c_51 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_c_52 : Ref sig .tc := ⟨.hbm, 245, rfl⟩
abbrev main_v163 : Ref sig .tc := ⟨.hbm, 246, rfl⟩
abbrev main_v164 : Ref sig .tc := ⟨.hbm, 247, rfl⟩
abbrev main_v165 : Ref sig .tc := ⟨.hbm, 248, rfl⟩
abbrev main_c_53 : Ref sig .tc := ⟨.hbm, 249, rfl⟩
abbrev main_c_54 : Ref sig .tc := ⟨.hbm, 250, rfl⟩
abbrev main_call4_v0 : Ref sig .tc := ⟨.hbm, 251, rfl⟩
abbrev main_call4_v1 : Ref sig .tc := ⟨.hbm, 252, rfl⟩
abbrev main_call4_v2 : Ref sig .tc := ⟨.hbm, 253, rfl⟩
abbrev main_call4_v3 : Ref sig .tc := ⟨.hbm, 254, rfl⟩
abbrev main_call4_v4 : Ref sig .tc := ⟨.hbm, 255, rfl⟩
abbrev main_v166 : Ref sig .tc := ⟨.hbm, 256, rfl⟩
abbrev main_c_55 : Ref sig .tc := ⟨.hbm, 257, rfl⟩
abbrev main_c_56 : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_v167 : Ref sig .tc := ⟨.hbm, 264, rfl⟩
abbrev main_c_57 : Ref sig .tc := ⟨.hbm, 265, rfl⟩
abbrev main_v168 : Ref sig .tc := ⟨.hbm, 266, rfl⟩
abbrev main_v169 : Ref sig .tc := ⟨.hbm, 267, rfl⟩
abbrev main_c_58 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_c_59 : Ref sig .tc := ⟨.hbm, 272, rfl⟩
abbrev main_v173 : Ref sig .tc := ⟨.hbm, 273, rfl⟩
abbrev main_v174 : Ref sig .tc := ⟨.hbm, 274, rfl⟩
abbrev main_c_60 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_cst_61 : Ref sig .tc := ⟨.hbm, 287, rfl⟩
abbrev main_v186 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_c_62 : Ref sig .tc := ⟨.hbm, 297, rfl⟩
abbrev main_v195 : Ref sig .tc := ⟨.hbm, 298, rfl⟩
abbrev main_v196 : Ref sig .tc := ⟨.hbm, 299, rfl⟩
abbrev main_c_63 : Ref sig .tc := ⟨.hbm, 300, rfl⟩
abbrev main_v197 : Ref sig .tc := ⟨.hbm, 301, rfl⟩
abbrev main_v198 : Ref sig .tc := ⟨.hbm, 302, rfl⟩
abbrev main_c_64 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_c_65 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_c_66 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_c_67 : Ref sig .tc := ⟨.hbm, 315, rfl⟩
abbrev main_c_68 : Ref sig .tc := ⟨.hbm, 316, rfl⟩
abbrev main_call6_v0 : Ref sig .tc := ⟨.hbm, 317, rfl⟩
abbrev main_call6_v1 : Ref sig .tc := ⟨.hbm, 318, rfl⟩
abbrev main_call6_v2 : Ref sig .tc := ⟨.hbm, 319, rfl⟩
abbrev main_call6_v3 : Ref sig .tc := ⟨.hbm, 320, rfl⟩
abbrev main_call6_v4 : Ref sig .tc := ⟨.hbm, 321, rfl⟩
abbrev main_v208 : Ref sig .tc := ⟨.hbm, 322, rfl⟩
abbrev main_c_69 : Ref sig .tc := ⟨.hbm, 323, rfl⟩
abbrev main_c_70 : Ref sig .tc := ⟨.hbm, 324, rfl⟩
abbrev main_call7_v0 : Ref sig .tc := ⟨.hbm, 325, rfl⟩
abbrev main_call7_v1 : Ref sig .tc := ⟨.hbm, 326, rfl⟩
abbrev main_call7_v2 : Ref sig .tc := ⟨.hbm, 327, rfl⟩
abbrev main_call7_v3 : Ref sig .tc := ⟨.hbm, 328, rfl⟩
abbrev main_call7_v4 : Ref sig .tc := ⟨.hbm, 329, rfl⟩
abbrev main_v209 : Ref sig .tc := ⟨.hbm, 330, rfl⟩
abbrev main_c_71 : Ref sig .tc := ⟨.hbm, 331, rfl⟩
abbrev main_v210 : Ref sig .tc := ⟨.hbm, 332, rfl⟩
abbrev main_v211 : Ref sig .tc := ⟨.hbm, 333, rfl⟩
abbrev main_c_72 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_c_73 : Ref sig .tc := ⟨.hbm, 338, rfl⟩
abbrev main_v215 : Ref sig .tc := ⟨.hbm, 339, rfl⟩
abbrev main_v216 : Ref sig .tc := ⟨.hbm, 340, rfl⟩
abbrev main_c_74 : Ref sig .tc := ⟨.hbm, 341, rfl⟩
abbrev main_v217 : Ref sig .tc := ⟨.hbm, 342, rfl⟩
abbrev main_v218 : Ref sig .tc := ⟨.hbm, 343, rfl⟩
abbrev main_v219 : Ref sig .tc := ⟨.hbm, 344, rfl⟩
abbrev main_v220 : Ref sig .tc := ⟨.hbm, 345, rfl⟩
abbrev main_v221 : Ref sig .tc := ⟨.hbm, 346, rfl⟩
abbrev main_v222 : Ref sig .tc := ⟨.hbm, 347, rfl⟩
abbrev main_v223 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_v227 : Ref sig .tc := ⟨.hbm, 352, rfl⟩
abbrev main_v228 : Ref sig .tc := ⟨.hbm, 353, rfl⟩
abbrev main_v229 : Ref sig .tc := ⟨.hbm, 354, rfl⟩
abbrev main_v230 : Ref sig .tc := ⟨.hbm, 355, rfl⟩
abbrev main_cst_75 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_v235 : Ref sig .tc := ⟨.hbm, 361, rfl⟩
abbrev main_v236 : Ref sig .tc := ⟨.hbm, 362, rfl⟩
abbrev main_c_76 : Ref sig .tc := ⟨.hbm, 363, rfl⟩
abbrev main_v237 : Ref sig .tc := ⟨.hbm, 364, rfl⟩
abbrev main_v238 : Ref sig .tc := ⟨.hbm, 365, rfl⟩
abbrev main_c_77 : Ref sig .tc := ⟨.hbm, 366, rfl⟩
abbrev main_v239 : Ref sig .tc := ⟨.hbm, 367, rfl⟩
abbrev main_v240 : Ref sig .tc := ⟨.hbm, 368, rfl⟩
abbrev main_c_78 : Ref sig .tc := ⟨.hbm, 369, rfl⟩
abbrev main_v241 : Ref sig .tc := ⟨.hbm, 370, rfl⟩
abbrev main_v242 : Ref sig .tc := ⟨.hbm, 371, rfl⟩
abbrev main_c_79 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_c_80 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_c_81 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_c_82 : Ref sig .tc := ⟨.hbm, 384, rfl⟩
abbrev main_c_83 : Ref sig .tc := ⟨.hbm, 385, rfl⟩
abbrev main_call8_v0 : Ref sig .tc := ⟨.hbm, 386, rfl⟩
abbrev main_call8_v1 : Ref sig .tc := ⟨.hbm, 387, rfl⟩
abbrev main_call8_v2 : Ref sig .tc := ⟨.hbm, 388, rfl⟩
abbrev main_call8_v3 : Ref sig .tc := ⟨.hbm, 389, rfl⟩
abbrev main_call8_v4 : Ref sig .tc := ⟨.hbm, 390, rfl⟩
abbrev main_v252 : Ref sig .tc := ⟨.hbm, 391, rfl⟩
abbrev main_c_84 : Ref sig .tc := ⟨.hbm, 392, rfl⟩
abbrev main_c_85 : Ref sig .tc := ⟨.hbm, 393, rfl⟩
abbrev main_call9_v0 : Ref sig .tc := ⟨.hbm, 394, rfl⟩
abbrev main_call9_v1 : Ref sig .tc := ⟨.hbm, 395, rfl⟩
abbrev main_call9_v2 : Ref sig .tc := ⟨.hbm, 396, rfl⟩
abbrev main_call9_v3 : Ref sig .tc := ⟨.hbm, 397, rfl⟩
abbrev main_call9_v4 : Ref sig .tc := ⟨.hbm, 398, rfl⟩
abbrev main_v253 : Ref sig .tc := ⟨.hbm, 399, rfl⟩
abbrev main_c_86 : Ref sig .tc := ⟨.hbm, 400, rfl⟩
abbrev main_v254 : Ref sig .tc := ⟨.hbm, 401, rfl⟩
abbrev main_v255 : Ref sig .tc := ⟨.hbm, 402, rfl⟩
abbrev main_c_87 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩
abbrev main_c_88 : Ref sig .tc := ⟨.hbm, 407, rfl⟩
abbrev main_v259 : Ref sig .tc := ⟨.hbm, 408, rfl⟩
abbrev main_v260 : Ref sig .tc := ⟨.hbm, 409, rfl⟩
abbrev main_c_89 : Ref sig .tc := ⟨.hbm, 410, rfl⟩
abbrev main_v261 : Ref sig .tc := ⟨.hbm, 411, rfl⟩
abbrev main_v262 : Ref sig .tc := ⟨.hbm, 412, rfl⟩
abbrev main_v263 : Ref sig .tc := ⟨.hbm, 413, rfl⟩
abbrev main_v264 : Ref sig .tc := ⟨.hbm, 414, rfl⟩
abbrev main_v265 : Ref sig .tc := ⟨.hbm, 415, rfl⟩
abbrev main_v266 : Ref sig .tc := ⟨.hbm, 416, rfl⟩
abbrev main_v267 : Ref sig .tc := ⟨.hbm, 417, rfl⟩
abbrev main_v268 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_v272 : Ref sig .tc := ⟨.hbm, 422, rfl⟩
abbrev main_v273 : Ref sig .tc := ⟨.hbm, 423, rfl⟩
abbrev main_v274 : Ref sig .tc := ⟨.hbm, 424, rfl⟩
abbrev main_v275 : Ref sig .tc := ⟨.hbm, 425, rfl⟩
abbrev main_v276 : Ref sig .tc := ⟨.hbm, 426, rfl⟩
abbrev main_v277 : Ref sig .tc := ⟨.hbm, 427, rfl⟩
abbrev main_v278 : Ref sig .tc := ⟨.hbm, 428, rfl⟩
abbrev main_v279 : Ref sig .tc := ⟨.hbm, 429, rfl⟩
abbrev main_v280 : Ref sig .tc := ⟨.hbm, 430, rfl⟩
abbrev main_v281 : Ref sig .tc := ⟨.hbm, 431, rfl⟩
abbrev main_v282 : Ref sig .tc := ⟨.hbm, 432, rfl⟩
abbrev main_v283 : Ref sig .tc := ⟨.hbm, 433, rfl⟩
abbrev main_v284 : Ref sig .tc := ⟨.hbm, 434, rfl⟩
abbrev main_v285 : Ref sig .tc := ⟨.hbm, 435, rfl⟩
abbrev main_call10_cst : Ref sig .tc := ⟨.hbm, 436, rfl⟩
abbrev main_call10_v0 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_v291 : Ref sig .tc := ⟨.hbm, 443, rfl⟩

abbrev nD : Nat := 1
abbrev τ : Topo := Topo.v7x

variable {F : FTy → Type} [FloatOps F]

class Facts₀ : Prop where
  slices_S1024x1024x2_S1024x1024x1_0_0_0 : S1024x1024x2.Slices ![0, 0, 0] S1024x1024x1
  shapeCasts_S1024x1024x1_S1024x1024 : S1024x1024x1.ShapeCasts S1024x1024
  bcast_S_S1024x1024 : S_.BroadcastsInDim S1024x1024 (![] : Fin 0 → Fin S1024x1024.rank)
  slices_S1024x1024x2_S1024x1024x1_0_0_1 : S1024x1024x2.Slices ![0, 0, 1] S1024x1024x1
  bcast_S1024x1024_S1024x1024x1_0_1 : S1024x1024.BroadcastsInDim S1024x1024x1 (![0, 1] : Fin 2 → Fin S1024x1024x1.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  concatenates_S1024x1024x1_S1024x1024x1_S1024x1024x2_d2 : Shape.Concatenates [S1024x1024x1, S1024x1024x1] S1024x1024x2 2
  transposes_S32x1024x1024_S1024x1024x32_1_2_0 : S32x1024x1024.Transposes [1, 2, 0] S1024x1024x32
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  bcast_S1_S1x1x1_2 : S1.BroadcastsInDim S1x1x1 (![2] : Fin 1 → Fin S1x1x1.rank)
  bcast_S1x1x1_S1024x1024x1_0_1_2 : S1x1x1.BroadcastsInDim S1024x1024x1 (![0, 1, 2] : Fin 3 → Fin S1024x1024x1.rank)
  gather_S32x1024_S1024x1024x1_S32x1024x1024_0_1_n_n_1_2_321_wf : GatherDims.WF S32x1024 S1024x1024x1 S32x1024x1024 [0] [1] [] [1] [] 2 ![32, 1]
  gather_S32x256x256_S1024x1024x2_S32x1024x1024_0_12_n_n_12_2_3211_wf : GatherDims.WF S32x256x256 S1024x1024x2 S32x1024x1024 [0] [1, 2] [] [1, 2] [] 2 ![32, 1, 1]
  dot_S1024x1024x32_S64x32_S1024x1024x64_2_1_01_0_n_n_wf : DotDims.WF S1024x1024x32 S64x32 S1024x1024x64 [2] [1] [0, 1] [0] [] []
  dot_S1024x1024x64_S1x64_S1024x1024x1_2_1_01_0_n_n_wf : DotDims.WF S1024x1024x64 S1x64 S1024x1024x1 [2] [1] [0, 1] [0] [] []

variable [Facts₀]

def gather_S32x1024_S1024x1024x1_S32x1024x1024_0_1_n_n_1_2_321 : GatherDims S32x1024 S1024x1024x1 S32x1024x1024 where
  offsetDims := [0]
  collapsedSliceDims := [1]
  operandBatchingDims := []
  startIndicesBatchingDims := []
  startIndexMap := [1]
  indexVectorDim := 2
  sliceSizes := ![32, 1]
  wf := gather_S32x1024_S1024x1024x1_S32x1024x1024_0_1_n_n_1_2_321_wf
def gather_S32x256x256_S1024x1024x2_S32x1024x1024_0_12_n_n_12_2_3211 : GatherDims S32x256x256 S1024x1024x2 S32x1024x1024 where
  offsetDims := [0]
  collapsedSliceDims := [1, 2]
  operandBatchingDims := []
  startIndicesBatchingDims := []
  startIndexMap := [1, 2]
  indexVectorDim := 2
  sliceSizes := ![32, 1, 1]
  wf := gather_S32x256x256_S1024x1024x2_S32x1024x1024_0_12_n_n_12_2_3211_wf
def dot_S1024x1024x32_S64x32_S1024x1024x64_2_1_01_0_n_n : DotDims S1024x1024x32 S64x32 S1024x1024x64 where
  lhsContracting := [2]
  rhsContracting := [1]
  lhsNonContracting := [0, 1]
  rhsNonContracting := [0]
  lhsBatch := []
  rhsBatch := []
  wf := dot_S1024x1024x32_S64x32_S1024x1024x64_2_1_01_0_n_n_wf
def dot_S1024x1024x64_S1x64_S1024x1024x1_2_1_01_0_n_n : DotDims S1024x1024x64 S1x64 S1024x1024x1 where
  lhsContracting := [2]
  rhsContracting := [1]
  lhsNonContracting := [0, 1]
  rhsNonContracting := [0]
  lhsBatch := []
  rhsBatch := []
  wf := dot_S1024x1024x64_S1x64_S1024x1024x1_2_1_01_0_n_n_wf

class Facts : Prop extends Facts₀ where

variable [Facts]
-- ==== Proof.RefRunH.lean ====
/-
  The reference program's run, read as values. Its @main is one straight line of 436 host operations; every weakly fair execution
  ends with each buffer at the fold of the operations' results over the launch contents. That fold is read in two layers. The
  per-pixel index, weight and mask arrays (computed from the coordinates alone) are read first, one lemma each, as the stage
  functions of the coordinates; an index array made by concatenating two computed arrays is read through its two operands. The
  result buffer is then read as the last stage: the operations above the per-pixel arrays (gathers, broadcasts, products, sums,
  the transpose, the two contractions, the reshape) composed over those arrays. The arguments' buffers are written by no operation.
-/
import proofs.«158345_j41824391528833_2_alg».proof.Proof.RefRun
import proofs.«158345_j41824391528833_2_alg».proof.Proof.RefRead

noncomputable section

namespace Cert.RefRunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxRecDepth 8192 in
set_option maxHeartbeats 20000000 in
/-- Every operation of the line determines what it writes. -/
theorem ops_fresh : (ops : List (HloOp τ sig (Elt F))).Forall fun op => op.fresh = ∅ := by
  simp only [List.Forall]; repeat' constructor

/-- Unfolds the stage functions at and below the per-pixel arrays, and removes the transports along the typed references' own types. -/
local macro "unfold_ref_stages" : tactic => `(tactic| simp only [StableHlo.TRef.ofBuf, StableHlo.TRef.toBuf, cast_eq,
    Cert.ReferenceIdeal.ReadP.val_main_v0, Cert.ReferenceIdeal.ReadP.val_main_v1, Cert.ReferenceIdeal.ReadP.val_main_cst,
    Cert.ReferenceIdeal.ReadP.val_main_v2, Cert.ReferenceIdeal.ReadP.val_main_v3, Cert.ReferenceIdeal.ReadP.val_main_cst_0,
    Cert.ReferenceIdeal.ReadP.val_main_v4, Cert.ReferenceIdeal.ReadP.val_main_v5, Cert.ReferenceIdeal.ReadP.val_main_cst_1,
    Cert.ReferenceIdeal.ReadP.val_main_v6, Cert.ReferenceIdeal.ReadP.val_main_v7, Cert.ReferenceIdeal.ReadP.val_main_v8,
    Cert.ReferenceIdeal.ReadP.val_main_v9, Cert.ReferenceIdeal.ReadP.val_main_cst_2, Cert.ReferenceIdeal.ReadP.val_main_v10,
    Cert.ReferenceIdeal.ReadP.val_main_v11, Cert.ReferenceIdeal.ReadP.val_main_cst_3, Cert.ReferenceIdeal.ReadP.val_main_v12,
    Cert.ReferenceIdeal.ReadP.val_main_v13, Cert.ReferenceIdeal.ReadP.val_main_cst_4, Cert.ReferenceIdeal.ReadP.val_main_v14,
    Cert.ReferenceIdeal.ReadP.val_main_v15, Cert.ReferenceIdeal.ReadP.val_main_cst_5, Cert.ReferenceIdeal.ReadP.val_main_v16,
    Cert.ReferenceIdeal.ReadP.val_main_v17, Cert.ReferenceIdeal.ReadP.val_main_cst_6, Cert.ReferenceIdeal.ReadP.val_main_v18,
    Cert.ReferenceIdeal.ReadP.val_main_v19, Cert.ReferenceIdeal.ReadP.val_main_cst_7, Cert.ReferenceIdeal.ReadP.val_main_v20,
    Cert.ReferenceIdeal.ReadP.val_main_v21, Cert.ReferenceIdeal.ReadP.val_main_cst_8, Cert.ReferenceIdeal.ReadP.val_main_cst_9,
    Cert.ReferenceIdeal.ReadP.val_main_call0_v0, Cert.ReferenceIdeal.ReadP.val_main_call0_v1, Cert.ReferenceIdeal.ReadP.val_main_call0_v2,
    Cert.ReferenceIdeal.ReadP.val_main_call0_v3, Cert.ReferenceIdeal.ReadP.val_main_call0_v4, Cert.ReferenceIdeal.ReadP.val_main_v22,
    Cert.ReferenceIdeal.ReadP.val_main_v23, Cert.ReferenceIdeal.ReadP.val_main_v24, Cert.ReferenceIdeal.ReadP.val_main_c,
    Cert.ReferenceIdeal.ReadP.val_main_v25, Cert.ReferenceIdeal.ReadP.val_main_v26, Cert.ReferenceIdeal.ReadP.val_main_v27,
    Cert.ReferenceIdeal.ReadP.val_main_v28, Cert.ReferenceIdeal.ReadP.val_main_c_10, Cert.ReferenceIdeal.ReadP.val_main_v29,
    Cert.ReferenceIdeal.ReadP.val_main_v30, Cert.ReferenceIdeal.ReadP.val_main_c_11, Cert.ReferenceIdeal.ReadP.val_main_v31,
    Cert.ReferenceIdeal.ReadP.val_main_v32, Cert.ReferenceIdeal.ReadP.val_main_v33, Cert.ReferenceIdeal.ReadP.val_main_v34,
    Cert.ReferenceIdeal.ReadP.val_main_cst_12, Cert.ReferenceIdeal.ReadP.val_main_v36, Cert.ReferenceIdeal.ReadP.val_main_v37,
    Cert.ReferenceIdeal.ReadP.val_main_c_13, Cert.ReferenceIdeal.ReadP.val_main_v41, Cert.ReferenceIdeal.ReadP.val_main_v42,
    Cert.ReferenceIdeal.ReadP.val_main_c_14, Cert.ReferenceIdeal.ReadP.val_main_v43, Cert.ReferenceIdeal.ReadP.val_main_v44,
    Cert.ReferenceIdeal.ReadP.val_main_c_15, Cert.ReferenceIdeal.ReadP.val_main_v45, Cert.ReferenceIdeal.ReadP.val_main_v46,
    Cert.ReferenceIdeal.ReadP.val_main_v47, Cert.ReferenceIdeal.ReadP.val_main_v48, Cert.ReferenceIdeal.ReadP.val_main_cst_16,
    Cert.ReferenceIdeal.ReadP.val_main_v54, Cert.ReferenceIdeal.ReadP.val_main_v55, Cert.ReferenceIdeal.ReadP.val_main_cst_17,
    Cert.ReferenceIdeal.ReadP.val_main_v56, Cert.ReferenceIdeal.ReadP.val_main_v57, Cert.ReferenceIdeal.ReadP.val_main_cst_18,
    Cert.ReferenceIdeal.ReadP.val_main_v58, Cert.ReferenceIdeal.ReadP.val_main_v59, Cert.ReferenceIdeal.ReadP.val_main_cst_19,
    Cert.ReferenceIdeal.ReadP.val_main_cst_20, Cert.ReferenceIdeal.ReadP.val_main_call1_v0, Cert.ReferenceIdeal.ReadP.val_main_call1_v1,
    Cert.ReferenceIdeal.ReadP.val_main_call1_v2, Cert.ReferenceIdeal.ReadP.val_main_call1_v3, Cert.ReferenceIdeal.ReadP.val_main_call1_v4,
    Cert.ReferenceIdeal.ReadP.val_main_v60, Cert.ReferenceIdeal.ReadP.val_main_v61, Cert.ReferenceIdeal.ReadP.val_main_v62,
    Cert.ReferenceIdeal.ReadP.val_main_c_21, Cert.ReferenceIdeal.ReadP.val_main_v63, Cert.ReferenceIdeal.ReadP.val_main_v64,
    Cert.ReferenceIdeal.ReadP.val_main_v65, Cert.ReferenceIdeal.ReadP.val_main_v66, Cert.ReferenceIdeal.ReadP.val_main_c_22,
    Cert.ReferenceIdeal.ReadP.val_main_v67, Cert.ReferenceIdeal.ReadP.val_main_v68, Cert.ReferenceIdeal.ReadP.val_main_c_23,
    Cert.ReferenceIdeal.ReadP.val_main_v69, Cert.ReferenceIdeal.ReadP.val_main_v70, Cert.ReferenceIdeal.ReadP.val_main_v71,
    Cert.ReferenceIdeal.ReadP.val_main_v72, Cert.ReferenceIdeal.ReadP.val_main_cst_24, Cert.ReferenceIdeal.ReadP.val_main_v74,
    Cert.ReferenceIdeal.ReadP.val_main_v75, Cert.ReferenceIdeal.ReadP.val_main_c_25, Cert.ReferenceIdeal.ReadP.val_main_v79,
    Cert.ReferenceIdeal.ReadP.val_main_v80, Cert.ReferenceIdeal.ReadP.val_main_c_26, Cert.ReferenceIdeal.ReadP.val_main_v81,
    Cert.ReferenceIdeal.ReadP.val_main_v82, Cert.ReferenceIdeal.ReadP.val_main_c_27, Cert.ReferenceIdeal.ReadP.val_main_v83,
    Cert.ReferenceIdeal.ReadP.val_main_v84, Cert.ReferenceIdeal.ReadP.val_main_v85, Cert.ReferenceIdeal.ReadP.val_main_v86,
    Cert.ReferenceIdeal.ReadP.val_main_cst_28, Cert.ReferenceIdeal.ReadP.val_main_v92, Cert.ReferenceIdeal.ReadP.val_main_v93,
    Cert.ReferenceIdeal.ReadP.val_main_cst_29, Cert.ReferenceIdeal.ReadP.val_main_v94, Cert.ReferenceIdeal.ReadP.val_main_v95,
    Cert.ReferenceIdeal.ReadP.val_main_cst_30, Cert.ReferenceIdeal.ReadP.val_main_v96, Cert.ReferenceIdeal.ReadP.val_main_v97,
    Cert.ReferenceIdeal.ReadP.val_main_cst_31, Cert.ReferenceIdeal.ReadP.val_main_v98, Cert.ReferenceIdeal.ReadP.val_main_v99,
    Cert.ReferenceIdeal.ReadP.val_main_cst_32, Cert.ReferenceIdeal.ReadP.val_main_v100, Cert.ReferenceIdeal.ReadP.val_main_v101,
    Cert.ReferenceIdeal.ReadP.val_main_cst_33, Cert.ReferenceIdeal.ReadP.val_main_v102, Cert.ReferenceIdeal.ReadP.val_main_v103,
    Cert.ReferenceIdeal.ReadP.val_main_v104, Cert.ReferenceIdeal.ReadP.val_main_v105, Cert.ReferenceIdeal.ReadP.val_main_v106,
    Cert.ReferenceIdeal.ReadP.val_main_v107, Cert.ReferenceIdeal.ReadP.val_main_v108, Cert.ReferenceIdeal.ReadP.val_main_v109,
    Cert.ReferenceIdeal.ReadP.val_main_v110, Cert.ReferenceIdeal.ReadP.val_main_v111, Cert.ReferenceIdeal.ReadP.val_main_c_34,
    Cert.ReferenceIdeal.ReadP.val_main_v112, Cert.ReferenceIdeal.ReadP.val_main_v113, Cert.ReferenceIdeal.ReadP.val_main_c_35,
    Cert.ReferenceIdeal.ReadP.val_main_v114, Cert.ReferenceIdeal.ReadP.val_main_v115, Cert.ReferenceIdeal.ReadP.val_main_v116,
    Cert.ReferenceIdeal.ReadP.val_main_c_36, Cert.ReferenceIdeal.ReadP.val_main_v117, Cert.ReferenceIdeal.ReadP.val_main_v118,
    Cert.ReferenceIdeal.ReadP.val_main_v119, Cert.ReferenceIdeal.ReadP.val_main_c_37, Cert.ReferenceIdeal.ReadP.val_main_v120,
    Cert.ReferenceIdeal.ReadP.val_main_v121, Cert.ReferenceIdeal.ReadP.val_main_v122, Cert.ReferenceIdeal.ReadP.val_main_c_38,
    Cert.ReferenceIdeal.ReadP.val_main_c_39, Cert.ReferenceIdeal.ReadP.val_main_call2_v0, Cert.ReferenceIdeal.ReadP.val_main_call2_v1,
    Cert.ReferenceIdeal.ReadP.val_main_call2_v2, Cert.ReferenceIdeal.ReadP.val_main_call2_v3, Cert.ReferenceIdeal.ReadP.val_main_call2_v4,
    Cert.ReferenceIdeal.ReadP.val_main_v123, Cert.ReferenceIdeal.ReadP.val_main_c_40, Cert.ReferenceIdeal.ReadP.val_main_c_41,
    Cert.ReferenceIdeal.ReadP.val_main_call3_v0, Cert.ReferenceIdeal.ReadP.val_main_call3_v1, Cert.ReferenceIdeal.ReadP.val_main_call3_v2,
    Cert.ReferenceIdeal.ReadP.val_main_call3_v3, Cert.ReferenceIdeal.ReadP.val_main_call3_v4, Cert.ReferenceIdeal.ReadP.val_main_v124,
    Cert.ReferenceIdeal.ReadP.val_main_c_42, Cert.ReferenceIdeal.ReadP.val_main_v125, Cert.ReferenceIdeal.ReadP.val_main_v126,
    Cert.ReferenceIdeal.ReadP.val_main_c_43, Cert.ReferenceIdeal.ReadP.val_main_v127, Cert.ReferenceIdeal.ReadP.val_main_v128,
    Cert.ReferenceIdeal.ReadP.val_main_v129, Cert.ReferenceIdeal.ReadP.val_main_c_44, Cert.ReferenceIdeal.ReadP.val_main_v130,
    Cert.ReferenceIdeal.ReadP.val_main_v131, Cert.ReferenceIdeal.ReadP.val_main_c_45, Cert.ReferenceIdeal.ReadP.val_main_v132,
    Cert.ReferenceIdeal.ReadP.val_main_v133, Cert.ReferenceIdeal.ReadP.val_main_v134, Cert.ReferenceIdeal.ReadP.val_main_v135,
    Cert.ReferenceIdeal.ReadP.val_main_v136, Cert.ReferenceIdeal.ReadP.val_main_v137, Cert.ReferenceIdeal.ReadP.val_main_cst_46,
    Cert.ReferenceIdeal.ReadP.val_main_v143, Cert.ReferenceIdeal.ReadP.val_main_v144, Cert.ReferenceIdeal.ReadP.val_main_cst_47,
    Cert.ReferenceIdeal.ReadP.val_main_v148, Cert.ReferenceIdeal.ReadP.val_main_v149, Cert.ReferenceIdeal.ReadP.val_main_c_48,
    Cert.ReferenceIdeal.ReadP.val_main_v153, Cert.ReferenceIdeal.ReadP.val_main_v154, Cert.ReferenceIdeal.ReadP.val_main_c_49,
    Cert.ReferenceIdeal.ReadP.val_main_v155, Cert.ReferenceIdeal.ReadP.val_main_v156, Cert.ReferenceIdeal.ReadP.val_main_c_50,
    Cert.ReferenceIdeal.ReadP.val_main_v157, Cert.ReferenceIdeal.ReadP.val_main_v158, Cert.ReferenceIdeal.ReadP.val_main_v159,
    Cert.ReferenceIdeal.ReadP.val_main_c_51, Cert.ReferenceIdeal.ReadP.val_main_v160, Cert.ReferenceIdeal.ReadP.val_main_v161,
    Cert.ReferenceIdeal.ReadP.val_main_v162, Cert.ReferenceIdeal.ReadP.val_main_c_52, Cert.ReferenceIdeal.ReadP.val_main_v163,
    Cert.ReferenceIdeal.ReadP.val_main_v164, Cert.ReferenceIdeal.ReadP.val_main_v165, Cert.ReferenceIdeal.ReadP.val_main_c_53,
    Cert.ReferenceIdeal.ReadP.val_main_c_54, Cert.ReferenceIdeal.ReadP.val_main_call4_v0, Cert.ReferenceIdeal.ReadP.val_main_call4_v1,
    Cert.ReferenceIdeal.ReadP.val_main_call4_v2, Cert.ReferenceIdeal.ReadP.val_main_call4_v3, Cert.ReferenceIdeal.ReadP.val_main_call4_v4,
    Cert.ReferenceIdeal.ReadP.val_main_v166, Cert.ReferenceIdeal.ReadP.val_main_c_55, Cert.ReferenceIdeal.ReadP.val_main_c_56,
    Cert.ReferenceIdeal.ReadP.val_main_call5_v0, Cert.ReferenceIdeal.ReadP.val_main_call5_v1, Cert.ReferenceIdeal.ReadP.val_main_call5_v2,
    Cert.ReferenceIdeal.ReadP.val_main_call5_v3, Cert.ReferenceIdeal.ReadP.val_main_call5_v4, Cert.ReferenceIdeal.ReadP.val_main_v167,
    Cert.ReferenceIdeal.ReadP.val_main_c_57, Cert.ReferenceIdeal.ReadP.val_main_v168, Cert.ReferenceIdeal.ReadP.val_main_v169,
    Cert.ReferenceIdeal.ReadP.val_main_c_58, Cert.ReferenceIdeal.ReadP.val_main_v170, Cert.ReferenceIdeal.ReadP.val_main_v171,
    Cert.ReferenceIdeal.ReadP.val_main_v172, Cert.ReferenceIdeal.ReadP.val_main_c_59, Cert.ReferenceIdeal.ReadP.val_main_v173,
    Cert.ReferenceIdeal.ReadP.val_main_v174, Cert.ReferenceIdeal.ReadP.val_main_c_60, Cert.ReferenceIdeal.ReadP.val_main_v175,
    Cert.ReferenceIdeal.ReadP.val_main_v176, Cert.ReferenceIdeal.ReadP.val_main_v177, Cert.ReferenceIdeal.ReadP.val_main_v178,
    Cert.ReferenceIdeal.ReadP.val_main_v179, Cert.ReferenceIdeal.ReadP.val_main_v180, Cert.ReferenceIdeal.ReadP.val_main_cst_61,
    Cert.ReferenceIdeal.ReadP.val_main_v186, Cert.ReferenceIdeal.ReadP.val_main_v187, Cert.ReferenceIdeal.ReadP.val_main_c_62,
    Cert.ReferenceIdeal.ReadP.val_main_v195, Cert.ReferenceIdeal.ReadP.val_main_v196, Cert.ReferenceIdeal.ReadP.val_main_c_63,
    Cert.ReferenceIdeal.ReadP.val_main_v197, Cert.ReferenceIdeal.ReadP.val_main_v198, Cert.ReferenceIdeal.ReadP.val_main_c_64,
    Cert.ReferenceIdeal.ReadP.val_main_v199, Cert.ReferenceIdeal.ReadP.val_main_v200, Cert.ReferenceIdeal.ReadP.val_main_v201,
    Cert.ReferenceIdeal.ReadP.val_main_c_65, Cert.ReferenceIdeal.ReadP.val_main_v202, Cert.ReferenceIdeal.ReadP.val_main_v203,
    Cert.ReferenceIdeal.ReadP.val_main_v204, Cert.ReferenceIdeal.ReadP.val_main_c_66, Cert.ReferenceIdeal.ReadP.val_main_v205,
    Cert.ReferenceIdeal.ReadP.val_main_v206, Cert.ReferenceIdeal.ReadP.val_main_v207, Cert.ReferenceIdeal.ReadP.val_main_c_67,
    Cert.ReferenceIdeal.ReadP.val_main_c_68, Cert.ReferenceIdeal.ReadP.val_main_call6_v0, Cert.ReferenceIdeal.ReadP.val_main_call6_v1,
    Cert.ReferenceIdeal.ReadP.val_main_call6_v2, Cert.ReferenceIdeal.ReadP.val_main_call6_v3, Cert.ReferenceIdeal.ReadP.val_main_call6_v4,
    Cert.ReferenceIdeal.ReadP.val_main_v208, Cert.ReferenceIdeal.ReadP.val_main_c_69, Cert.ReferenceIdeal.ReadP.val_main_c_70,
    Cert.ReferenceIdeal.ReadP.val_main_call7_v0, Cert.ReferenceIdeal.ReadP.val_main_call7_v1, Cert.ReferenceIdeal.ReadP.val_main_call7_v2,
    Cert.ReferenceIdeal.ReadP.val_main_call7_v3, Cert.ReferenceIdeal.ReadP.val_main_call7_v4, Cert.ReferenceIdeal.ReadP.val_main_v209,
    Cert.ReferenceIdeal.ReadP.val_main_c_71, Cert.ReferenceIdeal.ReadP.val_main_v210, Cert.ReferenceIdeal.ReadP.val_main_v211,
    Cert.ReferenceIdeal.ReadP.val_main_c_72, Cert.ReferenceIdeal.ReadP.val_main_v212, Cert.ReferenceIdeal.ReadP.val_main_v213,
    Cert.ReferenceIdeal.ReadP.val_main_v214, Cert.ReferenceIdeal.ReadP.val_main_c_73, Cert.ReferenceIdeal.ReadP.val_main_v215,
    Cert.ReferenceIdeal.ReadP.val_main_v216, Cert.ReferenceIdeal.ReadP.val_main_c_74, Cert.ReferenceIdeal.ReadP.val_main_v217,
    Cert.ReferenceIdeal.ReadP.val_main_v218, Cert.ReferenceIdeal.ReadP.val_main_v219, Cert.ReferenceIdeal.ReadP.val_main_v220,
    Cert.ReferenceIdeal.ReadP.val_main_v221, Cert.ReferenceIdeal.ReadP.val_main_v222, Cert.ReferenceIdeal.ReadP.val_main_cst_75,
    Cert.ReferenceIdeal.ReadP.val_main_v231, Cert.ReferenceIdeal.ReadP.val_main_v232, Cert.ReferenceIdeal.ReadP.val_main_c_76,
    Cert.ReferenceIdeal.ReadP.val_main_v237, Cert.ReferenceIdeal.ReadP.val_main_v238, Cert.ReferenceIdeal.ReadP.val_main_c_77,
    Cert.ReferenceIdeal.ReadP.val_main_v239, Cert.ReferenceIdeal.ReadP.val_main_v240, Cert.ReferenceIdeal.ReadP.val_main_c_78,
    Cert.ReferenceIdeal.ReadP.val_main_v241, Cert.ReferenceIdeal.ReadP.val_main_v242, Cert.ReferenceIdeal.ReadP.val_main_c_79,
    Cert.ReferenceIdeal.ReadP.val_main_v243, Cert.ReferenceIdeal.ReadP.val_main_v244, Cert.ReferenceIdeal.ReadP.val_main_v245,
    Cert.ReferenceIdeal.ReadP.val_main_c_80, Cert.ReferenceIdeal.ReadP.val_main_v246, Cert.ReferenceIdeal.ReadP.val_main_v247,
    Cert.ReferenceIdeal.ReadP.val_main_v248, Cert.ReferenceIdeal.ReadP.val_main_c_81, Cert.ReferenceIdeal.ReadP.val_main_v249,
    Cert.ReferenceIdeal.ReadP.val_main_v250, Cert.ReferenceIdeal.ReadP.val_main_v251, Cert.ReferenceIdeal.ReadP.val_main_c_82,
    Cert.ReferenceIdeal.ReadP.val_main_c_83, Cert.ReferenceIdeal.ReadP.val_main_call8_v0, Cert.ReferenceIdeal.ReadP.val_main_call8_v1,
    Cert.ReferenceIdeal.ReadP.val_main_call8_v2, Cert.ReferenceIdeal.ReadP.val_main_call8_v3, Cert.ReferenceIdeal.ReadP.val_main_call8_v4,
    Cert.ReferenceIdeal.ReadP.val_main_v252, Cert.ReferenceIdeal.ReadP.val_main_c_84, Cert.ReferenceIdeal.ReadP.val_main_c_85,
    Cert.ReferenceIdeal.ReadP.val_main_call9_v0, Cert.ReferenceIdeal.ReadP.val_main_call9_v1, Cert.ReferenceIdeal.ReadP.val_main_call9_v2,
    Cert.ReferenceIdeal.ReadP.val_main_call9_v3, Cert.ReferenceIdeal.ReadP.val_main_call9_v4, Cert.ReferenceIdeal.ReadP.val_main_v253,
    Cert.ReferenceIdeal.ReadP.val_main_c_86, Cert.ReferenceIdeal.ReadP.val_main_v254, Cert.ReferenceIdeal.ReadP.val_main_v255,
    Cert.ReferenceIdeal.ReadP.val_main_c_87, Cert.ReferenceIdeal.ReadP.val_main_v256, Cert.ReferenceIdeal.ReadP.val_main_v257,
    Cert.ReferenceIdeal.ReadP.val_main_v258, Cert.ReferenceIdeal.ReadP.val_main_c_88, Cert.ReferenceIdeal.ReadP.val_main_v259,
    Cert.ReferenceIdeal.ReadP.val_main_v260, Cert.ReferenceIdeal.ReadP.val_main_c_89, Cert.ReferenceIdeal.ReadP.val_main_v261,
    Cert.ReferenceIdeal.ReadP.val_main_v262, Cert.ReferenceIdeal.ReadP.val_main_v263, Cert.ReferenceIdeal.ReadP.val_main_v264,
    Cert.ReferenceIdeal.ReadP.val_main_v265, Cert.ReferenceIdeal.ReadP.val_main_v266])

/-! ## The per-pixel arrays -/

set_option maxRecDepth 8192 in
set_option maxHeartbeats 40000000 in
theorem r34 (c : Dev nD) :
    after ops (launchContents m c) (Proc.devRef .tc main_v34) = Cert.ReferenceIdeal.ReadP.val_main_v34 (F := F) (m ((c.tc : Thread nD τ).loc main_arg0)) := by
  after_results_simp
  unfold_ref_stages
  rfl

set_option maxRecDepth 8192 in
set_option maxHeartbeats 40000000 in
theorem r48 (c : Dev nD) :
    after ops (launchContents m c) (Proc.devRef .tc main_v48) = Cert.ReferenceIdeal.ReadP.val_main_v48 (F := F) (m ((c.tc : Thread nD τ).loc main_arg0)) := by
  after_results_simp
  unfold_ref_stages
  rfl

set_option maxRecDepth 8192 in
set_option maxHeartbeats 40000000 in
theorem r37 (c : Dev nD) :
    after ops (launchContents m c) (Proc.devRef .tc main_v37) = Cert.ReferenceIdeal.ReadP.val_main_v37 (F := F) (m ((c.tc : Thread nD τ).loc main_arg0)) := by
  after_results_simp
  unfold_ref_stages
  rfl

set_option maxRecDepth 8192 in
set_option maxHeartbeats 40000000 in
theorem r28 (c : Dev nD) :
    after ops (launchContents m c) (Proc.devRef .tc main_v28) = Cert.ReferenceIdeal.ReadP.val_main_v28 (F := F) (m ((c.tc : Thread nD τ).loc main_arg0)) := by
  after_results_simp
  unfold_ref_stages
  rfl

set_option maxRecDepth 8192 in
set_option maxHeartbeats 40000000 in
theorem r72 (c : Dev nD) :
    after ops (launchContents m c) (Proc.devRef .tc main_v72) = Cert.ReferenceIdeal.ReadP.val_main_v72 (F := F) (m ((c.tc : Thread nD τ).loc main_arg0)) := by
  after_results_simp
  unfold_ref_stages
  rfl

set_option maxRecDepth 8192 in
set_option maxHeartbeats 40000000 in
theorem r86 (c : Dev nD) :
    after ops (launchContents m c) (Proc.devRef .tc main_v86) = Cert.ReferenceIdeal.ReadP.val_main_v86 (F := F) (m ((c.tc : Thread nD τ).loc main_arg0)) := by
  after_results_simp
  unfold_ref_stages
  rfl

set_option maxRecDepth 8192 in
set_option maxHeartbeats 40000000 in
theorem r75 (c : Dev nD) :
    after ops (launchContents m c) (Proc.devRef .tc main_v75) = Cert.ReferenceIdeal.ReadP.val_main_v75 (F := F) (m ((c.tc : Thread nD τ).loc main_arg0)) := by
  after_results_simp
  unfold_ref_stages
  rfl

set_option maxRecDepth 8192 in
set_option maxHeartbeats 40000000 in
theorem r66 (c : Dev nD) :
    after ops (launchContents m c) (Proc.devRef .tc main_v66) = Cert.ReferenceIdeal.ReadP.val_main_v66 (F := F) (m ((c.tc : Thread nD τ).loc main_arg0)) := by
  after_results_simp
  unfold_ref_stages
  rfl

set_option maxRecDepth 8192 in
set_option maxHeartbeats 40000000 in
theorem r122 (c : Dev nD) :
    after ops (launchContents m c) (Proc.devRef .tc main_v122) = Cert.ReferenceIdeal.ReadP.val_main_v122 (F := F) (m ((c.tc : Thread nD τ).loc main_arg0)) := by
  after_results_simp
  unfold_ref_stages
  rfl

set_option maxRecDepth 8192 in
set_option maxHeartbeats 40000000 in
theorem r144 (c : Dev nD) :
    after ops (launchContents m c) (Proc.devRef .tc main_v144) = Cert.ReferenceIdeal.ReadP.val_main_v144 (F := F) (m ((c.tc : Thread nD τ).loc main_arg0)) := by
  after_results_simp
  unfold_ref_stages
  rfl

set_option maxRecDepth 8192 in
set_option maxHeartbeats 40000000 in
theorem r149 (c : Dev nD) :
    after ops (launchContents m c) (Proc.devRef .tc main_v149) = Cert.ReferenceIdeal.ReadP.val_main_v149 (F := F) (m ((c.tc : Thread nD τ).loc main_arg0)) := by
  after_results_simp
  unfold_ref_stages
  rfl

set_option maxRecDepth 8192 in
set_option maxHeartbeats 40000000 in
theorem r165 (c : Dev nD) :
    after ops (launchContents m c) (Proc.devRef .tc main_v165) = Cert.ReferenceIdeal.ReadP.val_main_v165 (F := F) (m ((c.tc : Thread nD τ).loc main_arg0)) := by
  after_results_simp
  unfold_ref_stages
  rfl

set_option maxRecDepth 8192 in
set_option maxHeartbeats 40000000 in
theorem r187 (c : Dev nD) :
    after ops (launchContents m c) (Proc.devRef .tc main_v187) = Cert.ReferenceIdeal.ReadP.val_main_v187 (F := F) (m ((c.tc : Thread nD τ).loc main_arg0)) := by
  after_results_simp
  unfold_ref_stages
  rfl

set_option maxRecDepth 8192 in
set_option maxHeartbeats 40000000 in
theorem r109 (c : Dev nD) :
    after ops (launchContents m c) (Proc.devRef .tc main_v109) = Cert.ReferenceIdeal.ReadP.val_main_v109 (F := F) (m ((c.tc : Thread nD τ).loc main_arg0)) := by
  after_results_simp
  unfold_ref_stages
  rfl

set_option maxRecDepth 8192 in
set_option maxHeartbeats 40000000 in
theorem r207 (c : Dev nD) :
    after ops (launchContents m c) (Proc.devRef .tc main_v207) = Cert.ReferenceIdeal.ReadP.val_main_v207 (F := F) (m ((c.tc : Thread nD τ).loc main_arg0)) := by
  after_results_simp
  unfold_ref_stages
  rfl

set_option maxRecDepth 8192 in
set_option maxHeartbeats 40000000 in
theorem r111 (c : Dev nD) :
    after ops (launchContents m c) (Proc.devRef .tc main_v111) = Cert.ReferenceIdeal.ReadP.val_main_v111 (F := F) (m ((c.tc : Thread nD τ).loc main_arg0)) := by
  after_results_simp
  unfold_ref_stages
  rfl

set_option maxRecDepth 8192 in
set_option maxHeartbeats 40000000 in
theorem r232 (c : Dev nD) :
    after ops (launchContents m c) (Proc.devRef .tc main_v232) = Cert.ReferenceIdeal.ReadP.val_main_v232 (F := F) (m ((c.tc : Thread nD τ).loc main_arg0)) := by
  after_results_simp
  unfold_ref_stages
  rfl

set_option maxRecDepth 8192 in
set_option maxHeartbeats 40000000 in
theorem r251 (c : Dev nD) :
    after ops (launchContents m c) (Proc.devRef .tc main_v251) = Cert.ReferenceIdeal.ReadP.val_main_v251 (F := F) (m ((c.tc : Thread nD τ).loc main_arg0)) := by
  after_results_simp
  unfold_ref_stages
  rfl

/-! ## The four index-pair arrays, through their two operands -/

set_option maxRecDepth 8192 in
set_option maxHeartbeats 40000000 in
theorem r135 (c : Dev nD) :
    after ops (launchContents m c) (Proc.devRef .tc main_v135) = Cert.ReferenceIdeal.ReadP.val_main_v135 (F := F) (m ((c.tc : Thread nD τ).loc main_arg0)) := by
  after_results_simp
  unfold_ref_stages
  rfl

set_option maxRecDepth 8192 in
set_option maxHeartbeats 40000000 in
theorem r136 (c : Dev nD) :
    after ops (launchContents m c) (Proc.devRef .tc main_v136) = Cert.ReferenceIdeal.ReadP.val_main_v136 (F := F) (m ((c.tc : Thread nD τ).loc main_arg0)) := by
  after_results_simp
  unfold_ref_stages
  rfl

set_option maxRecDepth 8192 in
set_option maxHeartbeats 40000000 in
theorem r137 (c : Dev nD) :
    after ops (launchContents m c) (Proc.devRef .tc main_v137) = Cert.ReferenceIdeal.ReadP.val_main_v137 (F := F) (m ((c.tc : Thread nD τ).loc main_arg0)) := by
  rw [Cert.ReferenceIdeal.ReadP.val_main_v137, ← r135 m c, ← r136 m c]
  after_results_simp
  try simp only [StableHlo.TRef.ofBuf, StableHlo.TRef.toBuf, cast_eq]
  rfl

set_option maxRecDepth 8192 in
set_option maxHeartbeats 40000000 in
theorem r178 (c : Dev nD) :
    after ops (launchContents m c) (Proc.devRef .tc main_v178) = Cert.ReferenceIdeal.ReadP.val_main_v178 (F := F) (m ((c.tc : Thread nD τ).loc main_arg0)) := by
  after_results_simp
  unfold_ref_stages
  rfl

set_option maxRecDepth 8192 in
set_option maxHeartbeats 40000000 in
theorem r179 (c : Dev nD) :
    after ops (launchContents m c) (Proc.devRef .tc main_v179) = Cert.ReferenceIdeal.ReadP.val_main_v179 (F := F) (m ((c.tc : Thread nD τ).loc main_arg0)) := by
  after_results_simp
  unfold_ref_stages
  rfl

set_option maxRecDepth 8192 in
set_option maxHeartbeats 40000000 in
theorem r180 (c : Dev nD) :
    after ops (launchContents m c) (Proc.devRef .tc main_v180) = Cert.ReferenceIdeal.ReadP.val_main_v180 (F := F) (m ((c.tc : Thread nD τ).loc main_arg0)) := by
  rw [Cert.ReferenceIdeal.ReadP.val_main_v180, ← r178 m c, ← r179 m c]
  after_results_simp
  try simp only [StableHlo.TRef.ofBuf, StableHlo.TRef.toBuf, cast_eq]
  rfl

set_option maxRecDepth 8192 in
set_option maxHeartbeats 40000000 in
theorem r220 (c : Dev nD) :
    after ops (launchContents m c) (Proc.devRef .tc main_v220) = Cert.ReferenceIdeal.ReadP.val_main_v220 (F := F) (m ((c.tc : Thread nD τ).loc main_arg0)) := by
  after_results_simp
  unfold_ref_stages
  rfl

set_option maxRecDepth 8192 in
set_option maxHeartbeats 40000000 in
theorem r221 (c : Dev nD) :
    after ops (launchContents m c) (Proc.devRef .tc main_v221) = Cert.ReferenceIdeal.ReadP.val_main_v221 (F := F) (m ((c.tc : Thread nD τ).loc main_arg0)) := by
  after_results_simp
  unfold_ref_stages
  rfl

set_option maxRecDepth 8192 in
set_option maxHeartbeats 40000000 in
theorem r222 (c : Dev nD) :
    after ops (launchContents m c) (Proc.devRef .tc main_v222) = Cert.ReferenceIdeal.ReadP.val_main_v222 (F := F) (m ((c.tc : Thread nD τ).loc main_arg0)) := by
  rw [Cert.ReferenceIdeal.ReadP.val_main_v222, ← r220 m c, ← r221 m c]
  after_results_simp
  try simp only [StableHlo.TRef.ofBuf, StableHlo.TRef.toBuf, cast_eq]
  rfl

set_option maxRecDepth 8192 in
set_option maxHeartbeats 40000000 in
theorem r264 (c : Dev nD) :
    after ops (launchContents m c) (Proc.devRef .tc main_v264) = Cert.ReferenceIdeal.ReadP.val_main_v264 (F := F) (m ((c.tc : Thread nD τ).loc main_arg0)) := by
  after_results_simp
  unfold_ref_stages
  rfl

set_option maxRecDepth 8192 in
set_option maxHeartbeats 40000000 in
theorem r265 (c : Dev nD) :
    after ops (launchContents m c) (Proc.devRef .tc main_v265) = Cert.ReferenceIdeal.ReadP.val_main_v265 (F := F) (m ((c.tc : Thread nD τ).loc main_arg0)) := by
  after_results_simp
  unfold_ref_stages
  rfl

set_option maxRecDepth 8192 in
set_option maxHeartbeats 40000000 in
theorem r266 (c : Dev nD) :
    after ops (launchContents m c) (Proc.devRef .tc main_v266) = Cert.ReferenceIdeal.ReadP.val_main_v266 (F := F) (m ((c.tc : Thread nD τ).loc main_arg0)) := by
  rw [Cert.ReferenceIdeal.ReadP.val_main_v266, ← r264 m c, ← r265 m c]
  after_results_simp
  try simp only [StableHlo.TRef.ofBuf, StableHlo.TRef.toBuf, cast_eq]
  rfl

/-! ## The result -/

set_option maxRecDepth 8192 in
set_option maxHeartbeats 400000000 in
theorem res_val (c : Dev nD) :
    after ops (launchContents m c) (Proc.devRef .tc main_v291) = Cert.ReferenceIdeal.ReadP.val_main_v291 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  simp only [
    Cert.ReferenceIdeal.ReadP.val_main_v35, Cert.ReferenceIdeal.ReadP.val_main_v38, Cert.ReferenceIdeal.ReadP.val_main_v39,
    Cert.ReferenceIdeal.ReadP.val_main_v40, Cert.ReferenceIdeal.ReadP.val_main_v49, Cert.ReferenceIdeal.ReadP.val_main_v50,
    Cert.ReferenceIdeal.ReadP.val_main_v51, Cert.ReferenceIdeal.ReadP.val_main_v52, Cert.ReferenceIdeal.ReadP.val_main_v53,
    Cert.ReferenceIdeal.ReadP.val_main_v73, Cert.ReferenceIdeal.ReadP.val_main_v76, Cert.ReferenceIdeal.ReadP.val_main_v77,
    Cert.ReferenceIdeal.ReadP.val_main_v78, Cert.ReferenceIdeal.ReadP.val_main_v87, Cert.ReferenceIdeal.ReadP.val_main_v88,
    Cert.ReferenceIdeal.ReadP.val_main_v89, Cert.ReferenceIdeal.ReadP.val_main_v90, Cert.ReferenceIdeal.ReadP.val_main_v91,
    Cert.ReferenceIdeal.ReadP.val_main_v138, Cert.ReferenceIdeal.ReadP.val_main_v139, Cert.ReferenceIdeal.ReadP.val_main_v140,
    Cert.ReferenceIdeal.ReadP.val_main_v141, Cert.ReferenceIdeal.ReadP.val_main_v142, Cert.ReferenceIdeal.ReadP.val_main_v145,
    Cert.ReferenceIdeal.ReadP.val_main_v146, Cert.ReferenceIdeal.ReadP.val_main_v147, Cert.ReferenceIdeal.ReadP.val_main_v150,
    Cert.ReferenceIdeal.ReadP.val_main_v151, Cert.ReferenceIdeal.ReadP.val_main_v152, Cert.ReferenceIdeal.ReadP.val_main_v181,
    Cert.ReferenceIdeal.ReadP.val_main_v182, Cert.ReferenceIdeal.ReadP.val_main_v183, Cert.ReferenceIdeal.ReadP.val_main_v184,
    Cert.ReferenceIdeal.ReadP.val_main_v185, Cert.ReferenceIdeal.ReadP.val_main_v188, Cert.ReferenceIdeal.ReadP.val_main_v189,
    Cert.ReferenceIdeal.ReadP.val_main_v190, Cert.ReferenceIdeal.ReadP.val_main_v191, Cert.ReferenceIdeal.ReadP.val_main_v192,
    Cert.ReferenceIdeal.ReadP.val_main_v193, Cert.ReferenceIdeal.ReadP.val_main_v194, Cert.ReferenceIdeal.ReadP.val_main_v223,
    Cert.ReferenceIdeal.ReadP.val_main_v224, Cert.ReferenceIdeal.ReadP.val_main_v225, Cert.ReferenceIdeal.ReadP.val_main_v226,
    Cert.ReferenceIdeal.ReadP.val_main_v227, Cert.ReferenceIdeal.ReadP.val_main_v228, Cert.ReferenceIdeal.ReadP.val_main_v229,
    Cert.ReferenceIdeal.ReadP.val_main_v230, Cert.ReferenceIdeal.ReadP.val_main_v233, Cert.ReferenceIdeal.ReadP.val_main_v234,
    Cert.ReferenceIdeal.ReadP.val_main_v235, Cert.ReferenceIdeal.ReadP.val_main_v236, Cert.ReferenceIdeal.ReadP.val_main_v267,
    Cert.ReferenceIdeal.ReadP.val_main_v268, Cert.ReferenceIdeal.ReadP.val_main_v269, Cert.ReferenceIdeal.ReadP.val_main_v270,
    Cert.ReferenceIdeal.ReadP.val_main_v271, Cert.ReferenceIdeal.ReadP.val_main_v272, Cert.ReferenceIdeal.ReadP.val_main_v273,
    Cert.ReferenceIdeal.ReadP.val_main_v274, Cert.ReferenceIdeal.ReadP.val_main_v275, Cert.ReferenceIdeal.ReadP.val_main_v276,
    Cert.ReferenceIdeal.ReadP.val_main_v277, Cert.ReferenceIdeal.ReadP.val_main_v278, Cert.ReferenceIdeal.ReadP.val_main_v279,
    Cert.ReferenceIdeal.ReadP.val_main_v280, Cert.ReferenceIdeal.ReadP.val_main_v281, Cert.ReferenceIdeal.ReadP.val_main_v282,
    Cert.ReferenceIdeal.ReadP.val_main_v283, Cert.ReferenceIdeal.ReadP.val_main_v284, Cert.ReferenceIdeal.ReadP.val_main_v285,
    Cert.ReferenceIdeal.ReadP.val_main_call10_cst, Cert.ReferenceIdeal.ReadP.val_main_call10_v0, Cert.ReferenceIdeal.ReadP.val_main_v286,
    Cert.ReferenceIdeal.ReadP.val_main_v287, Cert.ReferenceIdeal.ReadP.val_main_v288, Cert.ReferenceIdeal.ReadP.val_main_v289,
    Cert.ReferenceIdeal.ReadP.val_main_v290, Cert.ReferenceIdeal.ReadP.val_main_v291]
  rw [← r34 m c, ← r48 m c, ← r37 m c, ← r28 m c, ← r72 m c, ← r86 m c, ← r75 m c, ← r66 m c, ← r122 m c, ← r144 m c, ← r149 m c, ← r165 m c, ← r187 m c, ← r109 m c, ← r207 m c, ← r111 m c, ← r232 m c, ← r251 m c, ← r137 m c, ← r180 m c, ← r222 m c, ← r266 m c]
  after_results_simp
  try simp only [StableHlo.TRef.ofBuf, StableHlo.TRef.toBuf, cast_eq]
  rfl

/-! ## The arguments -/

set_option maxRecDepth 8192 in
set_option maxHeartbeats 40000000 in
theorem arg0_kept (c : Dev nD) : after ops (launchContents m c) (Proc.devRef .tc main_arg0) = (m ((c.tc : Thread nD τ).loc main_arg0)) := by
  after_results_simp <;> rfl

set_option maxRecDepth 8192 in
set_option maxHeartbeats 40000000 in
theorem arg1_kept (c : Dev nD) : after ops (launchContents m c) (Proc.devRef .tc main_arg1) = (m ((c.tc : Thread nD τ).loc main_arg1)) := by
  after_results_simp <;> rfl

set_option maxRecDepth 8192 in
set_option maxHeartbeats 40000000 in
theorem arg2_kept (c : Dev nD) : after ops (launchContents m c) (Proc.devRef .tc main_arg2) = (m ((c.tc : Thread nD τ).loc main_arg2)) := by
  after_results_simp <;> rfl

set_option maxRecDepth 8192 in
set_option maxHeartbeats 40000000 in
theorem arg3_kept (c : Dev nD) : after ops (launchContents m c) (Proc.devRef .tc main_arg3) = (m ((c.tc : Thread nD τ).loc main_arg3)) := by
  after_results_simp <;> rfl

set_option maxRecDepth 8192 in
set_option maxHeartbeats 40000000 in
theorem arg4_kept (c : Dev nD) : after ops (launchContents m c) (Proc.devRef .tc main_arg4) = (m ((c.tc : Thread nD τ).loc main_arg4)) := by
  after_results_simp <;> rfl

set_option maxRecDepth 8192 in
set_option maxHeartbeats 40000000 in
theorem arg5_kept (c : Dev nD) : after ops (launchContents m c) (Proc.devRef .tc main_arg5) = (m ((c.tc : Thread nD τ).loc main_arg5)) := by
  after_results_simp <;> rfl

set_option maxRecDepth 8192 in
set_option maxHeartbeats 40000000 in
theorem arg6_kept (c : Dev nD) : after ops (launchContents m c) (Proc.devRef .tc main_arg6) = (m ((c.tc : Thread nD τ).loc main_arg6)) := by
  after_results_simp <;> rfl

set_option maxRecDepth 8192 in
set_option maxHeartbeats 40000000 in
theorem arg7_kept (c : Dev nD) : after ops (launchContents m c) (Proc.devRef .tc main_arg7) = (m ((c.tc : Thread nD τ).loc main_arg7)) := by
  after_results_simp <;> rfl

/-! ## The run -/

/-- On every device, from any memory with zero counters: every weakly fair execution of the reference's @main terminates with the
    result buffer at the last stage of the arguments, and the arguments unchanged. -/
theorem run : θ_run defs (onTc (τ := τ) (main (F := F))) ⟨m, fun _ => 0, ρ⟩ fun r => ∀ c : Dev nD,
      r.2.mem ((c.tc : Thread nD τ).loc main_v291) = Cert.ReferenceIdeal.ReadP.val_main_v291 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v291).trans (res_val m c),
      (h c main_arg0).trans (arg0_kept m c),
      (h c main_arg1).trans (arg1_kept m c),
      (h c main_arg2).trans (arg2_kept m c),
      (h c main_arg3).trans (arg3_kept m c),
      (h c main_arg4).trans (arg4_kept m c),
      (h c main_arg5).trans (arg5_kept m c),
      (h c main_arg6).trans (arg6_kept m c),
      (h c main_arg7).trans (arg7_kept m c)⟩)
    (run_seq scopedRefs_eq scopedSems_eq defs main (fun _ => ops) main_eq (fun _ => ops_sub) m ρ
      (hfresh := fun _ => List.forall_iff_forall_mem.mp ops_fresh))

end Cert.RefRunH

end
-- ==== Proof.Feat.lean ====
/-
  The mathematics of this certificate, as scalar formulas, and the kernel program's feature computation as one term.

  Both programs sample, at every pixel (h, w) of a 1024 x 1024 image and for every channel c of 32, a feature
      feat c h w = (linear interpolation of the line table x) * (linear interpolation of the line table y)
                   + (bilinear interpolation of the plane table, out-of-range corners masked to zero),
  and then decode it by a two-layer perceptron,  out h w = sum_k W2[0,k] * max (sum_c W1[k,c] * feat c h w + b1[k]) 0 + b2[0].
  The reference keeps channels FIRST ([32, 1024, 1024]) and multiplies a corner's weights one after the other,
  ((p * mask) * u) * v; the kernel's host code keeps channels LAST ([1024, 1024, 32]), gathers from transposed tables and
  multiplies the two weights first, (p * mask) * (u * v). On the extended reals multiplication is associative and
  commutative, so the two agree entry by entry; no finiteness is needed.
-/
import proofs.«158345_j41824391528833_2_alg».proof.KernelIdeal
import proofs.«158345_j41824391528833_2_alg».proof.Proof.Gen.KernelIdeal
import Idealize.ShloMosaic.PureOps.Ideal
import Idealize.ShloMosaic.Lib.ValueIdx

noncomputable section

namespace Cert.Feat

open Idealize.ShloMosaic Idealize.ShloMosaic.TcCoe Idealize.ShloMosaic.ValueIdx

/-! ## Scalar formulas -/

/-- The two-layer decoder at one position: `f` is the feature vector there. -/
def mlp (w1 : Fin 64 → Fin 32 → EReal) (b1 : Fin 64 → EReal) (w2 : Fin 64 → EReal) (b2 : EReal) (f : Fin 32 → EReal) : EReal :=
  (∑ k : Fin 64, w2 k * max ((∑ c : Fin 32, w1 k c * f c) + b1 k) 0) + b2

/-- A gather's start index on an axis of extent `n`: the word read as a signed integer, clamped into `[0, n - 1]`. -/
def clampIdx (n : Nat) (hn : 0 < n) (b : BitVec 32) : Fin n := ⟨min b.toInt.toNat (n - 1), by omega⟩

/-- The sampled feature at one (channel, pixel): two line interpolations multiplied, plus four masked, weighted corners of the plane. -/
def featAt (tx0 ax tx1 bx ty0 ay ty1 by_ : EReal)
    (p00 m00 u00 v00 p01 m01 u01 v01 p10 m10 u10 v10 p11 m11 u11 v11 : EReal) : EReal :=
  (tx0 * ax + tx1 * bx) * (ty0 * ay + ty1 * by_)
    + ((((p00 * m00) * (u00 * v00) + (p01 * m01) * (u01 * v01)) + (p10 * m10) * (u10 * v10)) + (p11 * m11) * (u11 * v11))

/-! ## The kernel program's host computation of the feature array, as one term of its tables and of the per-pixel arrays -/

section Kernel
open Cert.KernelIdeal Cert.KernelIdeal.Gen
variable {F : FTy → Type} [FloatOps F]

/-- One line table interpolated: rows `i0` and `i1` of the transposed table, weighted by the per-pixel `a` and `b`. -/
def lineK (T : (⟨S32x1024, .f32⟩ : BufTy).Contents (Elt F)) (i0 i1 : (⟨S1024x1024x1, .i32⟩ : BufTy).Contents (Elt F))
    (a b : (⟨S1024x1024, .f32⟩ : BufTy).Contents (Elt F)) : (⟨S1024x1024x32, .f32⟩ : BufTy).Contents (Elt F) :=
  addf
    (mulf (Host.gather gather_S1024x32_S1024x1024x1_S1024x1024x32_2_0_n_n_0_2_132 (transpose S1024x32 [1, 0] T transposes_S32x1024_S1024x32_1_0) i0)
      (broadcastInDim S1024x1024x32 ![0, 1, 2] bcast_S1024x1024x1_S1024x1024x32_0_1_2 (broadcastInDim S1024x1024x1 ![0, 1] bcast_S1024x1024_S1024x1024x1_0_1 a)))
    (mulf (Host.gather gather_S1024x32_S1024x1024x1_S1024x1024x32_2_0_n_n_0_2_132 (transpose S1024x32 [1, 0] T transposes_S32x1024_S1024x32_1_0) i1)
      (broadcastInDim S1024x1024x32 ![0, 1, 2] bcast_S1024x1024x1_S1024x1024x32_0_1_2 (broadcastInDim S1024x1024x1 ![0, 1] bcast_S1024x1024_S1024x1024x1_0_1 b)))

/-- One corner of the plane's bilinear interpolation: the entry of the transposed plane at the pixel's index pair `j`, masked by `M`,
    weighted by the product of the per-pixel `u` and `v`. -/
def cornerK (P : (⟨S32x256x256, .f32⟩ : BufTy).Contents (Elt F)) (j : (⟨S1024x1024x2, .i32⟩ : BufTy).Contents (Elt F))
    (M : (⟨S1024x1024, .i1⟩ : BufTy).Contents (Elt F)) (u v : (⟨S1024x1024, .f32⟩ : BufTy).Contents (Elt F)) :
    (⟨S1024x1024x32, .f32⟩ : BufTy).Contents (Elt F) :=
  mulf
    (mulf (Host.gather gather_S256x256x32_S1024x1024x2_S1024x1024x32_2_01_n_n_01_2_1132 (transpose S256x256x32 [1, 2, 0] P transposes_S32x256x256_S256x256x32_1_2_0) j)
      (broadcastInDim S1024x1024x32 ![0, 1, 2] bcast_S1024x1024x1_S1024x1024x32_0_1_2
        (uitofp .f32 (broadcastInDim S1024x1024x1 ![0, 1] bcast_S1024x1024_S1024x1024x1_0_1 M))))
    (broadcastInDim S1024x1024x32 ![0, 1, 2] bcast_S1024x1024x1_S1024x1024x32_0_1_2
      (broadcastInDim S1024x1024x1 ![0, 1] bcast_S1024x1024_S1024x1024x1_0_1 (mulf u v)))

/-- The kernel program's feature array, channels last. -/
def featK (T1 T2 : (⟨S32x1024, .f32⟩ : BufTy).Contents (Elt F)) (P : (⟨S32x256x256, .f32⟩ : BufTy).Contents (Elt F))
    (ix0 ix1 : (⟨S1024x1024x1, .i32⟩ : BufTy).Contents (Elt F)) (ax bx : (⟨S1024x1024, .f32⟩ : BufTy).Contents (Elt F))
    (iy0 iy1 : (⟨S1024x1024x1, .i32⟩ : BufTy).Contents (Elt F)) (ay by_ : (⟨S1024x1024, .f32⟩ : BufTy).Contents (Elt F))
    (j00 : (⟨S1024x1024x2, .i32⟩ : BufTy).Contents (Elt F)) (m00 : (⟨S1024x1024, .i1⟩ : BufTy).Contents (Elt F)) (u00 v00 : (⟨S1024x1024, .f32⟩ : BufTy).Contents (Elt F))
    (j01 : (⟨S1024x1024x2, .i32⟩ : BufTy).Contents (Elt F)) (m01 : (⟨S1024x1024, .i1⟩ : BufTy).Contents (Elt F)) (u01 v01 : (⟨S1024x1024, .f32⟩ : BufTy).Contents (Elt F))
    (j10 : (⟨S1024x1024x2, .i32⟩ : BufTy).Contents (Elt F)) (m10 : (⟨S1024x1024, .i1⟩ : BufTy).Contents (Elt F)) (u10 v10 : (⟨S1024x1024, .f32⟩ : BufTy).Contents (Elt F))
    (j11 : (⟨S1024x1024x2, .i32⟩ : BufTy).Contents (Elt F)) (m11 : (⟨S1024x1024, .i1⟩ : BufTy).Contents (Elt F)) (u11 v11 : (⟨S1024x1024, .f32⟩ : BufTy).Contents (Elt F)) :
    (⟨S1024x1024x32, .f32⟩ : BufTy).Contents (Elt F) :=
  addf (mulf (lineK T1 ix0 ix1 ax bx) (lineK T2 iy0 iy1 ay by_))
    (addf (addf (addf (cornerK P j00 m00 u00 v00) (cornerK P j01 m01 u01 v01)) (cornerK P j10 m10 u10 v10)) (cornerK P j11 m11 u11 v11))

/-- Channels first, the two pixel axes flattened into one, stored as bf16: the array the pallas_call's first window stages. -/
def flatK (X : (⟨S1024x1024x32, .f32⟩ : BufTy).Contents (Elt F)) : (⟨S32x1048576, .bf16⟩ : BufTy).Contents (Elt F) :=
  truncf .bf16 (shapeCast S32x1048576 (transpose S32x1024x1024 [2, 0, 1] X transposes_S1024x1024x32_S32x1024x1024_2_0_1) shapeCasts_S32x1024x1024_S32x1048576) bitsLt_bf16_f32

end Kernel

end Cert.Feat

end
-- ==== Proof.KPay.lean ====
/-
  The kernel body's arithmetic read at one lane: each of the four 16384-lane chunks a grid point stores is, lane by lane,
  the two-layer perceptron of that lane's feature column.
-/
import proofs.«158345_j41824391528833_2_alg».proof.Proof.Feat
import proofs.«158345_j41824391528833_2_alg».proof.Proof.Gen.KernelIdeal.Skeleton
import Idealize.ShloMosaic.PureOps.Ideal.Laws
import Idealize.ShloMosaic.Lib.Pipeline.Value

noncomputable section

namespace Cert.KPay

open Cert.KernelIdeal Cert.KernelIdeal.Gen Idealize.ShloMosaic Idealize.ShloMosaic.TcCoe Idealize.ShloMosaic.ValueIdx Cert.Feat

/-- The decoder over a chunk's arrays, at lane `j`. -/
def chunkAt (v0 : Vec Ideal S64x32 .f32) (v2 : Vec Ideal S64x1 .f32) (v4 : Vec Ideal S1x64 .f32) (v6 : Vec Ideal S1x1 .f32)
    (v8 : Vec Ideal S32x16384 .bf16) (j : Fin 16384) : EReal :=
  mlp (fun k c => v0 (ix2 k c)) (fun k => v2 (ix2 k 0)) (fun k => v4 (ix2 0 k)) (v6 (ix2 0 0)) (fun c => v8 (ix2 c j))

/-! ## The two matrix products at an index -/

theorem lhs_mm1_0 (i : S64x16384.Idx) (q : dot_S64x32_S32x16384_S64x16384_1_0_0_1_n_n.contr.Idx) :
    (dot_S64x32_S32x16384_S64x16384_1_0_0_1_n_n.lhsIdx i q 0).val = (i 0).val := by
  unfold DotDims.lhsIdx
  rw [dif_neg (show ¬(0 : Fin S64x32.rank) ∈ dot_S64x32_S32x16384_S64x16384_1_0_0_1_n_n.lhsBatch by decide), dif_pos (show (0 : Fin S64x32.rank) ∈ dot_S64x32_S32x16384_S64x16384_1_0_0_1_n_n.lhsNonContracting by decide)]
  rfl
theorem lhs_mm1_1 (i : S64x16384.Idx) (q : dot_S64x32_S32x16384_S64x16384_1_0_0_1_n_n.contr.Idx) :
    (dot_S64x32_S32x16384_S64x16384_1_0_0_1_n_n.lhsIdx i q 1).val = (q ⟨0, by decide⟩).val :=
  dot_S64x32_S32x16384_S64x16384_1_0_0_1_n_n.lhsIdx_val_of_single rfl i q
theorem rhs_mm1_0 (i : S64x16384.Idx) (q : dot_S64x32_S32x16384_S64x16384_1_0_0_1_n_n.contr.Idx) :
    (dot_S64x32_S32x16384_S64x16384_1_0_0_1_n_n.rhsIdx i q 0).val = (q ⟨0, by decide⟩).val :=
  dot_S64x32_S32x16384_S64x16384_1_0_0_1_n_n.rhsIdx_val_of_single rfl i q
theorem rhs_mm1_1 (i : S64x16384.Idx) (q : dot_S64x32_S32x16384_S64x16384_1_0_0_1_n_n.contr.Idx) :
    (dot_S64x32_S32x16384_S64x16384_1_0_0_1_n_n.rhsIdx i q 1).val = (i 1).val := by
  unfold DotDims.rhsIdx
  rw [dif_neg (show ¬(1 : Fin S32x16384.rank) ∈ dot_S64x32_S32x16384_S64x16384_1_0_0_1_n_n.rhsBatch by decide), dif_pos (show (1 : Fin S32x16384.rank) ∈ dot_S64x32_S32x16384_S64x16384_1_0_0_1_n_n.rhsNonContracting by decide)]
  rfl

/-- A matrix product into a zero accumulator, read at row `p` and lane `j`: the sum over the contracted axis. -/
theorem mm1_apply (w : FVec Ideal S64x32 .bf16) (x : FVec Ideal S32x16384 .bf16) (p : Fin 64) (j : Fin 16384) :
    matmul (F := Ideal) dot_S64x32_S32x16384_S64x16384_1_0_0_1_n_n none w x (constant (F := Ideal) S64x16384 .f32 0x00000000#32) (ix2 p j)
      = ∑ c : Fin 32, w (ix2 p c) * x (ix2 c j) := by
  refine (Ideal.matmul_constant_zero_apply dot_S64x32_S32x16384_S64x16384_1_0_0_1_n_n none w x (ix2 p j)).trans ?_
  rw [← Equiv.sum_comp (ValueIdx.contrEquiv1 dot_S64x32_S32x16384_S64x16384_1_0_0_1_n_n 32 rfl rfl).symm]
  refine Finset.sum_congr rfl fun k _ => ?_
  have hk := ValueIdx.contrEquiv1_symm_val dot_S64x32_S32x16384_S64x16384_1_0_0_1_n_n 32 rfl rfl k
  have el : dot_S64x32_S32x16384_S64x16384_1_0_0_1_n_n.lhsIdx (ix2 p j) ((ValueIdx.contrEquiv1 dot_S64x32_S32x16384_S64x16384_1_0_0_1_n_n 32 rfl rfl).symm k) = ix2 p k := funext fun a => Fin.ext (by
    match a with
    | ⟨0, _⟩ => exact lhs_mm1_0 _ _
    | ⟨1, _⟩ => exact (lhs_mm1_1 _ _).trans hk)
  have er : dot_S64x32_S32x16384_S64x16384_1_0_0_1_n_n.rhsIdx (ix2 p j) ((ValueIdx.contrEquiv1 dot_S64x32_S32x16384_S64x16384_1_0_0_1_n_n 32 rfl rfl).symm k) = ix2 k j := funext fun a => Fin.ext (by
    match a with
    | ⟨0, _⟩ => exact (rhs_mm1_0 _ _).trans hk
    | ⟨1, _⟩ => exact rhs_mm1_1 _ _)
  rw [el, er]

theorem lhs_mm2_0 (i : S1x16384.Idx) (q : dot_S1x64_S64x16384_S1x16384_1_0_0_1_n_n.contr.Idx) :
    (dot_S1x64_S64x16384_S1x16384_1_0_0_1_n_n.lhsIdx i q 0).val = (i 0).val := by
  unfold DotDims.lhsIdx
  rw [dif_neg (show ¬(0 : Fin S1x64.rank) ∈ dot_S1x64_S64x16384_S1x16384_1_0_0_1_n_n.lhsBatch by decide), dif_pos (show (0 : Fin S1x64.rank) ∈ dot_S1x64_S64x16384_S1x16384_1_0_0_1_n_n.lhsNonContracting by decide)]
  rfl
theorem lhs_mm2_1 (i : S1x16384.Idx) (q : dot_S1x64_S64x16384_S1x16384_1_0_0_1_n_n.contr.Idx) :
    (dot_S1x64_S64x16384_S1x16384_1_0_0_1_n_n.lhsIdx i q 1).val = (q ⟨0, by decide⟩).val :=
  dot_S1x64_S64x16384_S1x16384_1_0_0_1_n_n.lhsIdx_val_of_single rfl i q
theorem rhs_mm2_0 (i : S1x16384.Idx) (q : dot_S1x64_S64x16384_S1x16384_1_0_0_1_n_n.contr.Idx) :
    (dot_S1x64_S64x16384_S1x16384_1_0_0_1_n_n.rhsIdx i q 0).val = (q ⟨0, by decide⟩).val :=
  dot_S1x64_S64x16384_S1x16384_1_0_0_1_n_n.rhsIdx_val_of_single rfl i q
theorem rhs_mm2_1 (i : S1x16384.Idx) (q : dot_S1x64_S64x16384_S1x16384_1_0_0_1_n_n.contr.Idx) :
    (dot_S1x64_S64x16384_S1x16384_1_0_0_1_n_n.rhsIdx i q 1).val = (i 1).val := by
  unfold DotDims.rhsIdx
  rw [dif_neg (show ¬(1 : Fin S64x16384.rank) ∈ dot_S1x64_S64x16384_S1x16384_1_0_0_1_n_n.rhsBatch by decide), dif_pos (show (1 : Fin S64x16384.rank) ∈ dot_S1x64_S64x16384_S1x16384_1_0_0_1_n_n.rhsNonContracting by decide)]
  rfl

/-- A matrix product into a zero accumulator, read at row `p` and lane `j`: the sum over the contracted axis. -/
theorem mm2_apply (w : FVec Ideal S1x64 .bf16) (x : FVec Ideal S64x16384 .bf16) (p : Fin 1) (j : Fin 16384) :
    matmul (F := Ideal) dot_S1x64_S64x16384_S1x16384_1_0_0_1_n_n none w x (constant (F := Ideal) S1x16384 .f32 0x00000000#32) (ix2 p j)
      = ∑ c : Fin 64, w (ix2 p c) * x (ix2 c j) := by
  refine (Ideal.matmul_constant_zero_apply dot_S1x64_S64x16384_S1x16384_1_0_0_1_n_n none w x (ix2 p j)).trans ?_
  rw [← Equiv.sum_comp (ValueIdx.contrEquiv1 dot_S1x64_S64x16384_S1x16384_1_0_0_1_n_n 64 rfl rfl).symm]
  refine Finset.sum_congr rfl fun k _ => ?_
  have hk := ValueIdx.contrEquiv1_symm_val dot_S1x64_S64x16384_S1x16384_1_0_0_1_n_n 64 rfl rfl k
  have el : dot_S1x64_S64x16384_S1x16384_1_0_0_1_n_n.lhsIdx (ix2 p j) ((ValueIdx.contrEquiv1 dot_S1x64_S64x16384_S1x16384_1_0_0_1_n_n 64 rfl rfl).symm k) = ix2 p k := funext fun a => Fin.ext (by
    match a with
    | ⟨0, _⟩ => exact lhs_mm2_0 _ _
    | ⟨1, _⟩ => exact (lhs_mm2_1 _ _).trans hk)
  have er : dot_S1x64_S64x16384_S1x16384_1_0_0_1_n_n.rhsIdx (ix2 p j) ((ValueIdx.contrEquiv1 dot_S1x64_S64x16384_S1x16384_1_0_0_1_n_n 64 rfl rfl).symm k) = ix2 k j := funext fun a => Fin.ext (by
    match a with
    | ⟨0, _⟩ => exact (rhs_mm2_0 _ _).trans hk
    | ⟨1, _⟩ => exact rhs_mm2_1 _ _)
  rw [el, er]

/-! ## The bias broadcasts, the hidden layer, and the common straight line -/

/-- The bias column broadcast along the lanes, read at row `p`, lane `j`: the column's entry at row `p`. -/
theorem bc1_apply (b : FVec Ideal S64x1 .f32) (p : Fin 64) (j : Fin 16384) :
    broadcastTo S64x16384 b broadcasts_S64x1_S64x16384 (ix2 p j) = b (ix2 p 0) :=
  broadcastTo_apply b broadcasts_S64x1_S64x16384 (ix2 p j) (ix2 p 0) (fun a => by
    match a with
    | ⟨0, _⟩ => rfl
    | ⟨1, _⟩ => rfl)

/-- The single output bias broadcast along the lanes: its one entry. -/
theorem bc2_apply (b : FVec Ideal S1x1 .f32) (p : Fin 1) (j : Fin 16384) :
    broadcastTo S1x16384 b broadcasts_S1x1_S1x16384 (ix2 p j) = b (ix2 0 0) :=
  broadcastTo_apply b broadcasts_S1x1_S1x16384 (ix2 p j) (ix2 0 0) (fun a => by
    match a with
    | ⟨0, _⟩ => rfl
    | ⟨1, _⟩ => rfl)

/-- The hidden layer of a chunk: the first matrix product plus the bias column, clamped below at zero. -/
def hidden (w1 : FVec Ideal S64x32 .bf16) (b1 : FVec Ideal S64x1 .f32) (v8 : Vec Ideal S32x16384 .bf16) : FVec Ideal S64x16384 .bf16 :=
  truncf .bf16
    (maximumf
      (addf
        (matmul (F := Ideal) dot_S64x32_S32x16384_S64x16384_1_0_0_1_n_n none w1 (shapeCast S32x16384 v8 shapeCasts_S32x16384_S32x16384 : FVec Ideal S32x16384 .bf16)
          (constant (F := Ideal) S64x16384 .f32 0x00000000#32))
        (broadcastTo S64x16384 b1 broadcasts_S64x1_S64x16384))
      (broadcast S64x16384 (Scalar.ofBits (F := Ideal) .f32 0x00000000#32)))
    bitsLt_bf16_f32

theorem hidden_apply (w1 : FVec Ideal S64x32 .bf16) (b1 : FVec Ideal S64x1 .f32) (v8 : Vec Ideal S32x16384 .bf16) (p : Fin 64) (j : Fin 16384) :
    hidden w1 b1 v8 (ix2 p j) = max ((∑ c : Fin 32, w1 (ix2 p c) * v8 (ix2 c j)) + b1 (ix2 p 0)) 0 := by
  unfold hidden
  rw [shapeCast_self]
  show max (matmul (F := Ideal) dot_S64x32_S32x16384_S64x16384_1_0_0_1_n_n none w1 v8 (constant (F := Ideal) S64x16384 .f32 0x00000000#32) (ix2 p j)
      + broadcastTo S64x16384 b1 broadcasts_S64x1_S64x16384 (ix2 p j)) (Ideal.ofBits .f32 0x00000000#32) = _
  rw [mm1_apply, bc1_apply, Ideal.ofBits_zero_f32]

/-- The common straight line of the four payloads, over arbitrary weights, at lane `j`. -/
theorem line_apply (w1 : FVec Ideal S64x32 .bf16) (b1 : FVec Ideal S64x1 .f32) (w2 : FVec Ideal S1x64 .bf16) (b2 : FVec Ideal S1x1 .f32)
    (v8 : Vec Ideal S32x16384 .bf16) (j : Fin 16384) :
    k0_pay1 (F := Ideal) w1 b1 w2 b2 v8 (ix2 0 j)
      = mlp (fun k c => w1 (ix2 k c)) (fun k => b1 (ix2 k 0)) (fun k => w2 (ix2 0 k)) (b2 (ix2 0 0)) (fun c => v8 (ix2 c j)) := by
  show matmul (F := Ideal) dot_S1x64_S64x16384_S1x16384_1_0_0_1_n_n none w2 (hidden w1 b1 v8) (constant (F := Ideal) S1x16384 .f32 0x00000000#32) (ix2 0 j)
      + broadcastTo S1x16384 b2 broadcasts_S1x1_S1x16384 (ix2 0 j) = _
  rw [mm2_apply, bc2_apply]
  unfold mlp
  simp only [hidden_apply]

/-- The weights' storage casts and identity reshapes change no value. -/
theorem pay3_eq (v0 : Vec Ideal S64x32 .f32) : k0_pay3 (F := Ideal) v0 = v0 := rfl
theorem pay5_eq (v4 : Vec Ideal S1x64 .f32) : k0_pay5 (F := Ideal) v4 = v4 := rfl
theorem pay4_eq (v2 : Vec Ideal S64x1 .f32) : k0_pay4 (F := Ideal) v2 = v2 := shapeCast_self v2 shapeCasts_S64x1_S64x1
theorem pay6_eq (v6 : Vec Ideal S1x1 .f32) : k0_pay6 (F := Ideal) v6 = v6 := shapeCast_self v6 shapeCasts_S1x1_S1x1

/-- With the weights passed through their storage casts, the common straight line is the decoder of the chunk. -/
theorem line_chunkAt (v0 : Vec Ideal S64x32 .f32) (v2 : Vec Ideal S64x1 .f32) (v4 : Vec Ideal S1x64 .f32) (v6 : Vec Ideal S1x1 .f32)
    (v8 : Vec Ideal S32x16384 .bf16) (j : Fin 16384) :
    k0_pay1 (F := Ideal) (k0_pay3 v0) (k0_pay4 v2) (k0_pay5 v4) (k0_pay6 v6) v8 (ix2 0 j) = chunkAt v0 v2 v4 v6 v8 j := by
  refine (line_apply _ _ _ _ v8 j).trans ?_
  rw [pay4_eq, pay6_eq]
  rfl

theorem pay7_apply (v0 : Vec Ideal S64x32 .f32) (v2 : Vec Ideal S64x1 .f32) (v4 : Vec Ideal S1x64 .f32) (v6 : Vec Ideal S1x1 .f32)
    (v8 : Vec Ideal S32x16384 .bf16) (j : Fin 16384) :
    k0_pay7 (F := Ideal) v0 v2 v4 v6 v8 (ix2 0 j) = chunkAt v0 v2 v4 v6 v8 j := by
  exact line_chunkAt v0 v2 v4 v6 v8 j

theorem pay8_apply (v0 : Vec Ideal S64x32 .f32) (v2 : Vec Ideal S64x1 .f32) (v4 : Vec Ideal S1x64 .f32) (v6 : Vec Ideal S1x1 .f32)
    (v8 : Vec Ideal S32x16384 .bf16) (j : Fin 16384) :
    k0_pay8 (F := Ideal) v0 v2 v4 v6 v8 (ix2 0 j) = chunkAt v0 v2 v4 v6 v8 j := by
  exact line_chunkAt v0 v2 v4 v6 v8 j

theorem pay1_apply (v0 : Vec Ideal S64x32 .f32) (v2 : Vec Ideal S64x1 .f32) (v4 : Vec Ideal S1x64 .f32) (v6 : Vec Ideal S1x1 .f32)
    (v8 : Vec Ideal S32x16384 .bf16) (j : Fin 16384) :
    k0_pay1 (F := Ideal) (k0_pay3 v0) (k0_pay4 v2) (k0_pay5 v4) (k0_pay6 v6) v8 (ix2 0 j) = chunkAt v0 v2 v4 v6 v8 j := by
  exact line_chunkAt v0 v2 v4 v6 v8 j

theorem pay2_apply (v0 : Vec Ideal S64x32 .f32) (v2 : Vec Ideal S64x1 .f32) (v4 : Vec Ideal S1x64 .f32) (v6 : Vec Ideal S1x1 .f32)
    (v8 : Vec Ideal S32x16384 .bf16) (j : Fin 16384) :
    k0_pay2 (F := Ideal) (k0_pay3 v0) (k0_pay4 v2) (k0_pay5 v4) (k0_pay6 v6) v8 (ix2 0 j) = chunkAt v0 v2 v4 v6 v8 j := by
  exact line_chunkAt v0 v2 v4 v6 v8 j

end Cert.KPay

end
-- ==== Proof.KBlock.lean ====
/-
  The kernel's pallas_call read as values. Each of the 16 grid points stages a [32, 65536] block of the (bf16) feature
  array and the whole weight and bias arrays, and stores, in four chunks of 16384 lanes, the decoder of every staged
  feature column. So lane y of the point's output block is the two-layer perceptron of column y of its feature block; the
  16 output blocks tile the [1, 1048576] result, which therefore holds at (0, n) the decoder of column n of the feature
  array; the reshape after the call lays it out as [1024, 1024], pixel (h, w) at n = h * 1024 + w.
-/
import proofs.«158345_j41824391528833_2_alg».proof.Proof.Feat
import proofs.«158345_j41824391528833_2_alg».proof.Proof.KPay
import proofs.«158345_j41824391528833_2_alg».proof.Proof.Gen.KernelIdeal.Frame
import Idealize.ShloMosaic.Lib.Pipeline.Value
import Idealize.ShloMosaic.Lib.Tactic

noncomputable section

namespace Cert.KBlock

open Cert.KernelIdeal Cert.KernelIdeal.Gen Idealize.ShloMosaic Idealize.ShloMosaic.TcCoe Idealize.SL.Sem Idealize.ShloMosaic.ValueIdx Cert.Feat
open Idealize.ShloMosaic.Pipeline (Dat)

/-- What a grid point leaves in its output block, as one function of the staged blocks: lane `y` is the decoder of
    feature column `y`. -/
def blockFn (x0 : Vec Ideal S32x65536 .bf16) (x1 : Vec Ideal S64x32 .f32) (x2 : Vec Ideal S64x1 .f32) (x3 : Vec Ideal S1x64 .f32)
    (x4 : Vec Ideal S1x1 .f32) : Vec Ideal S1x65536 .f32 :=
  fun y => mlp (fun k c => x1 (ix2 k c)) (fun k => x2 (ix2 k 0)) (fun k => x3 (ix2 0 k)) (x4 (ix2 0 0)) (fun c => x0 (ix2 c (y 1)))

theorem hz : (![0, 0] : Fin 2 → Nat) = fun _ => 0 := funext fun a => by fin_cases a <;> rfl

/-- A chunk's decoder over loads of the staged blocks is the block function at the chunk's lanes: the weights are loaded whole,
    the feature chunk at lane offset `o`. -/
theorem chunk_eq (x0 : Vec Ideal S32x65536 .bf16) (x1 : Vec Ideal S64x32 .f32) (x2 : Vec Ideal S64x1 .f32) (x3 : Vec Ideal S1x64 .f32)
    (x4 : Vec Ideal S1x1 .f32) (o : Nat) (inb0 : ∀ a, (![0, o] : Fin 2 → Nat) a + S32x16384.size a ≤ S32x65536.size a)
    (inb5 : ∀ a, (![0, o] : Fin 2 → Nat) a + S1x16384.size a ≤ S1x65536.size a) (x : S1x16384.Idx) :
    KPay.chunkAt (View.ld x1 r0_0) (View.ld x2 r0_1) (View.ld x3 r0_2) (View.ld x4 r0_3)
        (View.ld x0 (Rect.unit (s := S32x65536) ![0, o] S32x16384.size inb0)) (x 1)
      = blockFn x0 x1 x2 x3 x4 ((Rect.unit (s := S1x65536) ![0, o] S1x16384.size inb5).emb x) := by
  unfold KPay.chunkAt blockFn
  rw [View.ld_unit_zero (S := S64x32) hz, View.ld_unit_zero (S := S64x1) hz, View.ld_unit_zero (S := S1x64) hz, View.ld_unit_zero (S := S1x1) hz]
  congr 1
  funext c
  show x0 ((Rect.unit (s := S32x65536) ![0, o] S32x16384.size inb0).emb (ix2 c (x 1))) = x0 (ix2 c (((Rect.unit (s := S1x65536) ![0, o] S1x16384.size inb5).emb x) 1))
  congr 1
  funext a
  apply Fin.ext
  match a with
  | ⟨0, _⟩ => simp only [Rect.emb_apply, Rect.off_unit, Rect.stride_unit, Nat.one_mul]; show 0 + c.val = c.val; omega
  | ⟨1, _⟩ => simp only [Rect.emb_apply, Rect.off_unit, Rect.stride_unit, Nat.one_mul]; rfl

/-- The body's four stores, read as one block: each chunk is the block function at its lanes, and the chunks tile the block. -/
theorem out_eq (x0 : Vec Ideal S32x65536 .bf16) (x1 : Vec Ideal S64x32 .f32) (x2 : Vec Ideal S64x1 .f32) (x3 : Vec Ideal S1x64 .f32)
    (x4 : Vec Ideal S1x1 .f32) : out0_5 (F := Ideal) x0 x1 x2 x3 x4 = blockFn x0 x1 x2 x3 x4 := by
  funext y
  unfold out0_5
  refine View.canon_apply_of_pieces (blockFn x0 x1 x2 x3 x4) _ ?_ y (cover0_5 _ _ _ _ y)
  intro p hp x
  simp only [List.mem_cons, List.mem_nil_iff, or_false] at hp
  rcases hp with rfl | rfl | rfl | rfl
  · obtain ⟨a, j, rfl⟩ : ∃ (a : Fin 1) (j : Fin 16384), x = ix2 a j := ⟨x 0, x 1, eq_ix2 x⟩
    obtain rfl : a = 0 := Subsingleton.elim _ _
    exact (KPay.pay2_apply _ _ _ _ _ j).trans (chunk_eq x0 x1 x2 x3 x4 49152 inb_S32x65536_S32x16384_0_49152 inb_S1x65536_S1x16384_0_49152 (ix2 0 j))
  · obtain ⟨a, j, rfl⟩ : ∃ (a : Fin 1) (j : Fin 16384), x = ix2 a j := ⟨x 0, x 1, eq_ix2 x⟩
    obtain rfl : a = 0 := Subsingleton.elim _ _
    exact (KPay.pay1_apply _ _ _ _ _ j).trans (chunk_eq x0 x1 x2 x3 x4 32768 inb_S32x65536_S32x16384_0_32768 inb_S1x65536_S1x16384_0_32768 (ix2 0 j))
  · obtain ⟨a, j, rfl⟩ : ∃ (a : Fin 1) (j : Fin 16384), x = ix2 a j := ⟨x 0, x 1, eq_ix2 x⟩
    obtain rfl : a = 0 := Subsingleton.elim _ _
    exact (KPay.pay8_apply _ _ _ _ _ j).trans (chunk_eq x0 x1 x2 x3 x4 16384 inb_S32x65536_S32x16384_0_16384 inb_S1x65536_S1x16384_0_16384 (ix2 0 j))
  · obtain ⟨a, j, rfl⟩ : ∃ (a : Fin 1) (j : Fin 16384), x = ix2 a j := ⟨x 0, x 1, eq_ix2 x⟩
    obtain rfl : a = 0 := Subsingleton.elim _ _
    exact (KPay.pay7_apply _ _ _ _ _ j).trans (chunk_eq x0 x1 x2 x3 x4 0 inb_S32x65536_S32x16384_0_0 inb_S1x65536_S1x16384_0_0 (ix2 0 j))

end Cert.KBlock

end
-- ==== Proof.KValue.lean ====
/-
  From the grid points' output blocks to the kernel program's result. Point t of the 16 stages columns
  [65536 t, 65536 (t + 1)) of the feature array and the whole weight and bias arrays, and writes back lanes
  [65536 t, 65536 (t + 1)) of the [1, 1048576] output; the blocks tile it, so the output array ends holding, at lane n, the
  decoder of feature column n. The reshape after the call reads lane h * 1024 + w at pixel (h, w).
-/
import proofs.«158345_j41824391528833_2_alg».proof.Proof.KBlock
import proofs.«158345_j41824391528833_2_alg».proof.Proof.Gen.KernelIdeal.Frame
import Idealize.ShloMosaic.Lib.Pipeline.Value
import Idealize.ShloMosaic.Lib.Tactic

noncomputable section

namespace Cert.KValue

open Cert.KernelIdeal Cert.KernelIdeal.Gen Idealize.ShloMosaic Idealize.ShloMosaic.TcCoe Idealize.SL.Sem Idealize.ShloMosaic.ValueIdx Cert.Feat Cert.KBlock
open Idealize.ShloMosaic.Pipeline (Dat)

variable (m : (ℓ : Loc nD τ sig) → Buf (Elt Ideal) ℓ) (ρ : Dev nD → PrngReg)

/-- The five staged arrays as the region finds them, at their literal types. -/
abbrev xarr (c : Dev nD) : Vec Ideal S32x1048576 .bf16 := V m c main_call0_v278
abbrev w1arr (c : Dev nD) : Vec Ideal S64x32 .f32 := V m c main_arg4
abbrev b1arr (c : Dev nD) : Vec Ideal S64x1 .f32 := V m c main_call0_v279
abbrev w2arr (c : Dev nD) : Vec Ideal S1x64 .f32 := V m c main_arg6
abbrev b2arr (c : Dev nD) : Vec Ideal S1x1 .f32 := V m c main_call0_v280

/-- The output array after the call: lane n holds the decoder of feature column n. -/
def Gflat (c : Dev nD) : Vec Ideal S1x1048576 .f32 :=
  fun i => mlp (fun k c' => w1arr m c (ix2 k c')) (fun k => b1arr m c (ix2 k 0)) (fun k => w2arr m c (ix2 0 k)) (b2arr m c (ix2 0 0))
    (fun c' => xarr m c (ix2 c' (i 1)))

/-- The printed index maps over the 16 grid points: the feature and output windows move along the lane axis with the point,
    the weight and bias windows stay at block (0, 0). -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The feature window's block at point t is columns [65536 t, 65536 (t + 1)) of the feature array. -/
theorem iblk0_apply (c : Dev nD) (t : Fin cfg0.N) (x : S32x65536.Idx) (k : S32x1048576.Idx)
    (hk0 : (k 0).val = (x 0).val) (hk1 : (k 1).val = t.val * 65536 + (x 1).val) :
    (iblk m c 0 t : Vec Ideal S32x65536 .bf16) x = xarr m c k := by
  obtain ⟨e0, e1, -⟩ := idx_facts t
  unfold iblk
  rw [View.read_apply]
  show V m c main_call0_v278 _ = V m c main_call0_v278 _
  congr 1
  funext a
  apply Fin.ext
  match a with
  | ⟨0, _⟩ => show win0_0.index t 0 * 32 + 1 * (x 0).val = (k 0).val; rw [e0, hk0]; omega
  | ⟨1, _⟩ => show win0_0.index t 1 * 65536 + 1 * (x 1).val = (k 1).val; rw [e1, hk1]; omega

/-- The weight and bias windows stage their whole arrays at every point. -/
theorem iblk1_eq (c : Dev nD) (t : Fin cfg0.N) : (iblk m c 1 t : Vec Ideal S64x32 .f32) = w1arr m c := by
  obtain ⟨-, -, e0, e1, -⟩ := idx_facts t
  funext x
  unfold iblk
  rw [View.read_apply]
  show V m c main_arg4 _ = V m c main_arg4 _
  congr 1
  funext a
  apply Fin.ext
  match a with
  | ⟨0, _⟩ => show win0_1.index t 0 * 64 + 1 * (x 0).val = (x 0).val; rw [e0]; omega
  | ⟨1, _⟩ => show win0_1.index t 1 * 32 + 1 * (x 1).val = (x 1).val; rw [e1]; omega

theorem iblk2_eq (c : Dev nD) (t : Fin cfg0.N) : (iblk m c 2 t : Vec Ideal S64x1 .f32) = b1arr m c := by
  obtain ⟨-, -, -, -, e0, e1, -⟩ := idx_facts t
  funext x
  unfold iblk
  rw [View.read_apply]
  show V m c main_call0_v279 _ = V m c main_call0_v279 _
  congr 1
  funext a
  apply Fin.ext
  match a with
  | ⟨0, _⟩ => show win0_2.index t 0 * 64 + 1 * (x 0).val = (x 0).val; rw [e0]; omega
  | ⟨1, _⟩ => show win0_2.index t 1 * 1 + 1 * (x 1).val = (x 1).val; rw [e1]; omega

theorem iblk3_eq (c : Dev nD) (t : Fin cfg0.N) : (iblk m c 3 t : Vec Ideal S1x64 .f32) = w2arr m c := by
  obtain ⟨-, -, -, -, -, -, e0, e1, -⟩ := idx_facts t
  funext x
  unfold iblk
  rw [View.read_apply]
  show V m c main_arg6 _ = V m c main_arg6 _
  congr 1
  funext a
  apply Fin.ext
  match a with
  | ⟨0, _⟩ => show win0_3.index t 0 * 1 + 1 * (x 0).val = (x 0).val; rw [e0]; omega
  | ⟨1, _⟩ => show win0_3.index t 1 * 64 + 1 * (x 1).val = (x 1).val; rw [e1]; omega

theorem iblk4_eq (c : Dev nD) (t : Fin cfg0.N) : (iblk m c 4 t : Vec Ideal S1x1 .f32) = b2arr m c := by
  obtain ⟨-, -, -, -, -, -, -, -, e0, e1, -⟩ := idx_facts t
  funext x
  unfold iblk
  rw [View.read_apply]
  show V m c main_call0_v280 _ = V m c main_call0_v280 _
  congr 1
  funext a
  apply Fin.ext
  match a with
  | ⟨0, _⟩ => show win0_4.index t 0 * 1 + 1 * (x 0).val = (x 0).val; rw [e0]; omega
  | ⟨1, _⟩ => show win0_4.index t 1 * 1 + 1 * (x 1).val = (x 1).val; rw [e1]; omega

/-- WHAT POINT t WRITES BACK is block t of the output function. -/
theorem flushed_eq (c : Dev nD) (t : Fin cfg0.N) :
    (dats m 0 c).flushed 5 t = ((cfg0.win 5).blk t).view.read (Elt Ideal) (Gflat m c) := by
  obtain ⟨-, -, -, -, -, -, -, -, -, -, e0, e1⟩ := idx_facts t
  show (cfg0.win 5).cut (grid0.coords t) ((dats m 0 c).after 5 t) = _
  rw [after0_5, out_eq, iblk1_eq, iblk2_eq, iblk3_eq, iblk4_eq]
  funext y
  show blockFn (iblk m c 0 t) (w1arr m c) (b1arr m c) (w2arr m c) (b2arr m c) y = Gflat m c (((cfg0.win 5).blk t).view.emb y)
  unfold blockFn Gflat
  refine congrArg (mlp (fun k c' => w1arr m c (ix2 k c')) (fun k => b1arr m c (ix2 k 0)) (fun k => w2arr m c (ix2 0 k)) (b2arr m c (ix2 0 0)))
    (funext fun c' => ?_)
  refine iblk0_apply m c t (ix2 c' (y 1)) _ rfl ?_
  show win0_5.index t 1 * 65536 + 1 * (y 1).val = t.val * 65536 + (y 1).val
  rw [e1]; omega

/-- An index of the output array is in point t's block iff its lane is among the block's 65536 lanes. -/
theorem mem_blk (t : Fin cfg0.N) (i : S1x1048576.Idx) :
    i ∈ ((cfg0.win 5).blk t).view.set ↔ ∀ a : Fin 2, win0_5.index t a * S1x65536.size a ≤ (i a).val ∧ (i a).val < win0_5.index t a * S1x65536.size a + S1x65536.size a := by
  show i ∈ ((View.whole main_call0_v281).slice (win0_5.rect t)).set ↔ _
  rw [View.set_slice_whole, Rect.mem_set_unit]
  exact Iff.rfl

/-- The 16 blocks cover the output array: lane n is in block n / 65536. -/
theorem cover (i : S1x1048576.Idx) : ∃ t : Fin cfg0.N, (cfg0.win 5).flush t = true ∧ i ∈ ((cfg0.win 5).blk t).view.set := by
  have hi0 : (i 0).val < 1 := (i 0).isLt
  have hi1 : (i 1).val < 1048576 := (i 1).isLt
  have hN : cfg0.N = 16 := N_0
  let t : Fin cfg0.N := ⟨(i 1).val / 65536, by rw [hN]; omega⟩
  obtain ⟨-, -, -, -, -, -, -, -, -, -, e0, e1⟩ := idx_facts t
  refine ⟨t, flush0_5 t, ?_⟩
  rw [mem_blk]
  intro a
  have ht : t.val = (i 1).val / 65536 := rfl
  match a with
  | ⟨0, _⟩ => show win0_5.index t (0 : Fin 2) * 1 ≤ (i 0).val ∧ (i 0).val < win0_5.index t (0 : Fin 2) * 1 + 1; rw [e0]; omega
  | ⟨1, _⟩ => show win0_5.index t (1 : Fin 2) * 65536 ≤ (i 1).val ∧ (i 1).val < win0_5.index t (1 : Fin 2) * 65536 + 65536; rw [e1, ht]; omega

/-- THE OUTPUT ARRAY after the call. -/
theorem final (c : Dev nD) : (dats m 0 c).arrAt 5 cfg0.N = Gflat m c :=
  (dats m 0 c).arrAt_eq_of_cover 5 (Gflat m c) (fun t _ => flushed_eq m c t) cover

/-- The kernel program's result array: the output array reshaped to the image. -/
def outArr (c : Dev nD) : Vec Ideal S1024x1024 .f32 := shapeCast S1024x1024 (Gflat m c) shapeCasts_S1x1048576_S1024x1024

/-- What the region leaves in the output window's array, among the buffers the reshape after it starts from. -/
theorem tail_start (c : Dev nD) :
    Pipeline.withArrays spec0 c (V0 m c) (fun w => (dats m 0 c).arrAt w cfg0.N) (Proc.devRef .tc main_call0_v281) = Gflat m c :=
  (Pipeline.withArrays_arr spec0 launch0.win.arr_inj c _ _ 5).trans (final m c)

/-- After the frame run the result buffer holds the reshaped output array. -/
theorem post_out (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v0) = outArr m c := by
  refine ((h c).2 main_v0 (Pipeline.mem_restRefs_of main_v0 (by decide) (by decide))).trans ?_
  unfold Pipeline.afterTail₀
  show StableHlo.after hostOps1 _ (Proc.devRef .tc main_v0) = _
  after_results
  exact congrArg (fun X => shapeCast S1024x1024 X shapeCasts_S1x1048576_S1024x1024) (tail_start m c)

/-- The kernel program's run, read: the result buffer at the reshaped output array, the arguments unchanged. -/
theorem run : θ_run defs (onTc (τ := τ) (main (F := Ideal))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨post_out m r h c,
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c))),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c))⟩)
    (run_main m ρ)

/-- The result array read at a pixel: lane h * 1024 + w of the output array. -/
theorem outArr_apply (c : Dev nD) (h w : Fin 1024) :
    outArr m c (ix2 h w) = Gflat m c (ix2 0 ⟨h.val * 1024 + w.val, by have := h.isLt; have := w.isLt; omega⟩) := by
  unfold outArr
  refine shapeCast_apply (Gflat m c) shapeCasts_S1x1048576_S1024x1024 (ix2 h w) _ ?_
  rw [Shape.rowMajor_val_two, Shape.rowMajor_val_two]
  show 0 * 1048576 + (h.val * 1024 + w.val) = h.val * 1024 + w.val
  omega

end Cert.KValue

end
-- ==== Proof.KHost.lean ====
/-
  What the kernel program's host code leaves in the arrays the pallas_call stages: the feature array is the channels-last
  feature term of the three tables and of the per-pixel index, weight and mask arrays; those per-pixel arrays are computed from
  the coordinates by the same operations, in the same order, as in the reference, so they are named by the reference's stages.
  The two bias arrays are the bias arguments reshaped to columns.
-/
import proofs.«158345_j41824391528833_2_alg».proof.Proof.Feat
import proofs.«158345_j41824391528833_2_alg».proof.Proof.Gen.KernelIdeal.Frame
import proofs.«158345_j41824391528833_2_alg».proof.Proof.RefRead

noncomputable section

namespace Cert.KHost

open Cert.KernelIdeal Cert.KernelIdeal.Gen Idealize.ShloMosaic Idealize.ShloMosaic.TcCoe Idealize.SL.Sem Idealize.ShloMosaic.ValueIdx Cert.Feat

variable {F : FTy → Type} [FloatOps F]
variable (m : (ℓ : Loc nD τ sig) → Buf (Elt F) ℓ)

/-! ## The per-pixel arrays: each buffer of the kernel program's host code holds the reference's stage of the same coordinates -/

/-- Unfolds the reference's stage functions below the per-pixel arrays, and removes the transports along the typed references' own types. -/
local macro "unfold_ref_stages" : tactic => `(tactic| simp only [StableHlo.TRef.ofBuf, StableHlo.TRef.toBuf, cast_eq,
    Cert.ReferenceIdeal.ReadP.val_main_v0, Cert.ReferenceIdeal.ReadP.val_main_v1, Cert.ReferenceIdeal.ReadP.val_main_cst,
    Cert.ReferenceIdeal.ReadP.val_main_v2, Cert.ReferenceIdeal.ReadP.val_main_v3, Cert.ReferenceIdeal.ReadP.val_main_cst_0,
    Cert.ReferenceIdeal.ReadP.val_main_v4, Cert.ReferenceIdeal.ReadP.val_main_v5, Cert.ReferenceIdeal.ReadP.val_main_cst_1,
    Cert.ReferenceIdeal.ReadP.val_main_v6, Cert.ReferenceIdeal.ReadP.val_main_v7, Cert.ReferenceIdeal.ReadP.val_main_v8,
    Cert.ReferenceIdeal.ReadP.val_main_v9, Cert.ReferenceIdeal.ReadP.val_main_cst_2, Cert.ReferenceIdeal.ReadP.val_main_v10,
    Cert.ReferenceIdeal.ReadP.val_main_v11, Cert.ReferenceIdeal.ReadP.val_main_cst_3, Cert.ReferenceIdeal.ReadP.val_main_v12,
    Cert.ReferenceIdeal.ReadP.val_main_v13, Cert.ReferenceIdeal.ReadP.val_main_cst_4, Cert.ReferenceIdeal.ReadP.val_main_v14,
    Cert.ReferenceIdeal.ReadP.val_main_v15, Cert.ReferenceIdeal.ReadP.val_main_cst_5, Cert.ReferenceIdeal.ReadP.val_main_v16,
    Cert.ReferenceIdeal.ReadP.val_main_v17, Cert.ReferenceIdeal.ReadP.val_main_cst_6, Cert.ReferenceIdeal.ReadP.val_main_v18,
    Cert.ReferenceIdeal.ReadP.val_main_v19, Cert.ReferenceIdeal.ReadP.val_main_cst_7, Cert.ReferenceIdeal.ReadP.val_main_v20,
    Cert.ReferenceIdeal.ReadP.val_main_v21, Cert.ReferenceIdeal.ReadP.val_main_cst_8, Cert.ReferenceIdeal.ReadP.val_main_cst_9,
    Cert.ReferenceIdeal.ReadP.val_main_call0_v0, Cert.ReferenceIdeal.ReadP.val_main_call0_v1, Cert.ReferenceIdeal.ReadP.val_main_call0_v2,
    Cert.ReferenceIdeal.ReadP.val_main_call0_v3, Cert.ReferenceIdeal.ReadP.val_main_call0_v4, Cert.ReferenceIdeal.ReadP.val_main_v22,
    Cert.ReferenceIdeal.ReadP.val_main_v23, Cert.ReferenceIdeal.ReadP.val_main_v24, Cert.ReferenceIdeal.ReadP.val_main_c,
    Cert.ReferenceIdeal.ReadP.val_main_v25, Cert.ReferenceIdeal.ReadP.val_main_v26, Cert.ReferenceIdeal.ReadP.val_main_v27,
    Cert.ReferenceIdeal.ReadP.val_main_v28, Cert.ReferenceIdeal.ReadP.val_main_c_10, Cert.ReferenceIdeal.ReadP.val_main_v29,
    Cert.ReferenceIdeal.ReadP.val_main_v30, Cert.ReferenceIdeal.ReadP.val_main_c_11, Cert.ReferenceIdeal.ReadP.val_main_v31,
    Cert.ReferenceIdeal.ReadP.val_main_v32, Cert.ReferenceIdeal.ReadP.val_main_v33, Cert.ReferenceIdeal.ReadP.val_main_v34,
    Cert.ReferenceIdeal.ReadP.val_main_cst_12, Cert.ReferenceIdeal.ReadP.val_main_v36, Cert.ReferenceIdeal.ReadP.val_main_v37,
    Cert.ReferenceIdeal.ReadP.val_main_c_13, Cert.ReferenceIdeal.ReadP.val_main_v41, Cert.ReferenceIdeal.ReadP.val_main_v42,
    Cert.ReferenceIdeal.ReadP.val_main_c_14, Cert.ReferenceIdeal.ReadP.val_main_v43, Cert.ReferenceIdeal.ReadP.val_main_v44,
    Cert.ReferenceIdeal.ReadP.val_main_c_15, Cert.ReferenceIdeal.ReadP.val_main_v45, Cert.ReferenceIdeal.ReadP.val_main_v46,
    Cert.ReferenceIdeal.ReadP.val_main_v47, Cert.ReferenceIdeal.ReadP.val_main_v48, Cert.ReferenceIdeal.ReadP.val_main_cst_16,
    Cert.ReferenceIdeal.ReadP.val_main_v54, Cert.ReferenceIdeal.ReadP.val_main_v55, Cert.ReferenceIdeal.ReadP.val_main_cst_17,
    Cert.ReferenceIdeal.ReadP.val_main_v56, Cert.ReferenceIdeal.ReadP.val_main_v57, Cert.ReferenceIdeal.ReadP.val_main_cst_18,
    Cert.ReferenceIdeal.ReadP.val_main_v58, Cert.ReferenceIdeal.ReadP.val_main_v59, Cert.ReferenceIdeal.ReadP.val_main_cst_19,
    Cert.ReferenceIdeal.ReadP.val_main_cst_20, Cert.ReferenceIdeal.ReadP.val_main_call1_v0, Cert.ReferenceIdeal.ReadP.val_main_call1_v1,
    Cert.ReferenceIdeal.ReadP.val_main_call1_v2, Cert.ReferenceIdeal.ReadP.val_main_call1_v3, Cert.ReferenceIdeal.ReadP.val_main_call1_v4,
    Cert.ReferenceIdeal.ReadP.val_main_v60, Cert.ReferenceIdeal.ReadP.val_main_v61, Cert.ReferenceIdeal.ReadP.val_main_v62,
    Cert.ReferenceIdeal.ReadP.val_main_c_21, Cert.ReferenceIdeal.ReadP.val_main_v63, Cert.ReferenceIdeal.ReadP.val_main_v64,
    Cert.ReferenceIdeal.ReadP.val_main_v65, Cert.ReferenceIdeal.ReadP.val_main_v66, Cert.ReferenceIdeal.ReadP.val_main_c_22,
    Cert.ReferenceIdeal.ReadP.val_main_v67, Cert.ReferenceIdeal.ReadP.val_main_v68, Cert.ReferenceIdeal.ReadP.val_main_c_23,
    Cert.ReferenceIdeal.ReadP.val_main_v69, Cert.ReferenceIdeal.ReadP.val_main_v70, Cert.ReferenceIdeal.ReadP.val_main_v71,
    Cert.ReferenceIdeal.ReadP.val_main_v72, Cert.ReferenceIdeal.ReadP.val_main_cst_24, Cert.ReferenceIdeal.ReadP.val_main_v74,
    Cert.ReferenceIdeal.ReadP.val_main_v75, Cert.ReferenceIdeal.ReadP.val_main_c_25, Cert.ReferenceIdeal.ReadP.val_main_v79,
    Cert.ReferenceIdeal.ReadP.val_main_v80, Cert.ReferenceIdeal.ReadP.val_main_c_26, Cert.ReferenceIdeal.ReadP.val_main_v81,
    Cert.ReferenceIdeal.ReadP.val_main_v82, Cert.ReferenceIdeal.ReadP.val_main_c_27, Cert.ReferenceIdeal.ReadP.val_main_v83,
    Cert.ReferenceIdeal.ReadP.val_main_v84, Cert.ReferenceIdeal.ReadP.val_main_v85, Cert.ReferenceIdeal.ReadP.val_main_v86,
    Cert.ReferenceIdeal.ReadP.val_main_cst_28, Cert.ReferenceIdeal.ReadP.val_main_v92, Cert.ReferenceIdeal.ReadP.val_main_v93,
    Cert.ReferenceIdeal.ReadP.val_main_cst_29, Cert.ReferenceIdeal.ReadP.val_main_v94, Cert.ReferenceIdeal.ReadP.val_main_v95,
    Cert.ReferenceIdeal.ReadP.val_main_cst_30, Cert.ReferenceIdeal.ReadP.val_main_v96, Cert.ReferenceIdeal.ReadP.val_main_v97,
    Cert.ReferenceIdeal.ReadP.val_main_cst_31, Cert.ReferenceIdeal.ReadP.val_main_v98, Cert.ReferenceIdeal.ReadP.val_main_v99,
    Cert.ReferenceIdeal.ReadP.val_main_cst_32, Cert.ReferenceIdeal.ReadP.val_main_v100, Cert.ReferenceIdeal.ReadP.val_main_v101,
    Cert.ReferenceIdeal.ReadP.val_main_cst_33, Cert.ReferenceIdeal.ReadP.val_main_v102, Cert.ReferenceIdeal.ReadP.val_main_v103,
    Cert.ReferenceIdeal.ReadP.val_main_v104, Cert.ReferenceIdeal.ReadP.val_main_v105, Cert.ReferenceIdeal.ReadP.val_main_v106,
    Cert.ReferenceIdeal.ReadP.val_main_v107, Cert.ReferenceIdeal.ReadP.val_main_v108, Cert.ReferenceIdeal.ReadP.val_main_v109,
    Cert.ReferenceIdeal.ReadP.val_main_v110, Cert.ReferenceIdeal.ReadP.val_main_v111, Cert.ReferenceIdeal.ReadP.val_main_c_34,
    Cert.ReferenceIdeal.ReadP.val_main_v112, Cert.ReferenceIdeal.ReadP.val_main_v113, Cert.ReferenceIdeal.ReadP.val_main_c_35,
    Cert.ReferenceIdeal.ReadP.val_main_v114, Cert.ReferenceIdeal.ReadP.val_main_v115, Cert.ReferenceIdeal.ReadP.val_main_v116,
    Cert.ReferenceIdeal.ReadP.val_main_c_36, Cert.ReferenceIdeal.ReadP.val_main_v117, Cert.ReferenceIdeal.ReadP.val_main_v118,
    Cert.ReferenceIdeal.ReadP.val_main_v119, Cert.ReferenceIdeal.ReadP.val_main_c_37, Cert.ReferenceIdeal.ReadP.val_main_v120,
    Cert.ReferenceIdeal.ReadP.val_main_v121, Cert.ReferenceIdeal.ReadP.val_main_v122, Cert.ReferenceIdeal.ReadP.val_main_c_38,
    Cert.ReferenceIdeal.ReadP.val_main_c_39, Cert.ReferenceIdeal.ReadP.val_main_call2_v0, Cert.ReferenceIdeal.ReadP.val_main_call2_v1,
    Cert.ReferenceIdeal.ReadP.val_main_call2_v2, Cert.ReferenceIdeal.ReadP.val_main_call2_v3, Cert.ReferenceIdeal.ReadP.val_main_call2_v4,
    Cert.ReferenceIdeal.ReadP.val_main_v123, Cert.ReferenceIdeal.ReadP.val_main_c_40, Cert.ReferenceIdeal.ReadP.val_main_c_41,
    Cert.ReferenceIdeal.ReadP.val_main_call3_v0, Cert.ReferenceIdeal.ReadP.val_main_call3_v1, Cert.ReferenceIdeal.ReadP.val_main_call3_v2,
    Cert.ReferenceIdeal.ReadP.val_main_call3_v3, Cert.ReferenceIdeal.ReadP.val_main_call3_v4, Cert.ReferenceIdeal.ReadP.val_main_v124,
    Cert.ReferenceIdeal.ReadP.val_main_c_42, Cert.ReferenceIdeal.ReadP.val_main_v125, Cert.ReferenceIdeal.ReadP.val_main_v126,
    Cert.ReferenceIdeal.ReadP.val_main_c_43, Cert.ReferenceIdeal.ReadP.val_main_v127, Cert.ReferenceIdeal.ReadP.val_main_v128,
    Cert.ReferenceIdeal.ReadP.val_main_v129, Cert.ReferenceIdeal.ReadP.val_main_c_44, Cert.ReferenceIdeal.ReadP.val_main_v130,
    Cert.ReferenceIdeal.ReadP.val_main_v131, Cert.ReferenceIdeal.ReadP.val_main_c_45, Cert.ReferenceIdeal.ReadP.val_main_v132,
    Cert.ReferenceIdeal.ReadP.val_main_v133, Cert.ReferenceIdeal.ReadP.val_main_v134, Cert.ReferenceIdeal.ReadP.val_main_v135,
    Cert.ReferenceIdeal.ReadP.val_main_v136, Cert.ReferenceIdeal.ReadP.val_main_v137, Cert.ReferenceIdeal.ReadP.val_main_cst_46,
    Cert.ReferenceIdeal.ReadP.val_main_v143, Cert.ReferenceIdeal.ReadP.val_main_v144, Cert.ReferenceIdeal.ReadP.val_main_cst_47,
    Cert.ReferenceIdeal.ReadP.val_main_v148, Cert.ReferenceIdeal.ReadP.val_main_v149, Cert.ReferenceIdeal.ReadP.val_main_c_48,
    Cert.ReferenceIdeal.ReadP.val_main_v153, Cert.ReferenceIdeal.ReadP.val_main_v154, Cert.ReferenceIdeal.ReadP.val_main_c_49,
    Cert.ReferenceIdeal.ReadP.val_main_v155, Cert.ReferenceIdeal.ReadP.val_main_v156, Cert.ReferenceIdeal.ReadP.val_main_c_50,
    Cert.ReferenceIdeal.ReadP.val_main_v157, Cert.ReferenceIdeal.ReadP.val_main_v158, Cert.ReferenceIdeal.ReadP.val_main_v159,
    Cert.ReferenceIdeal.ReadP.val_main_c_51, Cert.ReferenceIdeal.ReadP.val_main_v160, Cert.ReferenceIdeal.ReadP.val_main_v161,
    Cert.ReferenceIdeal.ReadP.val_main_v162, Cert.ReferenceIdeal.ReadP.val_main_c_52, Cert.ReferenceIdeal.ReadP.val_main_v163,
    Cert.ReferenceIdeal.ReadP.val_main_v164, Cert.ReferenceIdeal.ReadP.val_main_v165, Cert.ReferenceIdeal.ReadP.val_main_c_53,
    Cert.ReferenceIdeal.ReadP.val_main_c_54, Cert.ReferenceIdeal.ReadP.val_main_call4_v0, Cert.ReferenceIdeal.ReadP.val_main_call4_v1,
    Cert.ReferenceIdeal.ReadP.val_main_call4_v2, Cert.ReferenceIdeal.ReadP.val_main_call4_v3, Cert.ReferenceIdeal.ReadP.val_main_call4_v4,
    Cert.ReferenceIdeal.ReadP.val_main_v166, Cert.ReferenceIdeal.ReadP.val_main_c_55, Cert.ReferenceIdeal.ReadP.val_main_c_56,
    Cert.ReferenceIdeal.ReadP.val_main_call5_v0, Cert.ReferenceIdeal.ReadP.val_main_call5_v1, Cert.ReferenceIdeal.ReadP.val_main_call5_v2,
    Cert.ReferenceIdeal.ReadP.val_main_call5_v3, Cert.ReferenceIdeal.ReadP.val_main_call5_v4, Cert.ReferenceIdeal.ReadP.val_main_v167,
    Cert.ReferenceIdeal.ReadP.val_main_c_57, Cert.ReferenceIdeal.ReadP.val_main_v168, Cert.ReferenceIdeal.ReadP.val_main_v169,
    Cert.ReferenceIdeal.ReadP.val_main_c_58, Cert.ReferenceIdeal.ReadP.val_main_v170, Cert.ReferenceIdeal.ReadP.val_main_v171,
    Cert.ReferenceIdeal.ReadP.val_main_v172, Cert.ReferenceIdeal.ReadP.val_main_c_59, Cert.ReferenceIdeal.ReadP.val_main_v173,
    Cert.ReferenceIdeal.ReadP.val_main_v174, Cert.ReferenceIdeal.ReadP.val_main_c_60, Cert.ReferenceIdeal.ReadP.val_main_v175,
    Cert.ReferenceIdeal.ReadP.val_main_v176, Cert.ReferenceIdeal.ReadP.val_main_v177, Cert.ReferenceIdeal.ReadP.val_main_v178,
    Cert.ReferenceIdeal.ReadP.val_main_v179, Cert.ReferenceIdeal.ReadP.val_main_v180, Cert.ReferenceIdeal.ReadP.val_main_cst_61,
    Cert.ReferenceIdeal.ReadP.val_main_v186, Cert.ReferenceIdeal.ReadP.val_main_v187, Cert.ReferenceIdeal.ReadP.val_main_c_62,
    Cert.ReferenceIdeal.ReadP.val_main_v195, Cert.ReferenceIdeal.ReadP.val_main_v196, Cert.ReferenceIdeal.ReadP.val_main_c_63,
    Cert.ReferenceIdeal.ReadP.val_main_v197, Cert.ReferenceIdeal.ReadP.val_main_v198, Cert.ReferenceIdeal.ReadP.val_main_c_64,
    Cert.ReferenceIdeal.ReadP.val_main_v199, Cert.ReferenceIdeal.ReadP.val_main_v200, Cert.ReferenceIdeal.ReadP.val_main_v201,
    Cert.ReferenceIdeal.ReadP.val_main_c_65, Cert.ReferenceIdeal.ReadP.val_main_v202, Cert.ReferenceIdeal.ReadP.val_main_v203,
    Cert.ReferenceIdeal.ReadP.val_main_v204, Cert.ReferenceIdeal.ReadP.val_main_c_66, Cert.ReferenceIdeal.ReadP.val_main_v205,
    Cert.ReferenceIdeal.ReadP.val_main_v206, Cert.ReferenceIdeal.ReadP.val_main_v207, Cert.ReferenceIdeal.ReadP.val_main_c_67,
    Cert.ReferenceIdeal.ReadP.val_main_c_68, Cert.ReferenceIdeal.ReadP.val_main_call6_v0, Cert.ReferenceIdeal.ReadP.val_main_call6_v1,
    Cert.ReferenceIdeal.ReadP.val_main_call6_v2, Cert.ReferenceIdeal.ReadP.val_main_call6_v3, Cert.ReferenceIdeal.ReadP.val_main_call6_v4,
    Cert.ReferenceIdeal.ReadP.val_main_v208, Cert.ReferenceIdeal.ReadP.val_main_c_69, Cert.ReferenceIdeal.ReadP.val_main_c_70,
    Cert.ReferenceIdeal.ReadP.val_main_call7_v0, Cert.ReferenceIdeal.ReadP.val_main_call7_v1, Cert.ReferenceIdeal.ReadP.val_main_call7_v2,
    Cert.ReferenceIdeal.ReadP.val_main_call7_v3, Cert.ReferenceIdeal.ReadP.val_main_call7_v4, Cert.ReferenceIdeal.ReadP.val_main_v209,
    Cert.ReferenceIdeal.ReadP.val_main_c_71, Cert.ReferenceIdeal.ReadP.val_main_v210, Cert.ReferenceIdeal.ReadP.val_main_v211,
    Cert.ReferenceIdeal.ReadP.val_main_c_72, Cert.ReferenceIdeal.ReadP.val_main_v212, Cert.ReferenceIdeal.ReadP.val_main_v213,
    Cert.ReferenceIdeal.ReadP.val_main_v214, Cert.ReferenceIdeal.ReadP.val_main_c_73, Cert.ReferenceIdeal.ReadP.val_main_v215,
    Cert.ReferenceIdeal.ReadP.val_main_v216, Cert.ReferenceIdeal.ReadP.val_main_c_74, Cert.ReferenceIdeal.ReadP.val_main_v217,
    Cert.ReferenceIdeal.ReadP.val_main_v218, Cert.ReferenceIdeal.ReadP.val_main_v219, Cert.ReferenceIdeal.ReadP.val_main_v220,
    Cert.ReferenceIdeal.ReadP.val_main_v221, Cert.ReferenceIdeal.ReadP.val_main_v222, Cert.ReferenceIdeal.ReadP.val_main_cst_75,
    Cert.ReferenceIdeal.ReadP.val_main_v231, Cert.ReferenceIdeal.ReadP.val_main_v232, Cert.ReferenceIdeal.ReadP.val_main_c_76,
    Cert.ReferenceIdeal.ReadP.val_main_v237, Cert.ReferenceIdeal.ReadP.val_main_v238, Cert.ReferenceIdeal.ReadP.val_main_c_77,
    Cert.ReferenceIdeal.ReadP.val_main_v239, Cert.ReferenceIdeal.ReadP.val_main_v240, Cert.ReferenceIdeal.ReadP.val_main_c_78,
    Cert.ReferenceIdeal.ReadP.val_main_v241, Cert.ReferenceIdeal.ReadP.val_main_v242, Cert.ReferenceIdeal.ReadP.val_main_c_79,
    Cert.ReferenceIdeal.ReadP.val_main_v243, Cert.ReferenceIdeal.ReadP.val_main_v244, Cert.ReferenceIdeal.ReadP.val_main_v245,
    Cert.ReferenceIdeal.ReadP.val_main_c_80, Cert.ReferenceIdeal.ReadP.val_main_v246, Cert.ReferenceIdeal.ReadP.val_main_v247,
    Cert.ReferenceIdeal.ReadP.val_main_v248, Cert.ReferenceIdeal.ReadP.val_main_c_81, Cert.ReferenceIdeal.ReadP.val_main_v249,
    Cert.ReferenceIdeal.ReadP.val_main_v250, Cert.ReferenceIdeal.ReadP.val_main_v251, Cert.ReferenceIdeal.ReadP.val_main_c_82,
    Cert.ReferenceIdeal.ReadP.val_main_c_83, Cert.ReferenceIdeal.ReadP.val_main_call8_v0, Cert.ReferenceIdeal.ReadP.val_main_call8_v1,
    Cert.ReferenceIdeal.ReadP.val_main_call8_v2, Cert.ReferenceIdeal.ReadP.val_main_call8_v3, Cert.ReferenceIdeal.ReadP.val_main_call8_v4,
    Cert.ReferenceIdeal.ReadP.val_main_v252, Cert.ReferenceIdeal.ReadP.val_main_c_84, Cert.ReferenceIdeal.ReadP.val_main_c_85,
    Cert.ReferenceIdeal.ReadP.val_main_call9_v0, Cert.ReferenceIdeal.ReadP.val_main_call9_v1, Cert.ReferenceIdeal.ReadP.val_main_call9_v2,
    Cert.ReferenceIdeal.ReadP.val_main_call9_v3, Cert.ReferenceIdeal.ReadP.val_main_call9_v4, Cert.ReferenceIdeal.ReadP.val_main_v253,
    Cert.ReferenceIdeal.ReadP.val_main_c_86, Cert.ReferenceIdeal.ReadP.val_main_v254, Cert.ReferenceIdeal.ReadP.val_main_v255,
    Cert.ReferenceIdeal.ReadP.val_main_c_87, Cert.ReferenceIdeal.ReadP.val_main_v256, Cert.ReferenceIdeal.ReadP.val_main_v257,
    Cert.ReferenceIdeal.ReadP.val_main_v258, Cert.ReferenceIdeal.ReadP.val_main_c_88, Cert.ReferenceIdeal.ReadP.val_main_v259,
    Cert.ReferenceIdeal.ReadP.val_main_v260, Cert.ReferenceIdeal.ReadP.val_main_c_89, Cert.ReferenceIdeal.ReadP.val_main_v261,
    Cert.ReferenceIdeal.ReadP.val_main_v262, Cert.ReferenceIdeal.ReadP.val_main_v263, Cert.ReferenceIdeal.ReadP.val_main_v264,
    Cert.ReferenceIdeal.ReadP.val_main_v265, Cert.ReferenceIdeal.ReadP.val_main_v266])

/-- Both sides' buffers after the host operations, as the composed terms of the arguments. -/
local macro "host_results" : tactic => `(tactic| (
  simp only [V, V0, hostOps0, List.flatten_cons, List.flatten_nil, List.append_nil]
  after_results_simp))

/-! The per-pixel index, weight and mask arrays. -/

set_option maxRecDepth 8192 in
set_option maxHeartbeats 40000000 in
theorem h37 (c : Dev nD) :
    V m c main_call0_v37 = Cert.ReferenceIdeal.ReadP.val_main_v34 (F := F) (m ((c : Thread nD τ).loc main_arg0)) := by
  host_results
  unfold_ref_stages
  rfl

set_option maxRecDepth 8192 in
set_option maxHeartbeats 40000000 in
theorem h46 (c : Dev nD) :
    V m c main_call0_v46 = Cert.ReferenceIdeal.ReadP.val_main_v48 (F := F) (m ((c : Thread nD τ).loc main_arg0)) := by
  host_results
  unfold_ref_stages
  rfl

set_option maxRecDepth 8192 in
set_option maxHeartbeats 40000000 in
theorem h49 (c : Dev nD) :
    V m c main_call0_v49 = Cert.ReferenceIdeal.ReadP.val_main_v37 (F := F) (m ((c : Thread nD τ).loc main_arg0)) := by
  host_results
  unfold_ref_stages
  rfl

set_option maxRecDepth 8192 in
set_option maxHeartbeats 40000000 in
theorem h31 (c : Dev nD) :
    V m c main_call0_v31 = Cert.ReferenceIdeal.ReadP.val_main_v28 (F := F) (m ((c : Thread nD τ).loc main_arg0)) := by
  host_results
  unfold_ref_stages
  rfl

set_option maxRecDepth 8192 in
set_option maxHeartbeats 40000000 in
theorem h75 (c : Dev nD) :
    V m c main_call0_v75 = Cert.ReferenceIdeal.ReadP.val_main_v72 (F := F) (m ((c : Thread nD τ).loc main_arg0)) := by
  host_results
  unfold_ref_stages
  rfl

set_option maxRecDepth 8192 in
set_option maxHeartbeats 40000000 in
theorem h84 (c : Dev nD) :
    V m c main_call0_v84 = Cert.ReferenceIdeal.ReadP.val_main_v86 (F := F) (m ((c : Thread nD τ).loc main_arg0)) := by
  host_results
  unfold_ref_stages
  rfl

set_option maxRecDepth 8192 in
set_option maxHeartbeats 40000000 in
theorem h87 (c : Dev nD) :
    V m c main_call0_v87 = Cert.ReferenceIdeal.ReadP.val_main_v75 (F := F) (m ((c : Thread nD τ).loc main_arg0)) := by
  host_results
  unfold_ref_stages
  rfl

set_option maxRecDepth 8192 in
set_option maxHeartbeats 40000000 in
theorem h69 (c : Dev nD) :
    V m c main_call0_v69 = Cert.ReferenceIdeal.ReadP.val_main_v66 (F := F) (m ((c : Thread nD τ).loc main_arg0)) := by
  host_results
  unfold_ref_stages
  rfl

set_option maxRecDepth 8192 in
set_option maxHeartbeats 40000000 in
theorem h125 (c : Dev nD) :
    V m c main_call0_v125 = Cert.ReferenceIdeal.ReadP.val_main_v122 (F := F) (m ((c : Thread nD τ).loc main_arg0)) := by
  host_results
  unfold_ref_stages
  rfl

set_option maxRecDepth 8192 in
set_option maxHeartbeats 40000000 in
theorem h147 (c : Dev nD) :
    V m c main_call0_v147 = Cert.ReferenceIdeal.ReadP.val_main_v144 (F := F) (m ((c : Thread nD τ).loc main_arg0)) := by
  host_results
  unfold_ref_stages
  rfl

set_option maxRecDepth 8192 in
set_option maxHeartbeats 40000000 in
theorem h149 (c : Dev nD) :
    V m c main_call0_v149 = Cert.ReferenceIdeal.ReadP.val_main_v149 (F := F) (m ((c : Thread nD τ).loc main_arg0)) := by
  host_results
  unfold_ref_stages
  rfl

set_option maxRecDepth 8192 in
set_option maxHeartbeats 40000000 in
theorem h166 (c : Dev nD) :
    V m c main_call0_v166 = Cert.ReferenceIdeal.ReadP.val_main_v165 (F := F) (m ((c : Thread nD τ).loc main_arg0)) := by
  host_results
  unfold_ref_stages
  rfl

set_option maxRecDepth 8192 in
set_option maxHeartbeats 40000000 in
theorem h188 (c : Dev nD) :
    V m c main_call0_v188 = Cert.ReferenceIdeal.ReadP.val_main_v187 (F := F) (m ((c : Thread nD τ).loc main_arg0)) := by
  host_results
  unfold_ref_stages
  rfl

set_option maxRecDepth 8192 in
set_option maxHeartbeats 40000000 in
theorem h112 (c : Dev nD) :
    V m c main_call0_v112 = Cert.ReferenceIdeal.ReadP.val_main_v109 (F := F) (m ((c : Thread nD τ).loc main_arg0)) := by
  host_results
  unfold_ref_stages
  rfl

set_option maxRecDepth 8192 in
set_option maxHeartbeats 40000000 in
theorem h206 (c : Dev nD) :
    V m c main_call0_v206 = Cert.ReferenceIdeal.ReadP.val_main_v207 (F := F) (m ((c : Thread nD τ).loc main_arg0)) := by
  host_results
  unfold_ref_stages
  rfl

set_option maxRecDepth 8192 in
set_option maxHeartbeats 40000000 in
theorem h114 (c : Dev nD) :
    V m c main_call0_v114 = Cert.ReferenceIdeal.ReadP.val_main_v111 (F := F) (m ((c : Thread nD τ).loc main_arg0)) := by
  host_results
  unfold_ref_stages
  rfl

set_option maxRecDepth 8192 in
set_option maxHeartbeats 40000000 in
theorem h228 (c : Dev nD) :
    V m c main_call0_v228 = Cert.ReferenceIdeal.ReadP.val_main_v232 (F := F) (m ((c : Thread nD τ).loc main_arg0)) := by
  host_results
  unfold_ref_stages
  rfl

set_option maxRecDepth 8192 in
set_option maxHeartbeats 40000000 in
theorem h248 (c : Dev nD) :
    V m c main_call0_v248 = Cert.ReferenceIdeal.ReadP.val_main_v251 (F := F) (m ((c : Thread nD τ).loc main_arg0)) := by
  host_results
  unfold_ref_stages
  rfl

/-! The two index columns of each corner's index pair, then the pair: the concatenation of the two columns. -/

set_option maxRecDepth 8192 in
set_option maxHeartbeats 40000000 in
theorem h138 (c : Dev nD) :
    V m c main_call0_v138 = Cert.ReferenceIdeal.ReadP.val_main_v135 (F := F) (m ((c : Thread nD τ).loc main_arg0)) := by
  host_results
  unfold_ref_stages
  rfl

set_option maxRecDepth 8192 in
set_option maxHeartbeats 40000000 in
theorem h139 (c : Dev nD) :
    V m c main_call0_v139 = Cert.ReferenceIdeal.ReadP.val_main_v136 (F := F) (m ((c : Thread nD τ).loc main_arg0)) := by
  host_results
  unfold_ref_stages
  rfl

set_option maxRecDepth 8192 in
set_option maxHeartbeats 40000000 in
theorem h179 (c : Dev nD) :
    V m c main_call0_v179 = Cert.ReferenceIdeal.ReadP.val_main_v178 (F := F) (m ((c : Thread nD τ).loc main_arg0)) := by
  host_results
  unfold_ref_stages
  rfl

set_option maxRecDepth 8192 in
set_option maxHeartbeats 40000000 in
theorem h180 (c : Dev nD) :
    V m c main_call0_v180 = Cert.ReferenceIdeal.ReadP.val_main_v179 (F := F) (m ((c : Thread nD τ).loc main_arg0)) := by
  host_results
  unfold_ref_stages
  rfl

set_option maxRecDepth 8192 in
set_option maxHeartbeats 40000000 in
theorem h219 (c : Dev nD) :
    V m c main_call0_v219 = Cert.ReferenceIdeal.ReadP.val_main_v220 (F := F) (m ((c : Thread nD τ).loc main_arg0)) := by
  host_results
  unfold_ref_stages
  rfl

set_option maxRecDepth 8192 in
set_option maxHeartbeats 40000000 in
theorem h220 (c : Dev nD) :
    V m c main_call0_v220 = Cert.ReferenceIdeal.ReadP.val_main_v221 (F := F) (m ((c : Thread nD τ).loc main_arg0)) := by
  host_results
  unfold_ref_stages
  rfl

set_option maxRecDepth 8192 in
set_option maxHeartbeats 40000000 in
theorem h261 (c : Dev nD) :
    V m c main_call0_v261 = Cert.ReferenceIdeal.ReadP.val_main_v264 (F := F) (m ((c : Thread nD τ).loc main_arg0)) := by
  host_results
  unfold_ref_stages
  rfl

set_option maxRecDepth 8192 in
set_option maxHeartbeats 40000000 in
theorem h262 (c : Dev nD) :
    V m c main_call0_v262 = Cert.ReferenceIdeal.ReadP.val_main_v265 (F := F) (m ((c : Thread nD τ).loc main_arg0)) := by
  host_results
  unfold_ref_stages
  rfl

set_option maxRecDepth 8192 in
set_option maxHeartbeats 40000000 in
theorem h140 (c : Dev nD) :
    V m c main_call0_v140 = Cert.ReferenceIdeal.ReadP.val_main_v137 (F := F) (m ((c : Thread nD τ).loc main_arg0)) := by
  rw [Cert.ReferenceIdeal.ReadP.val_main_v137, ← h138 m c, ← h139 m c]
  host_results
  simp only [StableHlo.TRef.ofBuf, StableHlo.TRef.toBuf, cast_eq]
  rfl

set_option maxRecDepth 8192 in
set_option maxHeartbeats 40000000 in
theorem h181 (c : Dev nD) :
    V m c main_call0_v181 = Cert.ReferenceIdeal.ReadP.val_main_v180 (F := F) (m ((c : Thread nD τ).loc main_arg0)) := by
  rw [Cert.ReferenceIdeal.ReadP.val_main_v180, ← h179 m c, ← h180 m c]
  host_results
  simp only [StableHlo.TRef.ofBuf, StableHlo.TRef.toBuf, cast_eq]
  rfl

set_option maxRecDepth 8192 in
set_option maxHeartbeats 40000000 in
theorem h221 (c : Dev nD) :
    V m c main_call0_v221 = Cert.ReferenceIdeal.ReadP.val_main_v222 (F := F) (m ((c : Thread nD τ).loc main_arg0)) := by
  rw [Cert.ReferenceIdeal.ReadP.val_main_v222, ← h219 m c, ← h220 m c]
  host_results
  simp only [StableHlo.TRef.ofBuf, StableHlo.TRef.toBuf, cast_eq]
  rfl

set_option maxRecDepth 8192 in
set_option maxHeartbeats 40000000 in
theorem h263 (c : Dev nD) :
    V m c main_call0_v263 = Cert.ReferenceIdeal.ReadP.val_main_v266 (F := F) (m ((c : Thread nD τ).loc main_arg0)) := by
  rw [Cert.ReferenceIdeal.ReadP.val_main_v266, ← h261 m c, ← h262 m c]
  host_results
  simp only [StableHlo.TRef.ofBuf, StableHlo.TRef.toBuf, cast_eq]
  rfl

/-! ## The feature array and the two bias columns -/

set_option maxRecDepth 8192 in
set_option maxHeartbeats 40000000 in
theorem V_feat (c : Dev nD) :
    V m c main_call0_v278 = flatK (F := F) (featK (m ((c : Thread nD τ).loc main_arg1)) (m ((c : Thread nD τ).loc main_arg2)) (m ((c : Thread nD τ).loc main_arg3))
      (Cert.ReferenceIdeal.ReadP.val_main_v34 (F := F) (m ((c : Thread nD τ).loc main_arg0))) (Cert.ReferenceIdeal.ReadP.val_main_v48 (F := F) (m ((c : Thread nD τ).loc main_arg0))) (Cert.ReferenceIdeal.ReadP.val_main_v37 (F := F) (m ((c : Thread nD τ).loc main_arg0))) (Cert.ReferenceIdeal.ReadP.val_main_v28 (F := F) (m ((c : Thread nD τ).loc main_arg0)))
      (Cert.ReferenceIdeal.ReadP.val_main_v72 (F := F) (m ((c : Thread nD τ).loc main_arg0))) (Cert.ReferenceIdeal.ReadP.val_main_v86 (F := F) (m ((c : Thread nD τ).loc main_arg0))) (Cert.ReferenceIdeal.ReadP.val_main_v75 (F := F) (m ((c : Thread nD τ).loc main_arg0))) (Cert.ReferenceIdeal.ReadP.val_main_v66 (F := F) (m ((c : Thread nD τ).loc main_arg0)))
      (Cert.ReferenceIdeal.ReadP.val_main_v137 (F := F) (m ((c : Thread nD τ).loc main_arg0))) (Cert.ReferenceIdeal.ReadP.val_main_v122 (F := F) (m ((c : Thread nD τ).loc main_arg0))) (Cert.ReferenceIdeal.ReadP.val_main_v144 (F := F) (m ((c : Thread nD τ).loc main_arg0))) (Cert.ReferenceIdeal.ReadP.val_main_v149 (F := F) (m ((c : Thread nD τ).loc main_arg0)))
      (Cert.ReferenceIdeal.ReadP.val_main_v180 (F := F) (m ((c : Thread nD τ).loc main_arg0))) (Cert.ReferenceIdeal.ReadP.val_main_v165 (F := F) (m ((c : Thread nD τ).loc main_arg0))) (Cert.ReferenceIdeal.ReadP.val_main_v187 (F := F) (m ((c : Thread nD τ).loc main_arg0))) (Cert.ReferenceIdeal.ReadP.val_main_v109 (F := F) (m ((c : Thread nD τ).loc main_arg0)))
      (Cert.ReferenceIdeal.ReadP.val_main_v222 (F := F) (m ((c : Thread nD τ).loc main_arg0))) (Cert.ReferenceIdeal.ReadP.val_main_v207 (F := F) (m ((c : Thread nD τ).loc main_arg0))) (Cert.ReferenceIdeal.ReadP.val_main_v111 (F := F) (m ((c : Thread nD τ).loc main_arg0))) (Cert.ReferenceIdeal.ReadP.val_main_v232 (F := F) (m ((c : Thread nD τ).loc main_arg0)))
      (Cert.ReferenceIdeal.ReadP.val_main_v266 (F := F) (m ((c : Thread nD τ).loc main_arg0))) (Cert.ReferenceIdeal.ReadP.val_main_v251 (F := F) (m ((c : Thread nD τ).loc main_arg0))) (Cert.ReferenceIdeal.ReadP.val_main_v111 (F := F) (m ((c : Thread nD τ).loc main_arg0))) (Cert.ReferenceIdeal.ReadP.val_main_v109 (F := F) (m ((c : Thread nD τ).loc main_arg0)))) := by
  rw [← h37 m c, ← h46 m c, ← h49 m c, ← h31 m c, ← h75 m c, ← h84 m c, ← h87 m c, ← h69 m c, ← h140 m c, ← h125 m c, ← h147 m c, ← h149 m c,
    ← h181 m c, ← h166 m c, ← h188 m c, ← h112 m c, ← h221 m c, ← h206 m c, ← h114 m c, ← h228 m c, ← h263 m c, ← h248 m c]
  simp only [flatK, featK, lineK, cornerK]
  host_results
  simp only [StableHlo.TRef.ofBuf, StableHlo.TRef.toBuf, cast_eq]
  rfl

set_option maxRecDepth 8192 in
set_option maxHeartbeats 4000000 in
theorem V_b1col (c : Dev nD) :
    V m c main_call0_v279 = shapeCast S64x1 (m ((c : Thread nD τ).loc main_arg5)) shapeCasts_S64_S64x1 := by
  show StableHlo.after (List.flatten [hostOps0]) _ (Proc.devRef .tc main_call0_v279) = _
  simp only [hostOps0, List.flatten_cons, List.flatten_nil, List.append_nil]
  after_results_simp
  rfl

set_option maxRecDepth 8192 in
set_option maxHeartbeats 4000000 in
theorem V_b2col (c : Dev nD) :
    V m c main_call0_v280 = shapeCast S1x1 (m ((c : Thread nD τ).loc main_arg7)) shapeCasts_S1_S1x1 := by
  show StableHlo.after (List.flatten [hostOps0]) _ (Proc.devRef .tc main_call0_v280) = _
  simp only [hostOps0, List.flatten_cons, List.flatten_nil, List.append_nil]
  after_results_simp
  rfl

end Cert.KHost

end
-- ==== Proof.KPure.lean ====
/-
  The kernel program's feature array read at one entry. The array is laid out channels LAST and then transposed, flattened and
  narrowed; entry (c, h * 1024 + w) of the result is the scalar feature formula of the tables' entries the pixel's indices select
  (a gather clamps each start index into its axis) and of the per-pixel weights and masks at (h, w).
-/
import proofs.«158345_j41824391528833_2_alg».proof.Proof.Feat
import Idealize.ShloMosaic.Lib.Pipeline.Value

noncomputable section

namespace Cert.KPure

open Cert.KernelIdeal Cert.KernelIdeal.Gen Idealize.ShloMosaic Idealize.ShloMosaic.TcCoe Idealize.ShloMosaic.ValueIdx Cert.Feat

/-! ## The layout operations of the feature computation, each read at an index given by its coordinates -/

section IndexReads
variable {α : Type}

/-- A per-pixel array given a trailing unit axis reads, at (h, w, z), its entry at (h, w). -/
theorem bcastUnit_apply (x : S1024x1024.Idx → α) (h w : Fin 1024) (z : Fin 1) :
    broadcastInDim S1024x1024x1 ![0, 1] bcast_S1024x1024_S1024x1024x1_0_1 x (ix3 h w z) = x (ix2 h w) :=
  broadcastInDim_apply _ _ x _ _ fun a => match a with | ⟨0, _⟩ => rfl | ⟨1, _⟩ => rfl

/-- A [1024, 1024, 1] array repeated along 32 channels reads, at (h, w, c), its entry at (h, w, 0). -/
theorem bcastChan_apply (x : S1024x1024x1.Idx → α) (h w : Fin 1024) (c : Fin 32) :
    broadcastInDim S1024x1024x32 ![0, 1, 2] bcast_S1024x1024x1_S1024x1024x32_0_1_2 x (ix3 h w c) = x (ix3 h w 0) :=
  broadcastInDim_apply _ _ x _ _ fun a => match a with | ⟨0, _⟩ => rfl | ⟨1, _⟩ => rfl | ⟨2, _⟩ => rfl

/-- A line table transposed reads, at (r, c), the table at (c, r). -/
theorem transposeLine_apply (x : S32x1024.Idx → α) (r : Fin 1024) (c : Fin 32) :
    transpose S1024x32 [1, 0] x transposes_S32x1024_S1024x32_1_0 (ix2 r c) = x (ix2 c r) :=
  transpose_apply _ x _ _ _ fun b => match b with | ⟨0, _⟩ => rfl | ⟨1, _⟩ => rfl

/-- The plane table with its channel axis moved last reads, at (a, b, c), the table at (c, a, b). -/
theorem transposePlane_apply (x : S32x256x256.Idx → α) (a b : Fin 256) (c : Fin 32) :
    transpose S256x256x32 [1, 2, 0] x transposes_S32x256x256_S256x256x32_1_2_0 (ix3 a b c) = x (ix3 c a b) :=
  transpose_apply _ x _ _ _ fun d => match d with | ⟨0, _⟩ => rfl | ⟨1, _⟩ => rfl | ⟨2, _⟩ => rfl

/-- The feature array with its channel axis moved first reads, at (c, h, w), the array at (h, w, c). -/
theorem transposeFeat_apply (x : S1024x1024x32.Idx → α) (c : Fin 32) (h w : Fin 1024) :
    transpose S32x1024x1024 [2, 0, 1] x transposes_S1024x1024x32_S32x1024x1024_2_0_1 (ix3 c h w) = x (ix3 h w c) :=
  transpose_apply _ x _ _ _ fun d => match d with | ⟨0, _⟩ => rfl | ⟨1, _⟩ => rfl | ⟨2, _⟩ => rfl

/-- The two pixel axes flattened into one: entry (c, h * 1024 + w) is the entry (c, h, w), the same row-major position. -/
theorem flatten_apply (x : S32x1024x1024.Idx → α) (c : Fin 32) (h w : Fin 1024) (hlt : h.val * 1024 + w.val < 1048576) :
    shapeCast S32x1048576 x shapeCasts_S32x1024x1024_S32x1048576 (ix2 c ⟨h.val * 1024 + w.val, hlt⟩) = x (ix3 c h w) :=
  shapeCast_apply x _ _ _ (by
    rewrite [Shape.rowMajor_val_three, Shape.rowMajor_val_two]
    show (c.val * 1024 + h.val) * 1024 + w.val = c.val * 1048576 + (h.val * 1024 + w.val)
    omega)

/-! ## The two gathers read at an index

On an axis the start index map names, the operand coordinate is the start index's component read signed and clamped into
the interval from 0 to size minus slice size, and the slice size there is 1; on the channel axis the start is 0 and the
coordinate is the result's. -/

/-- Row gather of a [1024, 32] table at per-pixel row indices: entry (h, w, c) is the table at (clamped index, c). -/
theorem gatherLine_apply (x : S1024x32.Idx → α) (idx : (⟨S1024x1024x1, .i32⟩ : BufTy).Contents (Elt Ideal)) (h w : Fin 1024) (c : Fin 32) :
    Host.gather gather_S1024x32_S1024x1024x1_S1024x1024x32_2_0_n_n_0_2_132 x idx (ix3 h w c)
      = x (ix2 (clampIdx 1024 (by decide) (idx (ix3 h w 0))) c) := by
  unfold Host.gather
  congr 1
  funext a
  refine Fin.ext ?_
  match a with
  | ⟨0, _⟩ =>
    show gather_S1024x32_S1024x1024x1_S1024x1024x32_2_0_n_n_0_2_132.start (ix3 h w c) idx 0 + gather_S1024x32_S1024x1024x1_S1024x1024x32_2_0_n_n_0_2_132.batchCoord (ix3 h w c) 0 + gather_S1024x32_S1024x1024x1_S1024x1024x32_2_0_n_n_0_2_132.offCoord (ix3 h w c) 0 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (show (0 : Fin 2) ∈ gather_S1024x32_S1024x1024x1_S1024x1024x32_2_0_n_n_0_2_132.startIndexMap by decide)]
    have hsi : gather_S1024x32_S1024x1024x1_S1024x1024x32_2_0_n_n_0_2_132.siIdx (ix3 h w c)
        ⟨List.idxOf (0 : Fin 2) gather_S1024x32_S1024x1024x1_S1024x1024x32_2_0_n_n_0_2_132.startIndexMap, List.idxOf_lt_length_iff.2 (by decide)⟩ = ix3 h w 0 := by
      funext b; refine Fin.ext ?_
      match b with
      | ⟨0, _⟩ => rfl
      | ⟨1, _⟩ => rfl
      | ⟨2, _⟩ => rfl
    rw [hsi]
    rfl
  | ⟨1, _⟩ =>
    show gather_S1024x32_S1024x1024x1_S1024x1024x32_2_0_n_n_0_2_132.start (ix3 h w c) idx 1 + gather_S1024x32_S1024x1024x1_S1024x1024x32_2_0_n_n_0_2_132.batchCoord (ix3 h w c) 1 + gather_S1024x32_S1024x1024x1_S1024x1024x32_2_0_n_n_0_2_132.offCoord (ix3 h w c) 1 = c.val
    rw [GatherDims.batchCoord_eq_zero _ _ _ List.not_mem_nil]
    have hs : gather_S1024x32_S1024x1024x1_S1024x1024x32_2_0_n_n_0_2_132.start (ix3 h w c) idx 1 = 0 := by
      unfold GatherDims.start
      rw [dif_neg (by decide)]
    rw [hs]
    simp only [Nat.add_zero, Nat.zero_add]
    unfold GatherDims.offCoord
    rw [dif_pos (by decide)]
    rfl

/-- Point gather of a [256, 256, 32] table at per-pixel index pairs: entry (h, w, c) is the table at (clamped first index,
    clamped second index, c). -/
theorem gatherPlane_apply (x : S256x256x32.Idx → α) (idx : (⟨S1024x1024x2, .i32⟩ : BufTy).Contents (Elt Ideal)) (h w : Fin 1024) (c : Fin 32) :
    Host.gather gather_S256x256x32_S1024x1024x2_S1024x1024x32_2_01_n_n_01_2_1132 x idx (ix3 h w c)
      = x (ix3 (clampIdx 256 (by decide) (idx (ix3 h w 0))) (clampIdx 256 (by decide) (idx (ix3 h w 1))) c) := by
  unfold Host.gather
  congr 1
  funext a
  refine Fin.ext ?_
  match a with
  | ⟨0, _⟩ =>
    show gather_S256x256x32_S1024x1024x2_S1024x1024x32_2_01_n_n_01_2_1132.start (ix3 h w c) idx 0 + gather_S256x256x32_S1024x1024x2_S1024x1024x32_2_01_n_n_01_2_1132.batchCoord (ix3 h w c) 0 + gather_S256x256x32_S1024x1024x2_S1024x1024x32_2_01_n_n_01_2_1132.offCoord (ix3 h w c) 0 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (show (0 : Fin 3) ∈ gather_S256x256x32_S1024x1024x2_S1024x1024x32_2_01_n_n_01_2_1132.startIndexMap by decide)]
    have hsi : gather_S256x256x32_S1024x1024x2_S1024x1024x32_2_01_n_n_01_2_1132.siIdx (ix3 h w c)
        ⟨List.idxOf (0 : Fin 3) gather_S256x256x32_S1024x1024x2_S1024x1024x32_2_01_n_n_01_2_1132.startIndexMap, List.idxOf_lt_length_iff.2 (by decide)⟩ = ix3 h w 0 := by
      funext b; refine Fin.ext ?_
      match b with
      | ⟨0, _⟩ => rfl
      | ⟨1, _⟩ => rfl
      | ⟨2, _⟩ => rfl
    rw [hsi]
    rfl
  | ⟨1, _⟩ =>
    show gather_S256x256x32_S1024x1024x2_S1024x1024x32_2_01_n_n_01_2_1132.start (ix3 h w c) idx 1 + gather_S256x256x32_S1024x1024x2_S1024x1024x32_2_01_n_n_01_2_1132.batchCoord (ix3 h w c) 1 + gather_S256x256x32_S1024x1024x2_S1024x1024x32_2_01_n_n_01_2_1132.offCoord (ix3 h w c) 1 = _
    rw [GatherDims.batchCoord_eq_zero _ _ _ List.not_mem_nil,
      GatherDims.offCoord_eq_zero _ _ _ (fun hm => ((GatherDims.mem_sKept _ _).mp hm).1 (by decide))]
    simp only [Nat.add_zero]
    unfold GatherDims.start
    rw [dif_pos (show (1 : Fin 3) ∈ gather_S256x256x32_S1024x1024x2_S1024x1024x32_2_01_n_n_01_2_1132.startIndexMap by decide)]
    have hsi : gather_S256x256x32_S1024x1024x2_S1024x1024x32_2_01_n_n_01_2_1132.siIdx (ix3 h w c)
        ⟨List.idxOf (1 : Fin 3) gather_S256x256x32_S1024x1024x2_S1024x1024x32_2_01_n_n_01_2_1132.startIndexMap, List.idxOf_lt_length_iff.2 (by decide)⟩ = ix3 h w 1 := by
      funext b; refine Fin.ext ?_
      match b with
      | ⟨0, _⟩ => rfl
      | ⟨1, _⟩ => rfl
      | ⟨2, _⟩ => rfl
    rw [hsi]
    rfl
  | ⟨2, _⟩ =>
    show gather_S256x256x32_S1024x1024x2_S1024x1024x32_2_01_n_n_01_2_1132.start (ix3 h w c) idx 2 + gather_S256x256x32_S1024x1024x2_S1024x1024x32_2_01_n_n_01_2_1132.batchCoord (ix3 h w c) 2 + gather_S256x256x32_S1024x1024x2_S1024x1024x32_2_01_n_n_01_2_1132.offCoord (ix3 h w c) 2 = c.val
    rw [GatherDims.batchCoord_eq_zero _ _ _ List.not_mem_nil]
    have hs : gather_S256x256x32_S1024x1024x2_S1024x1024x32_2_01_n_n_01_2_1132.start (ix3 h w c) idx 2 = 0 := by
      unfold GatherDims.start
      rw [dif_neg (by decide)]
    rw [hs]
    simp only [Nat.add_zero, Nat.zero_add]
    unfold GatherDims.offCoord
    rw [dif_pos (by decide)]
    rfl

end IndexReads

/-! ## The two building blocks of the feature array read at (h, w, c) -/

/-- One interpolated line table at (h, w, c): the table's channel-c entries at the two clamped row indices, weighted. -/
theorem lineK_apply (T : (⟨S32x1024, .f32⟩ : BufTy).Contents (Elt Ideal)) (i0 i1 : (⟨S1024x1024x1, .i32⟩ : BufTy).Contents (Elt Ideal))
    (a b : (⟨S1024x1024, .f32⟩ : BufTy).Contents (Elt Ideal)) (h w : Fin 1024) (c : Fin 32) :
    lineK (F := Ideal) T i0 i1 a b (ix3 h w c)
      = T (ix2 c (clampIdx 1024 (by decide) (i0 (ix3 h w 0)))) * a (ix2 h w)
        + T (ix2 c (clampIdx 1024 (by decide) (i1 (ix3 h w 0)))) * b (ix2 h w) := by
  unfold lineK
  rw [addf_apply, mulf_apply, mulf_apply, gatherLine_apply, gatherLine_apply, transposeLine_apply, transposeLine_apply,
    bcastChan_apply, bcastChan_apply, bcastUnit_apply, bcastUnit_apply]

/-- One corner of the plane's interpolation at (h, w, c): the plane's channel-c entry at the clamped index pair, masked, weighted. -/
theorem cornerK_apply (P : (⟨S32x256x256, .f32⟩ : BufTy).Contents (Elt Ideal)) (j : (⟨S1024x1024x2, .i32⟩ : BufTy).Contents (Elt Ideal))
    (M : (⟨S1024x1024, .i1⟩ : BufTy).Contents (Elt Ideal)) (u v : (⟨S1024x1024, .f32⟩ : BufTy).Contents (Elt Ideal)) (h w : Fin 1024) (c : Fin 32) :
    cornerK (F := Ideal) P j M u v (ix3 h w c)
      = (P (ix3 c (clampIdx 256 (by decide) (j (ix3 h w 0))) (clampIdx 256 (by decide) (j (ix3 h w 1))))
          * FloatOps.uitofp (F := Ideal) .f32 (M (ix2 h w))) * (u (ix2 h w) * v (ix2 h w)) := by
  unfold cornerK
  rw [mulf_apply, mulf_apply, gatherPlane_apply, transposePlane_apply, bcastChan_apply, bcastChan_apply]
  show _ * FloatOps.uitofp (F := Ideal) .f32 (broadcastInDim S1024x1024x1 ![0, 1] bcast_S1024x1024_S1024x1024x1_0_1 M (ix3 h w 0)) * _ = _
  rw [bcastUnit_apply, bcastUnit_apply, mulf_apply]

/-! ## The feature array, flattened and narrowed, read at one entry -/

theorem featK_apply (T1 T2 : (⟨S32x1024, .f32⟩ : BufTy).Contents (Elt Ideal)) (P : (⟨S32x256x256, .f32⟩ : BufTy).Contents (Elt Ideal))
    (ix0 ix1 : (⟨S1024x1024x1, .i32⟩ : BufTy).Contents (Elt Ideal)) (ax bx : (⟨S1024x1024, .f32⟩ : BufTy).Contents (Elt Ideal)) (iy0 iy1 : (⟨S1024x1024x1, .i32⟩ : BufTy).Contents (Elt Ideal)) (ay by_ : (⟨S1024x1024, .f32⟩ : BufTy).Contents (Elt Ideal))
    (j00 : (⟨S1024x1024x2, .i32⟩ : BufTy).Contents (Elt Ideal)) (m00 : (⟨S1024x1024, .i1⟩ : BufTy).Contents (Elt Ideal)) (u00 v00 : (⟨S1024x1024, .f32⟩ : BufTy).Contents (Elt Ideal))
    (j01 : (⟨S1024x1024x2, .i32⟩ : BufTy).Contents (Elt Ideal)) (m01 : (⟨S1024x1024, .i1⟩ : BufTy).Contents (Elt Ideal)) (u01 v01 : (⟨S1024x1024, .f32⟩ : BufTy).Contents (Elt Ideal))
    (j10 : (⟨S1024x1024x2, .i32⟩ : BufTy).Contents (Elt Ideal)) (m10 : (⟨S1024x1024, .i1⟩ : BufTy).Contents (Elt Ideal)) (u10 v10 : (⟨S1024x1024, .f32⟩ : BufTy).Contents (Elt Ideal))
    (j11 : (⟨S1024x1024x2, .i32⟩ : BufTy).Contents (Elt Ideal)) (m11 : (⟨S1024x1024, .i1⟩ : BufTy).Contents (Elt Ideal)) (u11 v11 : (⟨S1024x1024, .f32⟩ : BufTy).Contents (Elt Ideal))
    (ch : Fin 32) (h w : Fin 1024) :
    flatK (F := Ideal) (featK T1 T2 P ix0 ix1 ax bx iy0 iy1 ay by_ j00 m00 u00 v00 j01 m01 u01 v01 j10 m10 u10 v10 j11 m11 u11 v11)
        (ix2 ch ⟨h.val * 1024 + w.val, by have := h.isLt; have := w.isLt; omega⟩)
      = featAt (T1 (ix2 ch (clampIdx 1024 (by decide) (ix0 (ix3 h w 0))))) (ax (ix2 h w)) (T1 (ix2 ch (clampIdx 1024 (by decide) (ix1 (ix3 h w 0))))) (bx (ix2 h w))
        (T2 (ix2 ch (clampIdx 1024 (by decide) (iy0 (ix3 h w 0))))) (ay (ix2 h w)) (T2 (ix2 ch (clampIdx 1024 (by decide) (iy1 (ix3 h w 0))))) (by_ (ix2 h w))
        (P (ix3 ch (clampIdx 256 (by decide) (j00 (ix3 h w 0))) (clampIdx 256 (by decide) (j00 (ix3 h w 1)))))
        (FloatOps.uitofp (F := Ideal) .f32 (m00 (ix2 h w))) (u00 (ix2 h w)) (v00 (ix2 h w))
        (P (ix3 ch (clampIdx 256 (by decide) (j01 (ix3 h w 0))) (clampIdx 256 (by decide) (j01 (ix3 h w 1)))))
        (FloatOps.uitofp (F := Ideal) .f32 (m01 (ix2 h w))) (u01 (ix2 h w)) (v01 (ix2 h w))
        (P (ix3 ch (clampIdx 256 (by decide) (j10 (ix3 h w 0))) (clampIdx 256 (by decide) (j10 (ix3 h w 1)))))
        (FloatOps.uitofp (F := Ideal) .f32 (m10 (ix2 h w))) (u10 (ix2 h w)) (v10 (ix2 h w))
        (P (ix3 ch (clampIdx 256 (by decide) (j11 (ix3 h w 0))) (clampIdx 256 (by decide) (j11 (ix3 h w 1)))))
        (FloatOps.uitofp (F := Ideal) .f32 (m11 (ix2 h w))) (u11 (ix2 h w)) (v11 (ix2 h w)) := by
  unfold flatK featK
  rw [truncf_apply, flatten_apply, transposeFeat_apply]
  rw [addf_apply, mulf_apply, addf_apply, addf_apply, addf_apply, lineK_apply, lineK_apply,
    cornerK_apply, cornerK_apply, cornerK_apply, cornerK_apply]
  rfl

end Cert.KPure

end
-- ==== Proof.RFeat.lean ====
/-
  The reference's feature array read at one entry: entry (c, h, w) is the same scalar feature formula, of the same tables' entries
  and the same per-pixel weights and masks. The reference multiplies a corner's two weights one after the other; associativity of
  the product on the extended reals regroups them.
-/
import proofs.«158345_j41824391528833_2_alg».proof.Proof.Feat
import proofs.«158345_j41824391528833_2_alg».proof.Proof.RefRead

noncomputable section

namespace Cert.RFeat

open Cert.ReferenceIdeal Cert.ReferenceIdeal.Gen Idealize.ShloMosaic Idealize.ShloMosaic.TcCoe Idealize.ShloMosaic.ValueIdx Cert.Feat

/-- The line-table gather read at (c, h, w): the table's row c at the start index idx[h, w, 0], read signed and clamped into [0, 1023]. -/
theorem gather_line_apply {α : Type} (x : S32x1024.Idx → α) (idx : IVec S1024x1024x1 32) (c : Fin 32) (h w : Fin 1024) :
    Host.gather gather_S32x1024_S1024x1024x1_S32x1024x1024_0_1_n_n_1_2_321 x idx (ix3 c h w)
      = x (ix2 c (clampIdx 1024 (by decide) (idx (ix3 h w 0)))) := by
  unfold Host.gather
  congr 1
  funext a
  refine Fin.ext ?_
  match a with
  | ⟨0, _⟩ =>
    show gather_S32x1024_S1024x1024x1_S32x1024x1024_0_1_n_n_1_2_321.start (ix3 c h w) idx 0
      + gather_S32x1024_S1024x1024x1_S32x1024x1024_0_1_n_n_1_2_321.batchCoord (ix3 c h w) 0
      + gather_S32x1024_S1024x1024x1_S32x1024x1024_0_1_n_n_1_2_321.offCoord (ix3 c h w) 0 = c.val
    rw [GatherDims.batchCoord_eq_zero _ _ _ List.not_mem_nil]
    unfold GatherDims.start
    rw [dif_neg (by decide)]
    unfold GatherDims.offCoord
    rw [dif_pos (by decide)]
    simp only [Nat.add_zero, Nat.zero_add]
    rfl
  | ⟨1, _⟩ =>
    show gather_S32x1024_S1024x1024x1_S32x1024x1024_0_1_n_n_1_2_321.start (ix3 c h w) idx 1
      + gather_S32x1024_S1024x1024x1_S32x1024x1024_0_1_n_n_1_2_321.batchCoord (ix3 c h w) 1
      + gather_S32x1024_S1024x1024x1_S32x1024x1024_0_1_n_n_1_2_321.offCoord (ix3 c h w) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32x1024_S1024x1024x1_S32x1024x1024_0_1_n_n_1_2_321.startIndexMap from List.mem_singleton.mpr rfl)]
    have hsi : gather_S32x1024_S1024x1024x1_S32x1024x1024_0_1_n_n_1_2_321.siIdx (ix3 c h w)
        ⟨List.idxOf (1 : Fin 2) gather_S32x1024_S1024x1024x1_S32x1024x1024_0_1_n_n_1_2_321.startIndexMap,
          List.idxOf_lt_length_iff.2 (List.mem_singleton.mpr rfl)⟩ = ix3 h w 0 := by
      funext b; refine Fin.ext ?_
      match b with
      | ⟨0, _⟩ => rfl
      | ⟨1, _⟩ => rfl
      | ⟨2, _⟩ => rfl
    rw [hsi]
    rfl

/-- The plane gather read at (c, h, w): the plane's channel c at the start index pair (idx[h, w, 0], idx[h, w, 1]), each read signed and
    clamped into [0, 255]. -/
theorem gather_plane_apply {α : Type} (x : S32x256x256.Idx → α) (idx : IVec S1024x1024x2 32) (c : Fin 32) (h w : Fin 1024) :
    Host.gather gather_S32x256x256_S1024x1024x2_S32x1024x1024_0_12_n_n_12_2_3211 x idx (ix3 c h w)
      = x (ix3 c (clampIdx 256 (by decide) (idx (ix3 h w 0))) (clampIdx 256 (by decide) (idx (ix3 h w 1)))) := by
  unfold Host.gather
  congr 1
  funext a
  refine Fin.ext ?_
  match a with
  | ⟨0, _⟩ =>
    show gather_S32x256x256_S1024x1024x2_S32x1024x1024_0_12_n_n_12_2_3211.start (ix3 c h w) idx 0
      + gather_S32x256x256_S1024x1024x2_S32x1024x1024_0_12_n_n_12_2_3211.batchCoord (ix3 c h w) 0
      + gather_S32x256x256_S1024x1024x2_S32x1024x1024_0_12_n_n_12_2_3211.offCoord (ix3 c h w) 0 = c.val
    rw [GatherDims.batchCoord_eq_zero _ _ _ List.not_mem_nil]
    unfold GatherDims.start
    rw [dif_neg (by decide)]
    unfold GatherDims.offCoord
    rw [dif_pos (by decide)]
    simp only [Nat.add_zero, Nat.zero_add]
    rfl
  | ⟨1, _⟩ =>
    show gather_S32x256x256_S1024x1024x2_S32x1024x1024_0_12_n_n_12_2_3211.start (ix3 c h w) idx 1
      + gather_S32x256x256_S1024x1024x2_S32x1024x1024_0_12_n_n_12_2_3211.batchCoord (ix3 c h w) 1
      + gather_S32x256x256_S1024x1024x2_S32x1024x1024_0_12_n_n_12_2_3211.offCoord (ix3 c h w) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S32x256x256_S1024x1024x2_S32x1024x1024_0_12_n_n_12_2_3211.startIndexMap by decide)]
    have hsi : gather_S32x256x256_S1024x1024x2_S32x1024x1024_0_12_n_n_12_2_3211.siIdx (ix3 c h w)
        ⟨List.idxOf (1 : Fin 3) gather_S32x256x256_S1024x1024x2_S32x1024x1024_0_12_n_n_12_2_3211.startIndexMap,
          List.idxOf_lt_length_iff.2 (by decide)⟩ = ix3 h w 0 := by
      funext b; refine Fin.ext ?_
      match b with
      | ⟨0, _⟩ => rfl
      | ⟨1, _⟩ => rfl
      | ⟨2, _⟩ => rfl
    rw [hsi]
    rfl
  | ⟨2, _⟩ =>
    show gather_S32x256x256_S1024x1024x2_S32x1024x1024_0_12_n_n_12_2_3211.start (ix3 c h w) idx 2
      + gather_S32x256x256_S1024x1024x2_S32x1024x1024_0_12_n_n_12_2_3211.batchCoord (ix3 c h w) 2
      + gather_S32x256x256_S1024x1024x2_S32x1024x1024_0_12_n_n_12_2_3211.offCoord (ix3 c h w) 2 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 3) ∈ gather_S32x256x256_S1024x1024x2_S32x1024x1024_0_12_n_n_12_2_3211.startIndexMap by decide)]
    have hsi : gather_S32x256x256_S1024x1024x2_S32x1024x1024_0_12_n_n_12_2_3211.siIdx (ix3 c h w)
        ⟨List.idxOf (2 : Fin 3) gather_S32x256x256_S1024x1024x2_S32x1024x1024_0_12_n_n_12_2_3211.startIndexMap,
          List.idxOf_lt_length_iff.2 (by decide)⟩ = ix3 h w 1 := by
      funext b; refine Fin.ext ?_
      match b with
      | ⟨0, _⟩ => rfl
      | ⟨1, _⟩ => rfl
      | ⟨2, _⟩ => rfl
    rw [hsi]
    rfl

/-- A per-pixel array broadcast over the channel axis ([1024,1024] → [1,1024,1024] → [32,1024,1024]) reads, at (c, h, w), its entry (h, w). -/
theorem bcast_pixel_apply {α : Type} (y : S1024x1024.Idx → α) (c : Fin 32) (h w : Fin 1024) :
    broadcastInDim S32x1024x1024 ![0, 1, 2] bcast_S1x1024x1024_S32x1024x1024_0_1_2
        (broadcastInDim S1x1024x1024 ![1, 2] bcast_S1024x1024_S1x1024x1024_1_2 y) (ix3 c h w)
      = y (ix2 h w) := by
  rw [broadcastInDim_apply _ bcast_S1x1024x1024_S32x1024x1024_0_1_2 _ (ix3 c h w) (ix3 (0 : Fin 1) h w) (fun a => match a with
    | ⟨0, _⟩ => by show 0 = if (1 : Nat) = 1 then 0 else c.val; rw [if_pos rfl]
    | ⟨1, _⟩ => by show h.val = if (1024 : Nat) = 1 then 0 else h.val; rw [if_neg (by decide)]
    | ⟨2, _⟩ => by show w.val = if (1024 : Nat) = 1 then 0 else w.val; rw [if_neg (by decide)])]
  exact broadcastInDim_apply _ bcast_S1024x1024_S1x1024x1024_1_2 y (ix3 (0 : Fin 1) h w) (ix2 h w) (fun a => match a with
    | ⟨0, _⟩ => by show h.val = if (1024 : Nat) = 1 then 0 else h.val; rw [if_neg (by decide)]
    | ⟨1, _⟩ => by show w.val = if (1024 : Nat) = 1 then 0 else w.val; rw [if_neg (by decide)])

theorem ref_feat (x0 : (⟨S1024x1024x2, .f32⟩ : BufTy).Contents (Elt Ideal)) (x1 x2 : (⟨S32x1024, .f32⟩ : BufTy).Contents (Elt Ideal))
    (x3 : (⟨S32x256x256, .f32⟩ : BufTy).Contents (Elt Ideal)) (ch : Fin 32) (h w : Fin 1024) :
    Cert.ReferenceIdeal.ReadP.val_main_v280 (F := Ideal) x0 x1 x2 x3 (ix3 ch h w)
      = featAt (x1 (ix2 ch (clampIdx 1024 (by decide) ((Cert.ReferenceIdeal.ReadP.val_main_v34 (F := Ideal) x0) (ix3 h w 0))))) ((Cert.ReferenceIdeal.ReadP.val_main_v37 (F := Ideal) x0) (ix2 h w)) (x1 (ix2 ch (clampIdx 1024 (by decide) ((Cert.ReferenceIdeal.ReadP.val_main_v48 (F := Ideal) x0) (ix3 h w 0))))) ((Cert.ReferenceIdeal.ReadP.val_main_v28 (F := Ideal) x0) (ix2 h w))
        (x2 (ix2 ch (clampIdx 1024 (by decide) ((Cert.ReferenceIdeal.ReadP.val_main_v72 (F := Ideal) x0) (ix3 h w 0))))) ((Cert.ReferenceIdeal.ReadP.val_main_v75 (F := Ideal) x0) (ix2 h w)) (x2 (ix2 ch (clampIdx 1024 (by decide) ((Cert.ReferenceIdeal.ReadP.val_main_v86 (F := Ideal) x0) (ix3 h w 0))))) ((Cert.ReferenceIdeal.ReadP.val_main_v66 (F := Ideal) x0) (ix2 h w))
        (x3 (ix3 ch (clampIdx 256 (by decide) ((Cert.ReferenceIdeal.ReadP.val_main_v137 (F := Ideal) x0) (ix3 h w 0))) (clampIdx 256 (by decide) ((Cert.ReferenceIdeal.ReadP.val_main_v137 (F := Ideal) x0) (ix3 h w 1)))))
        (FloatOps.uitofp (F := Ideal) .f32 ((Cert.ReferenceIdeal.ReadP.val_main_v122 (F := Ideal) x0) (ix2 h w))) ((Cert.ReferenceIdeal.ReadP.val_main_v144 (F := Ideal) x0) (ix2 h w)) ((Cert.ReferenceIdeal.ReadP.val_main_v149 (F := Ideal) x0) (ix2 h w))
        (x3 (ix3 ch (clampIdx 256 (by decide) ((Cert.ReferenceIdeal.ReadP.val_main_v180 (F := Ideal) x0) (ix3 h w 0))) (clampIdx 256 (by decide) ((Cert.ReferenceIdeal.ReadP.val_main_v180 (F := Ideal) x0) (ix3 h w 1)))))
        (FloatOps.uitofp (F := Ideal) .f32 ((Cert.ReferenceIdeal.ReadP.val_main_v165 (F := Ideal) x0) (ix2 h w))) ((Cert.ReferenceIdeal.ReadP.val_main_v187 (F := Ideal) x0) (ix2 h w)) ((Cert.ReferenceIdeal.ReadP.val_main_v109 (F := Ideal) x0) (ix2 h w))
        (x3 (ix3 ch (clampIdx 256 (by decide) ((Cert.ReferenceIdeal.ReadP.val_main_v222 (F := Ideal) x0) (ix3 h w 0))) (clampIdx 256 (by decide) ((Cert.ReferenceIdeal.ReadP.val_main_v222 (F := Ideal) x0) (ix3 h w 1)))))
        (FloatOps.uitofp (F := Ideal) .f32 ((Cert.ReferenceIdeal.ReadP.val_main_v207 (F := Ideal) x0) (ix2 h w))) ((Cert.ReferenceIdeal.ReadP.val_main_v111 (F := Ideal) x0) (ix2 h w)) ((Cert.ReferenceIdeal.ReadP.val_main_v232 (F := Ideal) x0) (ix2 h w))
        (x3 (ix3 ch (clampIdx 256 (by decide) ((Cert.ReferenceIdeal.ReadP.val_main_v266 (F := Ideal) x0) (ix3 h w 0))) (clampIdx 256 (by decide) ((Cert.ReferenceIdeal.ReadP.val_main_v266 (F := Ideal) x0) (ix3 h w 1)))))
        (FloatOps.uitofp (F := Ideal) .f32 ((Cert.ReferenceIdeal.ReadP.val_main_v251 (F := Ideal) x0) (ix2 h w))) ((Cert.ReferenceIdeal.ReadP.val_main_v111 (F := Ideal) x0) (ix2 h w)) ((Cert.ReferenceIdeal.ReadP.val_main_v109 (F := Ideal) x0) (ix2 h w)) := by
  unfold ReadP.val_main_v280 ReadP.val_main_v279 ReadP.val_main_v278 ReadP.val_main_v53 ReadP.val_main_v91 ReadP.val_main_v40
    ReadP.val_main_v52 ReadP.val_main_v78 ReadP.val_main_v90
    ReadP.val_main_v236 ReadP.val_main_v194 ReadP.val_main_v152 ReadP.val_main_v193 ReadP.val_main_v235 ReadP.val_main_v277
    ReadP.val_main_v147 ReadP.val_main_v142 ReadP.val_main_v190 ReadP.val_main_v185 ReadP.val_main_v230 ReadP.val_main_v227
    ReadP.val_main_v274 ReadP.val_main_v271
    ReadP.val_main_v35 ReadP.val_main_v49 ReadP.val_main_v73 ReadP.val_main_v87
    ReadP.val_main_v138 ReadP.val_main_v181 ReadP.val_main_v223 ReadP.val_main_v267
    ReadP.val_main_v39 ReadP.val_main_v38 ReadP.val_main_v51 ReadP.val_main_v50 ReadP.val_main_v77 ReadP.val_main_v76
    ReadP.val_main_v89 ReadP.val_main_v88
    ReadP.val_main_v141 ReadP.val_main_v140 ReadP.val_main_v146 ReadP.val_main_v145 ReadP.val_main_v151 ReadP.val_main_v150
    ReadP.val_main_v184 ReadP.val_main_v183 ReadP.val_main_v189 ReadP.val_main_v188 ReadP.val_main_v192 ReadP.val_main_v191
    ReadP.val_main_v226 ReadP.val_main_v225 ReadP.val_main_v229 ReadP.val_main_v228 ReadP.val_main_v234 ReadP.val_main_v233
    ReadP.val_main_v270 ReadP.val_main_v269 ReadP.val_main_v273 ReadP.val_main_v272 ReadP.val_main_v276 ReadP.val_main_v275
  simp only [addf_apply, mulf_apply, gather_line_apply, gather_plane_apply]
  iterate 14 rw [bcast_pixel_apply]
  simp only [ReadP.val_main_v139_apply, ReadP.val_main_v182_apply, ReadP.val_main_v224_apply, ReadP.val_main_v268_apply]
  unfold featAt
  simp only [mul_assoc]

end Cert.RFeat

end
-- ==== Proof.RMlp.lean ====
/-
  The reference's decoder read at one pixel: its result at (h, w) is the two-layer perceptron of the reference's
  feature array at that pixel, the weights read off its arguments.
-/
import proofs.«158345_j41824391528833_2_alg».proof.Proof.Feat
import proofs.«158345_j41824391528833_2_alg».proof.Proof.RefRead

noncomputable section

namespace Cert.RMlp

open Cert.ReferenceIdeal Cert.ReferenceIdeal.Gen Idealize.ShloMosaic Idealize.ShloMosaic.TcCoe Idealize.ShloMosaic.ValueIdx Cert.Feat

theorem ref_mlp (x0 : (⟨S1024x1024x2, .f32⟩ : BufTy).Contents (Elt Ideal)) (x1 x2 : (⟨S32x1024, .f32⟩ : BufTy).Contents (Elt Ideal))
    (x3 : (⟨S32x256x256, .f32⟩ : BufTy).Contents (Elt Ideal)) (x4 : (⟨S64x32, .f32⟩ : BufTy).Contents (Elt Ideal))
    (x5 : (⟨S64, .f32⟩ : BufTy).Contents (Elt Ideal)) (x6 : (⟨S1x64, .f32⟩ : BufTy).Contents (Elt Ideal))
    (x7 : (⟨S1, .f32⟩ : BufTy).Contents (Elt Ideal)) (h w : Fin 1024) :
    Cert.ReferenceIdeal.ReadP.val_main_v291 (F := Ideal) x0 x1 x2 x3 x4 x5 x6 x7 (ix2 h w)
      = mlp (fun k c => x4 (ix2 k c)) (fun k => x5 (ix1 k)) (fun k => x6 (ix2 0 k)) (x7 (ix1 0))
          (fun c => Cert.ReferenceIdeal.ReadP.val_main_v280 (F := Ideal) x0 x1 x2 x3 (ix3 c h w)) := by
  -- The composed index maps of the layout operations, at the pixel (h, w), are the plain coordinate tuples;
  -- the reshape's division and remainder of h * 1024 + w by 1024 give back h and w.
  have e7 : ReadP.idx_main_v288 (ReadP.idx_main_v289 (ReadP.idx_main_v291 (ix2 h w))) = ix1 0 :=
    funext fun a => Fin.ext (by match a with | ⟨0, _⟩ => rfl)
  have e6 : ∀ k : Fin 64, ReadP.ridx_main_v287 (ReadP.idx_main_v291 (ix2 h w)) k = ix2 0 k := fun k =>
    funext fun a => Fin.ext (by match a with | ⟨0, _⟩ => rfl | ⟨1, _⟩ => rfl)
  have e5 : ∀ k : Fin 64, ReadP.idx_main_v283 (ReadP.idx_main_v284 (ReadP.lidx_main_v287 (ReadP.idx_main_v291 (ix2 h w)) k)) = ix1 k := fun k =>
    funext fun a => Fin.ext (by match a with | ⟨0, _⟩ => rfl)
  have e4 : ∀ (k : Fin 64) (c : Fin 32), ReadP.ridx_main_v282 (ReadP.lidx_main_v287 (ReadP.idx_main_v291 (ix2 h w)) k) c = ix2 k c := fun k c =>
    funext fun a => Fin.ext (by match a with | ⟨0, _⟩ => rfl | ⟨1, _⟩ => rfl)
  have e1 : ∀ (k : Fin 64) (c : Fin 32),
      ReadP.idx_main_v281 (ReadP.lidx_main_v282 (ReadP.lidx_main_v287 (ReadP.idx_main_v291 (ix2 h w)) k) c) = ix3 c h w := fun k c =>
    funext fun a => Fin.ext (by
      have hh : h.val < 1024 := h.isLt
      have hw : w.val < 1024 := w.isLt
      match a with
      | ⟨0, _⟩ => rfl
      | ⟨1, _⟩ => show (h.val * 1024 + w.val) / 1024 = h.val; omega
      | ⟨2, _⟩ => show (h.val * 1024 + w.val) / 1 % 1024 = w.val; omega)
  -- Outer layer: the result is (sum over the 64 hidden units of hidden * W2) + b2.
  rw [ReadP.val_main_v291_apply, ReadP.val_main_v290_apply, ReadP.val_main_v287_apply, ReadP.val_main_v289_apply, ReadP.val_main_v288_apply, e7]
  unfold mlp
  rw [Ideal.addf_def]
  congr 1
  refine Finset.sum_congr rfl fun k _ => ?_
  -- Hidden unit k: max ((sum over the 32 channels of feature * W1) + b1 k) 0; the products commute.
  rw [ReadP.val_main_v286_apply, ReadP.val_main_v285_apply, ReadP.val_main_v282_apply, ReadP.val_main_v284_apply, ReadP.val_main_v283_apply,
    ReadP.val_main_call10_v0_apply, ReadP.val_main_call10_cst_apply]
  rw [Ideal.maximumf_def, Ideal.addf_def, Ideal.ofBits_def, Ideal.ofBits_zero_f32, mul_comm, e6, e5]
  congr 3
  refine Finset.sum_congr rfl fun c _ => ?_
  rw [ReadP.val_main_v281_apply, e1, e4, mul_comm]

end Cert.RMlp

end
-- ==== Proof.Bridge.lean ====
/-
  The kernel program's result array is the reference's result stage of the same arguments, pixel by pixel: both are the
  decoder of the pixel's feature vector, the kernel's feature entry (c, h * 1024 + w) and the reference's (c, h, w) being the same
  scalar formula of the same table entries, weights and masks; the kernel's weight and bias arrays are the arguments themselves
  or their reshapes to columns.
-/
import proofs.«158345_j41824391528833_2_alg».proof.Proof.KValue
import proofs.«158345_j41824391528833_2_alg».proof.Proof.KHost
import proofs.«158345_j41824391528833_2_alg».proof.Proof.KPure
import proofs.«158345_j41824391528833_2_alg».proof.Proof.RFeat
import proofs.«158345_j41824391528833_2_alg».proof.Proof.RMlp

noncomputable section

namespace Cert.Bridge

open Cert.KernelIdeal Cert.KernelIdeal.Gen Idealize.ShloMosaic Idealize.ShloMosaic.TcCoe Idealize.SL.Sem Idealize.ShloMosaic.ValueIdx Cert.Feat Cert.KValue

variable (m : (ℓ : Loc nD τ sig) → Buf (Elt Ideal) ℓ)

/-- The bias column staged for the first layer is the bias argument. -/
theorem b1_apply (c : Dev nD) (k : Fin 64) : b1arr m c (ix2 k 0) = ((m ((c : Thread nD τ).loc main_arg5)) : S64.Idx → EReal) (ix1 k) := by
  show V m c main_call0_v279 (ix2 k 0) = _
  rw [Cert.KHost.V_b1col]
  refine shapeCast_apply _ shapeCasts_S64_S64x1 (ix2 k 0) (ix1 k) ?_
  rw [Shape.rowMajor_val_one, Shape.rowMajor_val_two]
  show k.val = k.val * 1 + 0
  omega

/-- The bias staged for the second layer is the bias argument. -/
theorem b2_apply (c : Dev nD) : b2arr m c (ix2 0 0) = ((m ((c : Thread nD τ).loc main_arg7)) : S1.Idx → EReal) (ix1 0) := by
  show V m c main_call0_v280 (ix2 0 0) = _
  rw [Cert.KHost.V_b2col]
  refine shapeCast_apply _ shapeCasts_S1_S1x1 (ix2 0 0) (ix1 0) ?_
  rw [Shape.rowMajor_val_one, Shape.rowMajor_val_two]
  rfl

/-- The staged feature array at (c', h * 1024 + w) is the reference's feature stage at (c', h, w). -/
theorem x_apply (c : Dev nD) (c' : Fin 32) (h w : Fin 1024) :
    xarr m c (ix2 c' ⟨h.val * 1024 + w.val, by have := h.isLt; have := w.isLt; omega⟩)
      = Cert.ReferenceIdeal.ReadP.val_main_v280 (F := Ideal) (m ((c : Thread nD τ).loc main_arg0)) (m ((c : Thread nD τ).loc main_arg1)) (m ((c : Thread nD τ).loc main_arg2)) (m ((c : Thread nD τ).loc main_arg3)) (ix3 c' h w) := by
  show V m c main_call0_v278 _ = _
  rw [Cert.KHost.V_feat]
  exact (Cert.KPure.featK_apply _ _ _ _ _ _ _ _ _ _ _ _ _ _ _ _ _ _ _ _ _ _ _ _ _ _ _ c' h w).trans
    (Cert.RFeat.ref_feat (m ((c : Thread nD τ).loc main_arg0)) (m ((c : Thread nD τ).loc main_arg1)) (m ((c : Thread nD τ).loc main_arg2)) (m ((c : Thread nD τ).loc main_arg3)) c' h w).symm

/-- THE BRIDGE: the kernel program's result array is the reference's result stage of the same arguments. -/
theorem out_eq_ref (c : Dev nD) :
    outArr m c = Cert.ReferenceIdeal.ReadP.val_main_v291 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨h, w, rfl⟩ : ∃ (h w : Fin 1024), i = ix2 h w := ⟨i 0, i 1, eq_ix2 i⟩
  rw [Cert.RMlp.ref_mlp, outArr_apply]
  unfold Gflat
  have hw1 : (fun (k : Fin 64) (c' : Fin 32) => w1arr m c (ix2 k c')) = fun k c' => ((m ((c : Thread nD τ).loc main_arg4)) : S64x32.Idx → EReal) (ix2 k c') :=
    funext fun k => funext fun c' => congrFun (V_main_arg4 m c) (ix2 k c')
  have hw2 : (fun (k : Fin 64) => w2arr m c (ix2 0 k)) = fun k => ((m ((c : Thread nD τ).loc main_arg6)) : S1x64.Idx → EReal) (ix2 0 k) :=
    funext fun k => congrFun (V_main_arg6 m c) (ix2 0 k)
  have hb1 : (fun (k : Fin 64) => b1arr m c (ix2 k 0)) = fun k => ((m ((c : Thread nD τ).loc main_arg5)) : S64.Idx → EReal) (ix1 k) :=
    funext fun k => b1_apply m c k
  have hx : (fun (c' : Fin 32) => xarr m c (ix2 c' ⟨h.val * 1024 + w.val, by have := h.isLt; have := w.isLt; omega⟩))
      = fun c' => Cert.ReferenceIdeal.ReadP.val_main_v280 (F := Ideal) (m ((c : Thread nD τ).loc main_arg0)) (m ((c : Thread nD τ).loc main_arg1)) (m ((c : Thread nD τ).loc main_arg2)) (m ((c : Thread nD τ).loc main_arg3)) (ix3 c' h w) :=
    funext fun c' => x_apply m c c' h w
  rw [hw1, hw2, hb1, hx, b2_apply]

end Cert.Bridge

end
-- ==== Proof.lean ====
/-
  The proof of this certificate's claim: the Pallas decoder kernel with its channels-last feature sampling equals, over the
  extended reals, the plain reference.

  Both programs sample, at every pixel (h, w) of a 1024 x 1024 image and for each of 32 channels, a feature
      feat c h w = (line table x interpolated at the pixel's x) * (line table y interpolated at its y)
                   + (plane table interpolated bilinearly at (y, x), corners outside the table masked to zero),
  and decode it by  out h w = sum_k W2[0,k] * max (sum_c W1[k,c] * feat c h w + b1[k]) 0 + b2[0].
  The two differ in layout (the kernel's host code keeps channels last, gathers from transposed tables, transposes and
  flattens; its pallas_call works on [32, 65536]-column blocks in four chunks) and in the grouping of a corner's two weights;
  on the extended reals the product is associative and commutative and a change of float format is the identity, so the two
  results agree entry by entry. The per-pixel index, weight and mask arrays are computed from the coordinates by the same
  operations in both programs and are never opened. Finiteness of the inputs is not used.

  The frames of the two kernel programs are the generated frame runs; the reference's frame is its run with the result dropped;
  no operation was rewritten by the idealization, so that conjunct is trivial.
-/
import proofs.«158345_j41824391528833_2_alg».proof.Defs
import proofs.«158345_j41824391528833_2_alg».proof.Proof.Gen.Kernel
import proofs.«158345_j41824391528833_2_alg».proof.Proof.Gen.Kernel.Skeleton
import proofs.«158345_j41824391528833_2_alg».proof.Proof.Gen.Kernel.Launch
import proofs.«158345_j41824391528833_2_alg».proof.Proof.Gen.Kernel.Points
import proofs.«158345_j41824391528833_2_alg».proof.Proof.Gen.Kernel.Frame
import proofs.«158345_j41824391528833_2_alg».proof.Proof.Gen.KernelIdeal
import proofs.«158345_j41824391528833_2_alg».proof.Proof.Gen.KernelIdeal.Skeleton
import proofs.«158345_j41824391528833_2_alg».proof.Proof.Gen.KernelIdeal.Launch
import proofs.«158345_j41824391528833_2_alg».proof.Proof.Gen.KernelIdeal.Points
import proofs.«158345_j41824391528833_2_alg».proof.Proof.Gen.KernelIdeal.Frame
import proofs.«158345_j41824391528833_2_alg».proof.Proof.Gen.ReferenceIdeal
import proofs.«158345_j41824391528833_2_alg».proof.Proof.Gen.Pre_finite_inputs
import proofs.«158345_j41824391528833_2_alg».proof.Proof.RefRun
import proofs.«158345_j41824391528833_2_alg».proof.Proof.RefRead
import proofs.«158345_j41824391528833_2_alg».proof.Proof.RefRunH
import proofs.«158345_j41824391528833_2_alg».proof.Proof.KValue
import proofs.«158345_j41824391528833_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefRunH.run (F := Ideal) m ρ)

theorem preserves : Cert.preserves_Kernel_KernelIdeal := trivial

/-- Both idealized programs end with the decoder of the sampled features in their result arrays: the kernel program's run
    read as values, the reference's run read as its last stage, and the bridge between the two, pixel by pixel. -/
theorem algebraic : Cert.algebraic_KernelIdeal_ReferenceIdeal := by
  intro m ρ m' ρ' _ hagree
  refine ⟨fun c => Cert.KValue.outArr m c, Cert.KValue.run m ρ, ?_⟩
  refine (θ_run Cert.ReferenceIdeal.defs _ _).mono (fun _ h c => ⟨(h c).1.trans ?_, (h c).2⟩)
    (Cert.RefRunH.run (F := Ideal) m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.Bridge.out_eq_ref m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
